-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 4294867296#32
  let main_v41 : IVec S1600000 32 := broadcastInDim S1600000 ![] bcast_S_S1600000 main_c_14
  let main_v42 : IVec S1600000 1 := cmpi .sge main_v40 main_v41
  let main_c_15 : IVec S_ 1 := constantI S_ 1 1#1
  let main_v43 : IVec S_ 1 := (fun x v => Host.reduce IntOp.andi x v reducesTo_S1600000_S_d0 h_S_) main_v42 main_c_15
  let main_v44 : IVec S_ 1 := andi main_v38 main_v43
  let main_v45 : IVec S1x1600000 32 := (extractStridedSlice S1x1600000 ![0, 0] · slices_S2x1600000_S1x1600000_0_0) main_arg1
  let main_v46 : IVec S1600000 32 := shapeCast S1600000 main_v45 shapeCasts_S1x1600000_S1600000
  let main_c_16 : IVec S_ 32 := constantI S_ 32 100000#32
  let main_v47 : IVec S1600000 32 := broadcastInDim S1600000 ![] bcast_S_S1600000 main_c_16
  let main_v48 : IVec S1600000 1 := cmpi .slt main_v46 main_v47
  let main_c_17 : IVec S_ 1 := constantI S_ 1 1#1
  let main_v49 : IVec S_ 1 := (fun x v => Host.reduce IntOp.andi x v reducesTo_S1600000_S_d0 h_S_) main_v48 main_c_17
  let main_v50 : IVec S_ 1 := andi main_v44 main_v49
  main_v50

def fn_part1 {F : FTy → Type} [FloatOps F] (main_arg1 : IVec S2x1600000 32) (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S3200x128 : Shape := ⟨2, ![3200, 128]⟩
abbrev S1x128 : Shape := ⟨2, ![1, 128]⟩
abbrev S10000x128 : Shape := ⟨2, ![10000, 128]⟩

abbrev nBuf : Space → Nat
  | .hbm => 59
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x128, .f32⟩
  | .hbm, ⟨32, _⟩ => ⟨S1600000x128, .i1⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v13_2 : Ref sig .tc := ⟨.hbm, 47, rfl⟩
abbrev main_cst_0 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_27 : BitVec 32 := 0#32
  let v47 : BitVec 1 := Scalar.cmpi .ne v46 c0_i32_27
  v47

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S10000x128 : S1x128.Broadcasts S10000x128
  reduces_S10000x128_S128 : S10000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S1600000x128.size a
  hwx0_0 : ∀ i : grid0.Coords, EltTy.bits .f32 = 32 ∨ (Rect.block (s := S1600000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S1600000x128.size a
  hwx0_1 : ∀ i : grid0.Coords, EltTy.bits .f32 = 32 ∨ (Rect.block (s := S1600000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S1600000x128.size a
  hwx0_2 : ∀ i : grid0.Coords, EltTy.bits .f32 = 32 ∨ (Rect.block (s := S1600000x128) S3200x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_0) S10000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v13_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call2_cst : Ref sig .tc := ⟨.hbm, 77, rfl⟩
abbrev main_call2_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Kernel.R0.lean ====
/- REGION 0 of @main (pipeline 0, the edge-message kernel), at a parameter `V`: the TensorCore's buffer
   contents when the region is entered. On a grid of 500 points the body reads two 3200×128 blocks x0, x1 (windows 0, 1
   of two 1600000×128 arrays, block `t` at point `t`) and stores max (x0 + x1) 0 over the whole 3200×128 block of
   window 2. This module gives each window's block at a point (`iblk0`), proves that each input's staging buffer holds
   its block at every point (`before0_0`, `before0_1`), names what the body leaves in the output's buffer
   (`out0_2`: its one whole-block store, which covers the buffer, `cover0_2`), proves the body's triple on whole
   staging memrefs (`sound_kernel0`: the output's buffer is read before it is written, its value unused, so it is held
   at unknown contents), and assembles the pipeline's proof data `dat0` and the body obligation at every point
   (`body_obligation0`). Everything is generic in the float instance. -/
import proofs.«428931_j67113158967915_3_alg».proof.Proof.Gen.Kernel.Launch
import proofs.«428931_j67113158967915_3_alg».proof.Proof.Gen.Kernel.Skeleton
import proofs.«428931_j67113158967915_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__edge_msg_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`): the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, under the same two hypotheses. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 3200×128 block: the one rectangle the body loads and stores. -/
abbrev r0_0 : Rect S3200x128 := Rect.unit (s := S3200x128) ![0, 0] S3200x128.size inb_S3200x128_S3200x128_0_0

/-! ## What the body leaves in the output window's buffer -/

/-- Window 2's staging buffer after the body, from the input windows' blocks: its one store, of
    max (x0 + x1) 0 over the whole block. -/
def out0_2 (x0 x1 : Vec F S3200x128 .f32) : Vec F S3200x128 .f32 :=
  View.canon [⟨r0_0, k0_pay1 (View.ld x0 r0_0) (View.ld x1 r0_0)⟩]

/-- The store is of the whole block, so it covers the buffer. -/
theorem cover0_2 (p0 : Vec F S3200x128 .f32) (y : S3200x128.Idx) :
    ∃ pc ∈ ([⟨r0_0, p0⟩] : List (View.Piece (Elt F) S3200x128 .f32)), y ∈ pc.1.set :=
  View.cover_of_tiled [⟨r0_0, p0⟩] S3200x128.size (by rfl) y

/-! ## The body's triple -/

set_option maxHeartbeats 1000000 in
/-- The kernel body on whole staging memrefs, the inputs' at read contents `x0`, `x1` and the output's at anything,
    runs to the continuation holding the inputs' as they were and the output's at `out0_2 x0 x1`. The body reads the
    output's buffer before it stores to it; the value read is not used. -/
theorem sound_kernel0 (c : Dev nD) (E : Set ℕ) (i : grid0.Coords) (arg0 : Memref sig .tc .vmem S3200x128 .f32) (harg0 : arg0.IsWhole)
    (arg1 : Memref sig .tc .vmem S3200x128 .f32) (harg1 : arg1.IsWhole) (arg2 : Memref sig .tc .vmem S3200x128 .f32) (harg2 : arg2.IsWhole)
    (x0 x1 : Vec F S3200x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__edge_msg_kernel i arg0 harg0 arg1 harg1 arg2 harg2) K := by
  simp only [cc0__edge_msg_kernel_eq_skeleton]; unfold cc0__edge_msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.Kernel.R1Runs.lean ====
/- Region 1 of the program: the pipeline of `cc1__mlp_stats_kernel` over its ten grid points, a body that keeps two
   row accumulators (the column sums of its row block and of the squares) in scratch memory CARRIED from point to
   point, resets them at the first point and copies them to two outputs at the last. This module states, at any
   contents `V` of the TensorCore's buffers when the region is entered, what each window's block is at a point and
   that an input window's staging buffer holds its block at every point; the two conditions of the body in closed
   form; where the two conditional outputs are idle; the class invariant with the two scratch buffers split off; and
   the body's triple in each of the three cases of the conditions (first point, middle points, last point) as the
   lists of pieces its stores leave in every buffer it writes. -/
import proofs.«428931_j67113158967915_3_alg».proof.Proof.Gen.Kernel.Launch
import proofs.«428931_j67113158967915_3_alg».proof.Proof.Gen.Kernel.Skeleton
import proofs.«428931_j67113158967915_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at the first point only: afterwards its block index does not move), for any proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at the first point only: afterwards its block index does not move), for any proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (it is fetched at the first point only: afterwards its block index does not move), for any proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (it is fetched at the first point only: afterwards its block index does not move), for any proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional (the reset of the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the body's second conditional (the copy of the accumulators to the outputs), from the grid coordinates. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Window 5 is never idle. -/
theorem liveAt1_5 : ∀ t : Fin cfg1.N, cfg1.idle 5 (grid1.coords t) = false := by decide +kernel
/-- Window 6 is never idle. -/
theorem liveAt1_6 : ∀ t : Fin cfg1.N, cfg1.idle 6 (grid1.coords t) = false := by decide +kernel

/-- At the first point output 7 is idle: the body stores nothing into it. -/
theorem idleAt1_7_A : ∀ t : Fin cfg1.N, cond1_0 (grid1.coords t) → ¬cond1_1 (grid1.coords t) → cfg1.idle 7 (grid1.coords t) = true := by decide +kernel
/-- At the first point output 7's block is not written back. -/
theorem noFlush1_7_A : ∀ t : Fin cfg1.N, cond1_0 (grid1.coords t) → ¬cond1_1 (grid1.coords t) → (cfg1.win 7).flush t = false := by decide +kernel
/-- At the middle points output 7 is idle: the body stores nothing into it. -/
theorem idleAt1_7_B : ∀ t : Fin cfg1.N, ¬cond1_0 (grid1.coords t) → ¬cond1_1 (grid1.coords t) → cfg1.idle 7 (grid1.coords t) = true := by decide +kernel
/-- At the middle points output 7's block is not written back. -/
theorem noFlush1_7_B : ∀ t : Fin cfg1.N, ¬cond1_0 (grid1.coords t) → ¬cond1_1 (grid1.coords t) → (cfg1.win 7).flush t = false := by decide +kernel
/-- At the last point output 7 is live: the body stores into it. -/
theorem liveAt1_7_C : ∀ t : Fin cfg1.N, ¬cond1_0 (grid1.coords t) → cond1_1 (grid1.coords t) → cfg1.idle 7 (grid1.coords t) = false := by decide +kernel

/-- At the first point output 8 is idle: the body stores nothing into it. -/
theorem idleAt1_8_A : ∀ t : Fin cfg1.N, cond1_0 (grid1.coords t) → ¬cond1_1 (grid1.coords t) → cfg1.idle 8 (grid1.coords t) = true := by decide +kernel
/-- At the first point output 8's block is not written back. -/
theorem noFlush1_8_A : ∀ t : Fin cfg1.N, cond1_0 (grid1.coords t) → ¬cond1_1 (grid1.coords t) → (cfg1.win 8).flush t = false := by decide +kernel
/-- At the middle points output 8 is idle: the body stores nothing into it. -/
theorem idleAt1_8_B : ∀ t : Fin cfg1.N, ¬cond1_0 (grid1.coords t) → ¬cond1_1 (grid1.coords t) → cfg1.idle 8 (grid1.coords t) = true := by decide +kernel
/-- At the middle points output 8's block is not written back. -/
theorem noFlush1_8_B : ∀ t : Fin cfg1.N, ¬cond1_0 (grid1.coords t) → ¬cond1_1 (grid1.coords t) → (cfg1.win 8).flush t = false := by decide +kernel
/-- At the last point output 8 is live: the body stores into it. -/
theorem liveAt1_8_C : ∀ t : Fin cfg1.N, ¬cond1_0 (grid1.coords t) → cond1_1 (grid1.coords t) → cfg1.idle 8 (grid1.coords t) = false := by decide +kernel

/-! ## The staging and scratch memrefs -/

/-- One staging buffer of each output window, through which its contents are stated (the choice does not matter). -/
abbrev VO1_6 : View sig .tc .vmem S10000x128 .f32 := (Memref.whole cc1_stg6_0 : Memref sig .tc .vmem S10000x128 .f32).view
abbrev VO1_7 : View sig .tc .vmem S1x128 .f32 := (Memref.whole cc1_stg7_0 : Memref sig .tc .vmem S1x128 .f32).view
abbrev VO1_8 : View sig .tc .vmem S1x128 .f32 := (Memref.whole cc1_stg8_0 : Memref sig .tc .vmem S1x128 .f32).view
/-- Each window's current staging memref at point `t`, spelled as the pipeline passes it, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The two scratch buffers as views: what they hold is stated through them. -/
abbrev VS1_0 : View sig .tc .vmem S1x128 .f32 := scM1_0.view
abbrev VS1_1 : View sig .tc .vmem S1x128 .f32 := scM1_1.view

/-! ## The class invariant with the scratch split off -/

/-- The core's scoped buffers that are neither a staging buffer nor a scratch buffer of this pipeline (the staging
    buffers of the other two pipelines), each whole at some contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant with the two scratch operands as memrefs owned at some contents, the other scoped buffers
    as one factor and the generator register: what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ rest1 (F := F) c) ∗ (∃ r, prngReg c r)) := by
  unfold Pipeline.ΦA; rw [scopedRest1_eq]; unfold rest1; simp only [scM1_0, scM1_1, owns_whole]
  refine BI.equiv_iff.mp ⟨(?_ : (_ : sProp 𝕄) ⊢ _), (?_ : (_ : sProp 𝕄) ⊢ _)⟩
  · iintro ⟨⟨H0, H1, H2, H3, H4, H5, HS0, HS1, H6, H7, H8, H9, H10, H11, H12, H13⟩, Hg⟩
    isplitr [Hg]
    · isplitl [HS0]; · iexact HS0
      isplitl [HS1]; · iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg
  · iintro ⟨⟨HS0, HS1, H0, H1, H2, H3, H4, H5, H6, H7, H8, H9, H10, H11, H12, H13⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg

/-! ## The kernel body on any staging memrefs: the pieces its stores leave, per case -/

set_option maxHeartbeats 4000000 in
/-- What the body's stores leave in each buffer it writes, as pieces (last first), in the case of the first conditional taken, the second not: the first point; with the proof
    that on whole memrefs — the six inputs' at their contents `x·`, the row output's at anything, the two conditional outputs' at contents `xi·` handed back untouched,
    the two accumulators' at anything (the case resets them) — the body runs to the continuation holding the inputs' as
    they were and every written buffer with its pieces written. -/
noncomputable def kernelRun1_A (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists f7; isplitr; · ipureintro; exact hf7
      iexact H7
    isplitl [H8]
    · iexists f8; isplitr; · ipureintro; exact hf8
      iexact H8
    isplitl [HS0]; · iexists _; iexact HS0
    iexists _; iexact HS1

set_option maxHeartbeats 4000000 in
/-- What the body's stores leave in each buffer it writes, as pieces (last first), in the case of neither conditional taken: the middle points; with the proof
    that on whole memrefs — the six inputs' at their contents `x·`, the row output's at anything, the two conditional outputs' at contents `xi·` handed back untouched,
    the two accumulators' at the contents the point before left (`xs·`) — the body runs to the continuation holding the inputs' as
    they were and every written buffer with its pieces written. -/
noncomputable def kernelRun1_B (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists f7; isplitr; · ipureintro; exact hf7
      iexact H7
    isplitl [H8]
    · iexists f8; isplitr; · ipureintro; exact hf8
      iexact H8
    isplitl [HS0]; · iexists _; iexact HS0
    iexists _; iexact HS1

set_option maxHeartbeats 4000000 in
/-- What the body's stores leave in each buffer it writes, as pieces (last first), in the case of the first conditional not taken, the second taken: the last point; with the proof
    that on whole memrefs — the six inputs' at their contents `x·`, the row output's at anything, the two conditional outputs' at anything,
    the two accumulators' at the contents the point before left (`xs·`) — the body runs to the continuation holding the inputs' as
    they were and every written buffer with its pieces written. -/
noncomputable def kernelRun1_C (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.R1.lean ====
/- Region 1 of the program, continued: what the body of `cc1__mlp_stats_kernel` leaves in its three outputs' staging
   buffers and in its two accumulators after each of the ten grid points — per case of its two conditions the pieces
   of the case's run read back (they cover every buffer the case writes), and point by point by recursion, each point's
   accumulators computed from what the point before left —; the region invariant that carries the accumulators at those
   contents from point to point; the pipeline's proof data at any entry contents `V`; and the proof that the body meets
   its obligation at every point, with the two ends of the invariant (what the launch hands the region, what the region
   hands back). -/
import proofs.«428931_j67113158967915_3_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it writes -/

/-! ### Case A -/

/-- The case's pieces for the row output's block tile it, so they cover it. -/
theorem cover1_A_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S10000x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1 S10000x128.size (by sl_kernel_rfl) y

/-- What case A leaves in the row output's staging buffer: the case's pieces read back over junk. -/
def out1_A_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S10000x128 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A stores nothing into the column-sum output (idle and not written back at its points): a placeholder nothing consults: the case's pieces read back over junk. -/
def out1_A_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A stores nothing into the sum-of-squares output (idle and not written back at its points): a placeholder nothing consults: the case's pieces read back over junk. -/
def out1_A_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The case's pieces for the first accumulator tile it, so they cover it. -/
theorem scover1_A_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What case A leaves in the first accumulator (the running column sums): the case's pieces read back over junk. -/
def sout1_A_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- The case's pieces for the second accumulator tile it, so they cover it. -/
theorem scover1_A_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What case A leaves in the second accumulator (the running column sums of squares): the case's pieces read back over junk. -/
def sout1_A_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-! ### Case B -/

/-- The case's pieces for the row output's block tile it, so they cover it. -/
theorem cover1_B_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S10000x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x128.size (by sl_kernel_rfl) y

/-- What case B leaves in the row output's staging buffer: the case's pieces read back over junk. -/
def out1_B_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S10000x128 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into the column-sum output (idle and not written back at its points): a placeholder nothing consults: the case's pieces read back over junk. -/
def out1_B_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B stores nothing into the sum-of-squares output (idle and not written back at its points): a placeholder nothing consults: the case's pieces read back over junk. -/
def out1_B_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The case's pieces for the first accumulator tile it, so they cover it. -/
theorem scover1_B_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case B leaves in the first accumulator (the running column sums): the case's pieces read back over junk. -/
def sout1_B_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The case's pieces for the second accumulator tile it, so they cover it. -/
theorem scover1_B_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case B leaves in the second accumulator (the running column sums of squares): the case's pieces read back over junk. -/
def sout1_B_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ### Case C -/

/-- The case's pieces for the row output's block tile it, so they cover it. -/
theorem cover1_C_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S10000x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x128.size (by sl_kernel_rfl) y

/-- What case C leaves in the row output's staging buffer: the case's pieces read back over junk. -/
def out1_C_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S10000x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The case's pieces for the column-sum output's block tile it, so they cover it. -/
theorem cover1_C_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- The case's pieces for the sum-of-squares output's block tile it, so they cover it. -/
theorem cover1_C_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case C leaves in the column-sum output's staging buffer: the case's pieces read back over junk. -/
def out1_C_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- What case C leaves in the sum-of-squares output's staging buffer: the case's pieces read back over junk. -/
def out1_C_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The case's pieces for the first accumulator tile it, so they cover it. -/
theorem scover1_C_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case C leaves in the first accumulator (the running column sums): the case's pieces read back over junk. -/
def sout1_C_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The case's pieces for the second accumulator tile it, so they cover it. -/
theorem scover1_C_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case C leaves in the second accumulator (the running column sums of squares): the case's pieces read back over junk. -/
def sout1_C_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Region
-- the TensorCore's buffer contents when the region is entered
variable (V : (c : Dev nD) → (b : Ref sig .tc) → Buf (Elt F) ((c : Thread nD τ).loc b))

/-! ## What the outputs and the accumulators hold after each point -/

/-- Case A at point `t`: its five buffers' contents (the three outputs in window order, then the two accumulators), run at the
    point's staging memrefs and the input windows' blocks. -/
def outs1_A (c : Dev nD) (t : Fin cfg1.N) (hc0 : cond1_0 (grid1.coords t)) (hc1 : ¬cond1_1 (grid1.coords t)) :
    Vec F S10000x128 .f32 × Vec F S1x128 .f32 × Vec F S1x128 .f32 × Vec F S1x128 .f32 × Vec F S1x128 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t))

/-- Case B at point `t`: its five buffers' contents (the three outputs in window order, then the two accumulators), run at the
    point's staging memrefs and the input windows' blocks, over the accumulators' contents `xs·` before the point. -/
def outs1_B (c : Dev nD) (t : Fin cfg1.N) (hc0 : ¬cond1_0 (grid1.coords t)) (hc1 : ¬cond1_1 (grid1.coords t)) (xs0 : Vec F S1x128 .f32) (xs1 : Vec F S1x128 .f32) :
    Vec F S10000x128 .f32 × Vec F S1x128 .f32 × Vec F S1x128 .f32 × Vec F S1x128 .f32 × Vec F S1x128 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1)

/-- Case C at point `t`: its five buffers' contents (the three outputs in window order, then the two accumulators), run at the
    point's staging memrefs and the input windows' blocks, over the accumulators' contents `xs·` before the point. -/
def outs1_C (c : Dev nD) (t : Fin cfg1.N) (hc0 : ¬cond1_0 (grid1.coords t)) (hc1 : cond1_1 (grid1.coords t)) (xs0 : Vec F S1x128 .f32) (xs1 : Vec F S1x128 .f32) :
    Vec F S10000x128 .f32 × Vec F S1x128 .f32 × Vec F S1x128 .f32 × Vec F S1x128 .f32 × Vec F S1x128 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1)

/-- THE ACCUMULATION. What the three outputs' staging buffers and the two accumulators hold after the body at position `n`
    (a tuple: outputs 6, 7, 8, then accumulators 0, 1): the case the closed forms select at `n`, run at the point's memrefs and
    input blocks, the accumulators at what this leaves at `n - 1`. -/
def outsAt1 (c : Dev nD) : (n : ℕ) → n < cfg1.N → Vec F S10000x128 .f32 × Vec F S1x128 .f32 × Vec F S1x128 .f32 × Vec F S1x128 .f32 × Vec F S1x128 .f32
  | 0, hn => outs1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 10 = 0 then
      if h1 : (n + 1) % 10 = 9 then
        False.elim (by omega)
      else
        outs1_A V c ⟨n + 1, hn⟩ ((hcond1_0 ⟨n + 1, hn⟩).mpr h0) (fun h => h1 ((hcond1_1 ⟨n + 1, hn⟩).mp h))
    else
      if h1 : (n + 1) % 10 = 9 then
        outs1_C V c ⟨n + 1, hn⟩ (fun h => h0 ((hcond1_0 ⟨n + 1, hn⟩).mp h)) ((hcond1_1 ⟨n + 1, hn⟩).mpr h1) (outsAt1 c n (Nat.lt_of_succ_lt hn)).2.2.2.1 (outsAt1 c n (Nat.lt_of_succ_lt hn)).2.2.2.2
      else
        outs1_B V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.1 (outsAt1 c n (Nat.lt_of_succ_lt hn)).2.2.2.2

/-- `outsAt1` at the first point: case A's contents. -/
theorem outsAt1_A (c : Dev nD) (t : Fin cfg1.N) (h0 : t.val % 10 = 0) (h1 : ¬t.val % 10 = 9) :
    outsAt1 V c t.val t.isLt = outs1_A V c t ((hcond1_0 t).mpr h0) (fun h => h1 ((hcond1_1 t).mp h)) := by
  obtain ⟨n, hn⟩ := t
  cases n with
  | zero => exact rfl
  | succ n => exact (dif_pos h0).trans ((dif_neg h1).trans rfl)

/-- `outsAt1` at a middle point: case B's contents, over what the point before left in the accumulators. -/
theorem outsAt1_B (c : Dev nD) (t : Fin cfg1.N) (h0 : ¬t.val % 10 = 0) (h1 : ¬t.val % 10 = 9) :
    outsAt1 V c t.val t.isLt = outs1_B V c t (fun h => h0 ((hcond1_0 t).mp h)) (fun h => h1 ((hcond1_1 t).mp h)) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: case C's contents, over what the point before left in the accumulators. -/
theorem outsAt1_C (c : Dev nD) (t : Fin cfg1.N) (h0 : ¬t.val % 10 = 0) (h1 : t.val % 10 = 9) :
    outsAt1 V c t.val t.isLt = outs1_C V c t (fun h => h0 ((hcond1_0 t).mp h)) ((hcond1_1 t).mpr h1) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scoped buffer that is no staging
    buffer at anything, the generator register at some state); afterwards the two accumulators at what the point before left
    in them (`outsAt1`'s last two components), the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.1) ∗ owns (c : Thread nD τ) scM1_1 fullShare ((outsAt1 V c n hn).2.2.2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(owns (c : Thread nD τ) scM1_0 fullShare ((outsAt1 V c n hn).2.2.2.1) ∗ owns (c : Thread nD τ) scM1_1 fullShare ((outsAt1 V c n hn).2.2.2.2) ∗ rest1 (F := F) c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.2.1) ∗ owns (c : Thread nD τ) scM1_1 fullShare ((outsAt1 V c (n - 1) (by omega)).2.2.2.2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the three outputs' at `outsAt1`'s first three components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in, and that
    case's run applies; the invariant hands the body the accumulators at what the point before left (at anything at the first
    point) and takes them back at this point's contents; the two conditional outputs' buffers come back untouched where they
    are idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 10 = 0
  · by_cases h1 : t.val % 10 = 9
    · exfalso; omega
    · rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold outs1_A out1_A_6 sout1_A_0 sout1_A_1; (try dsimp only)
      have hz : t.val = 0 := by omega
      rw [PhiS1_castSucc V c t, PhiS1_zero V c _ _ hz, PhiA1_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold outs1_C out1_C_6 out1_C_7 out1_C_8 sout1_C_0 sout1_C_1; (try dsimp only)
      have hz : t.val ≠ 0 := by omega
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold outs1_B out1_B_6 sout1_B_0 sout1_B_1; (try dsimp only)
      have hz : t.val ≠ 0 := by omega
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region

end Cert.Kernel.Hand

end
-- ==== Proof.Kernel.R2.lean ====
/- REGION 2 of @main (pipeline 2, the normalisation kernel), at a parameter `V`: the TensorCore's buffer
   contents when the region is entered. On a grid of 10 points the body reads one 10000×128 block x0 (window 0 of a
   100000×128 array, block `t` at point `t`) and four 1×128 rows x1 … x4 (windows 1 … 4: whole 1×128 arrays, fetched
   at the first point only and kept in their buffers afterwards), and stores over the whole 10000×128 block of window 5
   max (((x0 − x1) · rsqrt (x2 + ε)) · x3 + x4) 0, the rows broadcast along the long axis. This module gives each
   window's block at a point (`iblk2`), proves that each input's staging buffer holds its block at every point, fetched
   there or not (`before2_0` … `before2_4`), names what the body leaves in the output's buffer (`out2_5`: its one
   whole-block store, which covers the buffer, `cover2_5`), proves the body's triple on whole staging memrefs
   (`sound_kernel2`: the output's buffer is read before it is written, its value unused, so it is held at unknown
   contents), and assembles the pipeline's proof data `dat2` and the body obligation at every point
   (`body_obligation2`). Everything is generic in the float instance. -/
import proofs.«428931_j67113158967915_3_alg».proof.Proof.Gen.Kernel.Launch
import proofs.«428931_j67113158967915_3_alg».proof.Proof.Gen.Kernel.Skeleton
import proofs.«428931_j67113158967915_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2__bn_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data
    whose array is `V`'s (`hA`) and whose body leaves the block in place (`hafter`): at a point where the window is
    not fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data
    whose array is `V`'s (`hA`) and whose body leaves the block in place (`hafter`): at a point where the window is
    not fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data
    whose array is `V`'s (`hA`) and whose body leaves the block in place (`hafter`): at a point where the window is
    not fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data
    whose array is `V`'s (`hA`) and whose body leaves the block in place (`hafter`): at a point where the window is
    not fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data
    whose array is `V`'s (`hA`) and whose body leaves the block in place (`hafter`): at a point where the window is
    not fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 10000×128 block: the rectangle of the body's long load and of its store. -/
abbrev r2_0 : Rect S10000x128 := Rect.unit (s := S10000x128) ![0, 0] S10000x128.size inb_S10000x128_S10000x128_0_0
/-- The whole 1×128 row: the rectangle of the body's four row loads. -/
abbrev r2_1 : Rect S1x128 := Rect.unit (s := S1x128) ![0, 0] S1x128.size inb_S1x128_S1x128_0_0

/-! ## What the body leaves in the output window's buffer -/

/-- Window 5's staging buffer after the body, from the input windows' blocks: its one store over the whole block.
    The payload takes the rows in the order the body reads them: window 2's row first, then the long block and
    window 1's row, then windows 3's and 4's. -/
def out2_5 (x0 : Vec F S10000x128 .f32) (x1 x2 x3 x4 : Vec F S1x128 .f32) : Vec F S10000x128 .f32 :=
  View.canon [⟨r2_0, k2_pay1 (View.ld x2 r2_1) (View.ld x0 r2_0) (View.ld x1 r2_1) (View.ld x3 r2_1) (View.ld x4 r2_1)⟩]

/-- The store is of the whole block, so it covers the buffer. -/
theorem cover2_5 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `x0` … `x4` and the output's at anything,
    runs to the continuation holding the inputs' as they were and the output's at `out2_5 x0 x1 x2 x3 x4`. The body
    reads the output's buffer before it stores to it; the value read is not used. -/
theorem sound_kernel2 (c : Dev nD) (E : Set ℕ) (i : grid2.Coords) (arg0 : Memref sig .tc .vmem S10000x128 .f32) (harg0 : arg0.IsWhole)
    (arg1 : Memref sig .tc .vmem S1x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__bn_kernel i arg0 harg0 arg1 harg1 arg2 harg2 arg3 harg3 arg4 harg4 arg5 harg5) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_0` … `before2_4`), so `sound_kernel2`
    applies; the invariant and the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.Kernel.Run.lean ====
/- THE RUN of @main from the launch to the return. @main is seven items in a row: two stretches of host operations
   (the two rows of the edge list sliced out and flattened; the gather of the source rows, out-of-range indices giving a
   quiet NaN row), region 0 (the edge messages), a stretch (the scatter-add of the messages onto the nodes, the two
   weight matrices transposed, the two biases as rows), region 1 (the two-layer network on the node rows, with the
   column sums of its output and of its square), a stretch (each column sum divided by the number of rows, and the
   mean of squares less the squared mean), and region 2 (the normalization of the rows).
   This module names the contents of every unscoped buffer of a core at each of the eight boundaries as a fold from the
   launch memory (`W0` … `W7`: a stretch takes them to `StableHlo.after` of its operations; a region puts its windows'
   arrays at what its write-backs leave, `Dat.arrAt … N`, and keeps every other buffer), proves that each of @main's
   nine arguments is read back through the fold to its launch contents (`W7_main_argK`: no stretch writes an argument,
   and the two regions that have an argument among their windows only read it), states each stretch and each region as
   a segment over the thread state "every unscoped buffer at the boundary's contents, the generator register at some
   state, nothing owed" (`hseg`, `reg0`, `reg1`, `reg2`, `segs`), and proves
   * `run_all`: from any memory with zero counters every weakly fair execution of @main terminates, nothing faulting,
     and every final memory holds every unscoped buffer of every core at `W7`;
   * `frame`: hence the nine argument arrays end as launched;
   * `run_value`: the same run read at the result buffer `main_v22` (at `W7`) and the nine arguments;
   * `W7_out`: the result buffer `main_v22` is at region 2's folded write-backs of its output window.
   Everything is generic in the float instance. -/
import proofs.«428931_j67113158967915_3_alg».proof.Proof.Kernel.R0
import proofs.«428931_j67113158967915_3_alg».proof.Proof.Kernel.R1
import proofs.«428931_j67113158967915_3_alg».proof.Proof.Kernel.R2
import proofs.«428931_j67113158967915_3_alg».proof.Proof.Gen.Kernel.Regions
import Idealize.ShloMosaic.Lib.Pipeline.RegionsLoop
import Idealize.ShloMosaic.Lib.Pipeline.FrameSuffix

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch. -/
abbrev W0 : Dev nD → Valuation τ sig (Elt F) := fun c b => (s₀ m ρ).mem ((c : Dev nD), b)
/-- After `hostOps0`: the two rows of the edge list, flattened. -/
abbrev W1 : Dev nD → Valuation τ sig (Elt F) := fun c => StableHlo.after hostOps0 (W0 m ρ c)
/-- After `hostOps0_1`, the gather of the source rows (region 0's entry). -/
abbrev W2 : Dev nD → Valuation τ sig (Elt F) := fun c => StableHlo.after hostOps0_1 (W1 m ρ c)
/-- The same read at the TensorCore's references (what region 0's proof data take). -/
abbrev V2 : (c : Dev nD) → (b : Ref sig .tc) → Buf (Elt F) ((c : Thread nD τ).loc b) := fun c b => W2 m ρ c b

/-- At region 0's exit: its windows' arrays at what the pipeline leaves (the inputs as entered, each output's write-backs
    folded: `Dat.arrAt … N`), every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`). -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After `hostOps1`, the scatter-add onto the nodes and the operands of the network laid out (region 1's entry). -/
abbrev W4 : Dev nD → Valuation τ sig (Elt F) := fun c => StableHlo.after hostOps1 (W3 m ρ c)
/-- The same read at the TensorCore's references (what region 1's proof data take). -/
abbrev V4 : (c : Dev nD) → (b : Ref sig .tc) → Buf (Elt F) ((c : Thread nD τ).loc b) := fun c b => W4 m ρ c b

/-- At region 1's exit: its windows' arrays at what the pipeline leaves (the inputs as entered, each output's write-backs
    folded: `Dat.arrAt … N`), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`). -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`, the columns' means and variances (region 2's entry). -/
abbrev W6 : Dev nD → Valuation τ sig (Elt F) := fun c => StableHlo.after hostOps2 (W5 m ρ c)
/-- The same read at the TensorCore's references (what region 2's proof data take). -/
abbrev V6 : (c : Dev nD) → (b : Ref sig .tc) → Buf (Elt F) ((c : Thread nD τ).loc b) := fun c b => W6 m ρ c b

/-- At region 2's exit: its windows' arrays at what the pipeline leaves (the inputs as entered, each output's write-backs
    folded: `Dat.arrAt … N`), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`). -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- The result buffer at the end: region 2's output window's array, at the fold of its write-backs. -/
theorem W7_out (c : Dev nD) : W7 m ρ c (Proc.devRef .tc main_v22) = (dat2 (V6 m ρ) c).arrAt 5 cfg2.N :=
  W7_arr m ρ c 5

/-! ## The arguments end as launched: the fold at an argument's buffer walks back to the launch memory -/

/-- `main_arg0` ends as launched: no stretch writes it and no region's output window is on it (the gather and region 1's input window 0 read it). -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (by decide)
    _ = W4 m ρ c (Proc.devRef .tc main_arg0) := (W5_arr m ρ c 0).trans (((dat1 (V4 m ρ) c).arrAt_in 0 rfl _).trans (A_eq1 (V4 m ρ) c 0))
    _ = W3 m ρ c (Proc.devRef .tc main_arg0) := StableHlo.after_of_writes_sub hostOps1 _ hostOps1_writes (by decide)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- `main_arg1` ends as launched: no stretch writes it and no region's output window is on it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (by decide)
    _ = W4 m ρ c (Proc.devRef .tc main_arg1) := W5_of_ne m ρ c main_arg1 (by decide)
    _ = W3 m ρ c (Proc.devRef .tc main_arg1) := StableHlo.after_of_writes_sub hostOps1 _ hostOps1_writes (by decide)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- `main_arg2` ends as launched: no stretch writes it and no region's output window is on it (region 0 reads it through its input window 1). -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (by decide)
    _ = W4 m ρ c (Proc.devRef .tc main_arg2) := W5_of_ne m ρ c main_arg2 (by decide)
    _ = W3 m ρ c (Proc.devRef .tc main_arg2) := StableHlo.after_of_writes_sub hostOps1 _ hostOps1_writes (by decide)
    _ = W2 m ρ c (Proc.devRef .tc main_arg2) := (W3_arr m ρ c 1).trans (((dat0 (V2 m ρ) c).arrAt_in 1 rfl _).trans (A_eq0 (V2 m ρ) c 1))
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- `main_arg3` ends as launched: no stretch writes it and no region's output window is on it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (by decide)
    _ = W4 m ρ c (Proc.devRef .tc main_arg3) := W5_of_ne m ρ c main_arg3 (by decide)
    _ = W3 m ρ c (Proc.devRef .tc main_arg3) := StableHlo.after_of_writes_sub hostOps1 _ hostOps1_writes (by decide)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
/-- `main_arg4` ends as launched: no stretch writes it and no region's output window is on it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (by decide)
    _ = W4 m ρ c (Proc.devRef .tc main_arg4) := W5_of_ne m ρ c main_arg4 (by decide)
    _ = W3 m ρ c (Proc.devRef .tc main_arg4) := StableHlo.after_of_writes_sub hostOps1 _ hostOps1_writes (by decide)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
/-- `main_arg5` ends as launched: no stretch writes it and no region's output window is on it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (by decide)
    _ = W4 m ρ c (Proc.devRef .tc main_arg5) := W5_of_ne m ρ c main_arg5 (by decide)
    _ = W3 m ρ c (Proc.devRef .tc main_arg5) := StableHlo.after_of_writes_sub hostOps1 _ hostOps1_writes (by decide)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
/-- `main_arg6` ends as launched: no stretch writes it and no region's output window is on it. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_writes_sub hostOps2 _ hostOps2_writes (by decide)
    _ = W4 m ρ c (Proc.devRef .tc main_arg6) := W5_of_ne m ρ c main_arg6 (by decide)
    _ = W3 m ρ c (Proc.devRef .tc main_arg6) := StableHlo.after_of_writes_sub hostOps1 _ hostOps1_writes (by decide)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
/-- `main_arg7` ends as launched: no stretch writes it and no region's output window is on it. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_writes_sub hostOps2 _ hostOps2_writes (by decide)
    _ = W4 m ρ c (Proc.devRef .tc main_arg7) := W5_of_ne m ρ c main_arg7 (by decide)
    _ = W3 m ρ c (Proc.devRef .tc main_arg7) := StableHlo.after_of_writes_sub hostOps1 _ hostOps1_writes (by decide)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
/-- `main_arg8` ends as launched: no stretch writes it and no region's output window is on it. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_writes_sub hostOps2 _ hostOps2_writes (by decide)
    _ = W4 m ρ c (Proc.devRef .tc main_arg8) := W5_of_ne m ρ c main_arg8 (by decide)
    _ = W3 m ρ c (Proc.devRef .tc main_arg8) := StableHlo.after_of_writes_sub hostOps1 _ hostOps1_writes (by decide)
    _ = W2 m ρ c (Proc.devRef .tc main_arg8) := W3_of_ne m ρ c main_arg8 (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! # The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along
    (it is left at those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! # The regions as segments -/

-- a library lemma stated over `pin pcs a p` meets the pinned configuration only when unification may unfold plain
-- definitions in a metavariable's type
set_option backward.isDefEq.respectTransparency.types false in
/-- REGION 0 (custom_call 0) over the thread state: entered from every unscoped buffer at `W2`, left at `W3`.
    Its arrays are split out of the unscoped buffers and put back at the exit contents; the generator register into the invariant (the scoped rest and the register, untouched) and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun w => A_eq0 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 (custom_call 1) over the thread state: entered from every unscoped buffer at `W4`, left at `W5`.
    Its arrays are split out of the unscoped buffers and put back at the exit contents; the generator register and the scoped rest into the pipeline's invariant at the first point and out of it at the last;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun w => A_eq1 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V4 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 (custom_call 2) over the thread state: entered from every unscoped buffer at `W6`, left at `W7`.
    Its arrays are split out of the unscoped buffers and put back at the exit contents; the generator register into the invariant (the scoped rest and the register, untouched) and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun w => A_eq2 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ) ]
/-- @main IS the run of the segments: it is the chain of its seven items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds every unscoped buffer of every core at the
    last boundary's contents `W7`: the launch over the seven segments, the last thread state read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: from any memory with zero counters every weakly fair execution of @main
    terminates, nothing faulting, and every final memory has the nine argument arrays as launched — each argument's
    buffer is unscoped, so `run_all` reads it at `W7`, which walks back to the launch memory (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

/-- THE RUN, read at the result buffer and the arguments: every final memory holds `main_v22` at the last boundary's
    contents and the nine argument arrays as launched. -/
theorem run_value : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v22 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

/-- info: 'Cert.Kernel.Hand.frame' depends on axioms: [propext, Classical.choice, Quot.sound] -/
#guard_msgs in #print axioms frame
/-- info: 'Cert.Kernel.Hand.run_value' depends on axioms: [propext, Classical.choice, Quot.sound] -/
#guard_msgs in #print axioms run_value

end Cert.Kernel.Hand

end
-- ==== Proof.KernelIdeal.R0.lean ====
/- REGION 0 of @main (pipeline 0, the edge-message kernel), at a parameter `V`: the TensorCore's buffer
   contents when the region is entered. On a grid of 500 points the body reads two 3200×128 blocks x0, x1 (windows 0, 1
   of two 1600000×128 arrays, block `t` at point `t`) and stores max (x0 + x1) 0 over the whole 3200×128 block of
   window 2. This module gives each window's block at a point (`iblk0`), proves that each input's staging buffer holds
   its block at every point (`before0_0`, `before0_1`), names what the body leaves in the output's buffer
   (`out0_2`: its one whole-block store, which covers the buffer, `cover0_2`), proves the body's triple on whole
   staging memrefs (`sound_kernel0`: the output's buffer is read before it is written, its value unused, so it is held
   at unknown contents), and assembles the pipeline's proof data `dat0` and the body obligation at every point
   (`body_obligation0`). Everything is generic in the float instance. -/
import proofs.«428931_j67113158967915_3_alg».proof.Proof.Gen.KernelIdeal.Launch
import proofs.«428931_j67113158967915_3_alg».proof.Proof.Gen.KernelIdeal.Skeleton
import proofs.«428931_j67113158967915_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__edge_msg_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`): the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, under the same two hypotheses. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 3200×128 block: the one rectangle the body loads and stores. -/
abbrev r0_0 : Rect S3200x128 := Rect.unit (s := S3200x128) ![0, 0] S3200x128.size inb_S3200x128_S3200x128_0_0

/-! ## What the body leaves in the output window's buffer -/

/-- Window 2's staging buffer after the body, from the input windows' blocks: its one store, of
    max (x0 + x1) 0 over the whole block. -/
def out0_2 (x0 x1 : Vec F S3200x128 .f32) : Vec F S3200x128 .f32 :=
  View.canon [⟨r0_0, k0_pay1 (View.ld x0 r0_0) (View.ld x1 r0_0)⟩]

/-- The store is of the whole block, so it covers the buffer. -/
theorem cover0_2 (p0 : Vec F S3200x128 .f32) (y : S3200x128.Idx) :
    ∃ pc ∈ ([⟨r0_0, p0⟩] : List (View.Piece (Elt F) S3200x128 .f32)), y ∈ pc.1.set :=
  View.cover_of_tiled [⟨r0_0, p0⟩] S3200x128.size (by rfl) y

/-! ## The body's triple -/

set_option maxHeartbeats 1000000 in
/-- The kernel body on whole staging memrefs, the inputs' at read contents `x0`, `x1` and the output's at anything,
    runs to the continuation holding the inputs' as they were and the output's at `out0_2 x0 x1`. The body reads the
    output's buffer before it stores to it; the value read is not used. -/
theorem sound_kernel0 (c : Dev nD) (E : Set ℕ) (i : grid0.Coords) (arg0 : Memref sig .tc .vmem S3200x128 .f32) (harg0 : arg0.IsWhole)
    (arg1 : Memref sig .tc .vmem S3200x128 .f32) (harg1 : arg1.IsWhole) (arg2 : Memref sig .tc .vmem S3200x128 .f32) (harg2 : arg2.IsWhole)
    (x0 x1 : Vec F S3200x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__edge_msg_kernel i arg0 harg0 arg1 harg1 arg2 harg2) K := by
  simp only [cc0__edge_msg_kernel_eq_skeleton]; unfold cc0__edge_msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KernelIdeal.R1Runs.lean ====
/- Region 1 of the program: the pipeline of `cc1__mlp_stats_kernel` over its ten grid points, a body that keeps two
   row accumulators (the column sums of its row block and of the squares) in scratch memory CARRIED from point to
   point, resets them at the first point and copies them to two outputs at the last. This module states, at any
   contents `V` of the TensorCore's buffers when the region is entered, what each window's block is at a point and
   that an input window's staging buffer holds its block at every point; the two conditions of the body in closed
   form; where the two conditional outputs are idle; the class invariant with the two scratch buffers split off; and
   the body's triple in each of the three cases of the conditions (first point, middle points, last point) as the
   lists of pieces its stores leave in every buffer it writes. -/
import proofs.«428931_j67113158967915_3_alg».proof.Proof.Gen.KernelIdeal.Launch
import proofs.«428931_j67113158967915_3_alg».proof.Proof.Gen.KernelIdeal.Skeleton
import proofs.«428931_j67113158967915_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at the first point only: afterwards its block index does not move), for any proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at the first point only: afterwards its block index does not move), for any proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (it is fetched at the first point only: afterwards its block index does not move), for any proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (it is fetched at the first point only: afterwards its block index does not move), for any proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional (the reset of the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the body's second conditional (the copy of the accumulators to the outputs), from the grid coordinates. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Window 5 is never idle. -/
theorem liveAt1_5 : ∀ t : Fin cfg1.N, cfg1.idle 5 (grid1.coords t) = false := by decide +kernel
/-- Window 6 is never idle. -/
theorem liveAt1_6 : ∀ t : Fin cfg1.N, cfg1.idle 6 (grid1.coords t) = false := by decide +kernel

/-- At the first point output 7 is idle: the body stores nothing into it. -/
theorem idleAt1_7_A : ∀ t : Fin cfg1.N, cond1_0 (grid1.coords t) → ¬cond1_1 (grid1.coords t) → cfg1.idle 7 (grid1.coords t) = true := by decide +kernel
/-- At the first point output 7's block is not written back. -/
theorem noFlush1_7_A : ∀ t : Fin cfg1.N, cond1_0 (grid1.coords t) → ¬cond1_1 (grid1.coords t) → (cfg1.win 7).flush t = false := by decide +kernel
/-- At the middle points output 7 is idle: the body stores nothing into it. -/
theorem idleAt1_7_B : ∀ t : Fin cfg1.N, ¬cond1_0 (grid1.coords t) → ¬cond1_1 (grid1.coords t) → cfg1.idle 7 (grid1.coords t) = true := by decide +kernel
/-- At the middle points output 7's block is not written back. -/
theorem noFlush1_7_B : ∀ t : Fin cfg1.N, ¬cond1_0 (grid1.coords t) → ¬cond1_1 (grid1.coords t) → (cfg1.win 7).flush t = false := by decide +kernel
/-- At the last point output 7 is live: the body stores into it. -/
theorem liveAt1_7_C : ∀ t : Fin cfg1.N, ¬cond1_0 (grid1.coords t) → cond1_1 (grid1.coords t) → cfg1.idle 7 (grid1.coords t) = false := by decide +kernel

/-- At the first point output 8 is idle: the body stores nothing into it. -/
theorem idleAt1_8_A : ∀ t : Fin cfg1.N, cond1_0 (grid1.coords t) → ¬cond1_1 (grid1.coords t) → cfg1.idle 8 (grid1.coords t) = true := by decide +kernel
/-- At the first point output 8's block is not written back. -/
theorem noFlush1_8_A : ∀ t : Fin cfg1.N, cond1_0 (grid1.coords t) → ¬cond1_1 (grid1.coords t) → (cfg1.win 8).flush t = false := by decide +kernel
/-- At the middle points output 8 is idle: the body stores nothing into it. -/
theorem idleAt1_8_B : ∀ t : Fin cfg1.N, ¬cond1_0 (grid1.coords t) → ¬cond1_1 (grid1.coords t) → cfg1.idle 8 (grid1.coords t) = true := by decide +kernel
/-- At the middle points output 8's block is not written back. -/
theorem noFlush1_8_B : ∀ t : Fin cfg1.N, ¬cond1_0 (grid1.coords t) → ¬cond1_1 (grid1.coords t) → (cfg1.win 8).flush t = false := by decide +kernel
/-- At the last point output 8 is live: the body stores into it. -/
theorem liveAt1_8_C : ∀ t : Fin cfg1.N, ¬cond1_0 (grid1.coords t) → cond1_1 (grid1.coords t) → cfg1.idle 8 (grid1.coords t) = false := by decide +kernel

/-! ## The staging and scratch memrefs -/

/-- One staging buffer of each output window, through which its contents are stated (the choice does not matter). -/
abbrev VO1_6 : View sig .tc .vmem S10000x128 .f32 := (Memref.whole cc1_stg6_0 : Memref sig .tc .vmem S10000x128 .f32).view
abbrev VO1_7 : View sig .tc .vmem S1x128 .f32 := (Memref.whole cc1_stg7_0 : Memref sig .tc .vmem S1x128 .f32).view
abbrev VO1_8 : View sig .tc .vmem S1x128 .f32 := (Memref.whole cc1_stg8_0 : Memref sig .tc .vmem S1x128 .f32).view
/-- Each window's current staging memref at point `t`, spelled as the pipeline passes it, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The two scratch buffers as views: what they hold is stated through them. -/
abbrev VS1_0 : View sig .tc .vmem S1x128 .f32 := scM1_0.view
abbrev VS1_1 : View sig .tc .vmem S1x128 .f32 := scM1_1.view

/-! ## The class invariant with the scratch split off -/

/-- The core's scoped buffers that are neither a staging buffer nor a scratch buffer of this pipeline (the staging
    buffers of the other two pipelines), each whole at some contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant with the two scratch operands as memrefs owned at some contents, the other scoped buffers
    as one factor and the generator register: what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ rest1 (F := F) c) ∗ (∃ r, prngReg c r)) := by
  unfold Pipeline.ΦA; rw [scopedRest1_eq]; unfold rest1; simp only [scM1_0, scM1_1, owns_whole]
  refine BI.equiv_iff.mp ⟨(?_ : (_ : sProp 𝕄) ⊢ _), (?_ : (_ : sProp 𝕄) ⊢ _)⟩
  · iintro ⟨⟨H0, H1, H2, H3, H4, H5, HS0, HS1, H6, H7, H8, H9, H10, H11, H12, H13⟩, Hg⟩
    isplitr [Hg]
    · isplitl [HS0]; · iexact HS0
      isplitl [HS1]; · iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg
  · iintro ⟨⟨HS0, HS1, H0, H1, H2, H3, H4, H5, H6, H7, H8, H9, H10, H11, H12, H13⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg

/-! ## The kernel body on any staging memrefs: the pieces its stores leave, per case -/

set_option maxHeartbeats 4000000 in
/-- What the body's stores leave in each buffer it writes, as pieces (last first), in the case of the first conditional taken, the second not: the first point; with the proof
    that on whole memrefs — the six inputs' at their contents `x·`, the row output's at anything, the two conditional outputs' at contents `xi·` handed back untouched,
    the two accumulators' at anything (the case resets them) — the body runs to the continuation holding the inputs' as
    they were and every written buffer with its pieces written. -/
noncomputable def kernelRun1_A (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists f7; isplitr; · ipureintro; exact hf7
      iexact H7
    isplitl [H8]
    · iexists f8; isplitr; · ipureintro; exact hf8
      iexact H8
    isplitl [HS0]; · iexists _; iexact HS0
    iexists _; iexact HS1

set_option maxHeartbeats 4000000 in
/-- What the body's stores leave in each buffer it writes, as pieces (last first), in the case of neither conditional taken: the middle points; with the proof
    that on whole memrefs — the six inputs' at their contents `x·`, the row output's at anything, the two conditional outputs' at contents `xi·` handed back untouched,
    the two accumulators' at the contents the point before left (`xs·`) — the body runs to the continuation holding the inputs' as
    they were and every written buffer with its pieces written. -/
noncomputable def kernelRun1_B (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists f7; isplitr; · ipureintro; exact hf7
      iexact H7
    isplitl [H8]
    · iexists f8; isplitr; · ipureintro; exact hf8
      iexact H8
    isplitl [HS0]; · iexists _; iexact HS0
    iexists _; iexact HS1

set_option maxHeartbeats 4000000 in
/-- What the body's stores leave in each buffer it writes, as pieces (last first), in the case of the first conditional not taken, the second taken: the last point; with the proof
    that on whole memrefs — the six inputs' at their contents `x·`, the row output's at anything, the two conditional outputs' at anything,
    the two accumulators' at the contents the point before left (`xs·`) — the body runs to the continuation holding the inputs' as
    they were and every written buffer with its pieces written. -/
noncomputable def kernelRun1_C (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S10000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__mlp_stats_kernel_eq_skeleton]; unfold cc1__mlp_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.R1.lean ====
/- Region 1 of the program, continued: what the body of `cc1__mlp_stats_kernel` leaves in its three outputs' staging
   buffers and in its two accumulators after each of the ten grid points — per case of its two conditions the pieces
   of the case's run read back (they cover every buffer the case writes), and point by point by recursion, each point's
   accumulators computed from what the point before left —; the region invariant that carries the accumulators at those
   contents from point to point; the pipeline's proof data at any entry contents `V`; and the proof that the body meets
   its obligation at every point, with the two ends of the invariant (what the launch hands the region, what the region
   hands back). -/
import proofs.«428931_j67113158967915_3_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it writes -/

/-! ### Case A -/

/-- The case's pieces for the row output's block tile it, so they cover it. -/
theorem cover1_A_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S10000x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1 S10000x128.size (by sl_kernel_rfl) y

/-- What case A leaves in the row output's staging buffer: the case's pieces read back over junk. -/
def out1_A_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S10000x128 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A stores nothing into the column-sum output (idle and not written back at its points): a placeholder nothing consults: the case's pieces read back over junk. -/
def out1_A_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A stores nothing into the sum-of-squares output (idle and not written back at its points): a placeholder nothing consults: the case's pieces read back over junk. -/
def out1_A_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The case's pieces for the first accumulator tile it, so they cover it. -/
theorem scover1_A_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What case A leaves in the first accumulator (the running column sums): the case's pieces read back over junk. -/
def sout1_A_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- The case's pieces for the second accumulator tile it, so they cover it. -/
theorem scover1_A_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What case A leaves in the second accumulator (the running column sums of squares): the case's pieces read back over junk. -/
def sout1_A_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-! ### Case B -/

/-- The case's pieces for the row output's block tile it, so they cover it. -/
theorem cover1_B_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S10000x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x128.size (by sl_kernel_rfl) y

/-- What case B leaves in the row output's staging buffer: the case's pieces read back over junk. -/
def out1_B_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S10000x128 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into the column-sum output (idle and not written back at its points): a placeholder nothing consults: the case's pieces read back over junk. -/
def out1_B_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B stores nothing into the sum-of-squares output (idle and not written back at its points): a placeholder nothing consults: the case's pieces read back over junk. -/
def out1_B_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The case's pieces for the first accumulator tile it, so they cover it. -/
theorem scover1_B_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case B leaves in the first accumulator (the running column sums): the case's pieces read back over junk. -/
def sout1_B_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The case's pieces for the second accumulator tile it, so they cover it. -/
theorem scover1_B_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case B leaves in the second accumulator (the running column sums of squares): the case's pieces read back over junk. -/
def sout1_B_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ### Case C -/

/-- The case's pieces for the row output's block tile it, so they cover it. -/
theorem cover1_C_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S10000x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x128.size (by sl_kernel_rfl) y

/-- What case C leaves in the row output's staging buffer: the case's pieces read back over junk. -/
def out1_C_6 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S10000x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The case's pieces for the column-sum output's block tile it, so they cover it. -/
theorem cover1_C_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- The case's pieces for the sum-of-squares output's block tile it, so they cover it. -/
theorem cover1_C_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case C leaves in the column-sum output's staging buffer: the case's pieces read back over junk. -/
def out1_C_7 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- What case C leaves in the sum-of-squares output's staging buffer: the case's pieces read back over junk. -/
def out1_C_8 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The case's pieces for the first accumulator tile it, so they cover it. -/
theorem scover1_C_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case C leaves in the first accumulator (the running column sums): the case's pieces read back over junk. -/
def sout1_C_0 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The case's pieces for the second accumulator tile it, so they cover it. -/
theorem scover1_C_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case C leaves in the second accumulator (the running column sums of squares): the case's pieces read back over junk. -/
def sout1_C_1 (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S10000x128 .f32) (x1 : Vec F S10000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Region
-- the TensorCore's buffer contents when the region is entered
variable (V : (c : Dev nD) → (b : Ref sig .tc) → Buf (Elt F) ((c : Thread nD τ).loc b))

/-! ## What the outputs and the accumulators hold after each point -/

/-- Case A at point `t`: its five buffers' contents (the three outputs in window order, then the two accumulators), run at the
    point's staging memrefs and the input windows' blocks. -/
def outs1_A (c : Dev nD) (t : Fin cfg1.N) (hc0 : cond1_0 (grid1.coords t)) (hc1 : ¬cond1_1 (grid1.coords t)) :
    Vec F S10000x128 .f32 × Vec F S1x128 .f32 × Vec F S1x128 .f32 × Vec F S1x128 .f32 × Vec F S1x128 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t))

/-- Case B at point `t`: its five buffers' contents (the three outputs in window order, then the two accumulators), run at the
    point's staging memrefs and the input windows' blocks, over the accumulators' contents `xs·` before the point. -/
def outs1_B (c : Dev nD) (t : Fin cfg1.N) (hc0 : ¬cond1_0 (grid1.coords t)) (hc1 : ¬cond1_1 (grid1.coords t)) (xs0 : Vec F S1x128 .f32) (xs1 : Vec F S1x128 .f32) :
    Vec F S10000x128 .f32 × Vec F S1x128 .f32 × Vec F S1x128 .f32 × Vec F S1x128 .f32 × Vec F S1x128 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1)

/-- Case C at point `t`: its five buffers' contents (the three outputs in window order, then the two accumulators), run at the
    point's staging memrefs and the input windows' blocks, over the accumulators' contents `xs·` before the point. -/
def outs1_C (c : Dev nD) (t : Fin cfg1.N) (hc0 : ¬cond1_0 (grid1.coords t)) (hc1 : cond1_1 (grid1.coords t)) (xs0 : Vec F S1x128 .f32) (xs1 : Vec F S1x128 .f32) :
    Vec F S10000x128 .f32 × Vec F S1x128 .f32 × Vec F S1x128 .f32 × Vec F S1x128 .f32 × Vec F S1x128 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) xs0 xs1)

/-- THE ACCUMULATION. What the three outputs' staging buffers and the two accumulators hold after the body at position `n`
    (a tuple: outputs 6, 7, 8, then accumulators 0, 1): the case the closed forms select at `n`, run at the point's memrefs and
    input blocks, the accumulators at what this leaves at `n - 1`. -/
def outsAt1 (c : Dev nD) : (n : ℕ) → n < cfg1.N → Vec F S10000x128 .f32 × Vec F S1x128 .f32 × Vec F S1x128 .f32 × Vec F S1x128 .f32 × Vec F S1x128 .f32
  | 0, hn => outs1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 10 = 0 then
      if h1 : (n + 1) % 10 = 9 then
        False.elim (by omega)
      else
        outs1_A V c ⟨n + 1, hn⟩ ((hcond1_0 ⟨n + 1, hn⟩).mpr h0) (fun h => h1 ((hcond1_1 ⟨n + 1, hn⟩).mp h))
    else
      if h1 : (n + 1) % 10 = 9 then
        outs1_C V c ⟨n + 1, hn⟩ (fun h => h0 ((hcond1_0 ⟨n + 1, hn⟩).mp h)) ((hcond1_1 ⟨n + 1, hn⟩).mpr h1) (outsAt1 c n (Nat.lt_of_succ_lt hn)).2.2.2.1 (outsAt1 c n (Nat.lt_of_succ_lt hn)).2.2.2.2
      else
        outs1_B V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.1 (outsAt1 c n (Nat.lt_of_succ_lt hn)).2.2.2.2

/-- `outsAt1` at the first point: case A's contents. -/
theorem outsAt1_A (c : Dev nD) (t : Fin cfg1.N) (h0 : t.val % 10 = 0) (h1 : ¬t.val % 10 = 9) :
    outsAt1 V c t.val t.isLt = outs1_A V c t ((hcond1_0 t).mpr h0) (fun h => h1 ((hcond1_1 t).mp h)) := by
  obtain ⟨n, hn⟩ := t
  cases n with
  | zero => exact rfl
  | succ n => exact (dif_pos h0).trans ((dif_neg h1).trans rfl)

/-- `outsAt1` at a middle point: case B's contents, over what the point before left in the accumulators. -/
theorem outsAt1_B (c : Dev nD) (t : Fin cfg1.N) (h0 : ¬t.val % 10 = 0) (h1 : ¬t.val % 10 = 9) :
    outsAt1 V c t.val t.isLt = outs1_B V c t (fun h => h0 ((hcond1_0 t).mp h)) (fun h => h1 ((hcond1_1 t).mp h)) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: case C's contents, over what the point before left in the accumulators. -/
theorem outsAt1_C (c : Dev nD) (t : Fin cfg1.N) (h0 : ¬t.val % 10 = 0) (h1 : t.val % 10 = 9) :
    outsAt1 V c t.val t.isLt = outs1_C V c t (fun h => h0 ((hcond1_0 t).mp h)) ((hcond1_1 t).mpr h1) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scoped buffer that is no staging
    buffer at anything, the generator register at some state); afterwards the two accumulators at what the point before left
    in them (`outsAt1`'s last two components), the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.1) ∗ owns (c : Thread nD τ) scM1_1 fullShare ((outsAt1 V c n hn).2.2.2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(owns (c : Thread nD τ) scM1_0 fullShare ((outsAt1 V c n hn).2.2.2.1) ∗ owns (c : Thread nD τ) scM1_1 fullShare ((outsAt1 V c n hn).2.2.2.2) ∗ rest1 (F := F) c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.2.1) ∗ owns (c : Thread nD τ) scM1_1 fullShare ((outsAt1 V c (n - 1) (by omega)).2.2.2.2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the three outputs' at `outsAt1`'s first three components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in, and that
    case's run applies; the invariant hands the body the accumulators at what the point before left (at anything at the first
    point) and takes them back at this point's contents; the two conditional outputs' buffers come back untouched where they
    are idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 10 = 0
  · by_cases h1 : t.val % 10 = 9
    · exfalso; omega
    · rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold outs1_A out1_A_6 sout1_A_0 sout1_A_1; (try dsimp only)
      have hz : t.val = 0 := by omega
      rw [PhiS1_castSucc V c t, PhiS1_zero V c _ _ hz, PhiA1_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold outs1_C out1_C_6 out1_C_7 out1_C_8 sout1_C_0 sout1_C_1; (try dsimp only)
      have hz : t.val ≠ 0 := by omega
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold outs1_B out1_B_6 sout1_B_0 sout1_B_1; (try dsimp only)
      have hz : t.val ≠ 0 := by omega
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region

end Cert.KernelIdeal.Hand

end
-- ==== Proof.KernelIdeal.R2.lean ====
/- REGION 2 of @main (pipeline 2, the normalisation kernel), at a parameter `V`: the TensorCore's buffer
   contents when the region is entered. On a grid of 10 points the body reads one 10000×128 block x0 (window 0 of a
   100000×128 array, block `t` at point `t`) and four 1×128 rows x1 … x4 (windows 1 … 4: whole 1×128 arrays, fetched
   at the first point only and kept in their buffers afterwards), and stores over the whole 10000×128 block of window 5
   max (((x0 − x1) · rsqrt (x2 + ε)) · x3 + x4) 0, the rows broadcast along the long axis. This module gives each
   window's block at a point (`iblk2`), proves that each input's staging buffer holds its block at every point, fetched
   there or not (`before2_0` … `before2_4`), names what the body leaves in the output's buffer (`out2_5`: its one
   whole-block store, which covers the buffer, `cover2_5`), proves the body's triple on whole staging memrefs
   (`sound_kernel2`: the output's buffer is read before it is written, its value unused, so it is held at unknown
   contents), and assembles the pipeline's proof data `dat2` and the body obligation at every point
   (`body_obligation2`). Everything is generic in the float instance. -/
import proofs.«428931_j67113158967915_3_alg».proof.Proof.Gen.KernelIdeal.Launch
import proofs.«428931_j67113158967915_3_alg».proof.Proof.Gen.KernelIdeal.Skeleton
import proofs.«428931_j67113158967915_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2__bn_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data
    whose array is `V`'s (`hA`) and whose body leaves the block in place (`hafter`): at a point where the window is
    not fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data
    whose array is `V`'s (`hA`) and whose body leaves the block in place (`hafter`): at a point where the window is
    not fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data
    whose array is `V`'s (`hA`) and whose body leaves the block in place (`hafter`): at a point where the window is
    not fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data
    whose array is `V`'s (`hA`) and whose body leaves the block in place (`hafter`): at a point where the window is
    not fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data
    whose array is `V`'s (`hA`) and whose body leaves the block in place (`hafter`): at a point where the window is
    not fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 10000×128 block: the rectangle of the body's long load and of its store. -/
abbrev r2_0 : Rect S10000x128 := Rect.unit (s := S10000x128) ![0, 0] S10000x128.size inb_S10000x128_S10000x128_0_0
/-- The whole 1×128 row: the rectangle of the body's four row loads. -/
abbrev r2_1 : Rect S1x128 := Rect.unit (s := S1x128) ![0, 0] S1x128.size inb_S1x128_S1x128_0_0

/-! ## What the body leaves in the output window's buffer -/

/-- Window 5's staging buffer after the body, from the input windows' blocks: its one store over the whole block.
    The payload takes the rows in the order the body reads them: window 2's row first, then the long block and
    window 1's row, then windows 3's and 4's. -/
def out2_5 (x0 : Vec F S10000x128 .f32) (x1 x2 x3 x4 : Vec F S1x128 .f32) : Vec F S10000x128 .f32 :=
  View.canon [⟨r2_0, k2_pay1 (View.ld x2 r2_1) (View.ld x0 r2_0) (View.ld x1 r2_1) (View.ld x3 r2_1) (View.ld x4 r2_1)⟩]

/-- The store is of the whole block, so it covers the buffer. -/
theorem cover2_5 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `x0` … `x4` and the output's at anything,
    runs to the continuation holding the inputs' as they were and the output's at `out2_5 x0 x1 x2 x3 x4`. The body
    reads the output's buffer before it stores to it; the value read is not used. -/
theorem sound_kernel2 (c : Dev nD) (E : Set ℕ) (i : grid2.Coords) (arg0 : Memref sig .tc .vmem S10000x128 .f32) (harg0 : arg0.IsWhole)
    (arg1 : Memref sig .tc .vmem S1x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__bn_kernel i arg0 harg0 arg1 harg1 arg2 harg2 arg3 harg3 arg4 harg4 arg5 harg5) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_0` … `before2_4`), so `sound_kernel2`
    applies; the invariant and the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KernelIdeal.Run.lean ====
/- THE RUN of @main from the launch to the return. @main is seven items in a row: two stretches of host operations
   (the two rows of the edge list sliced out and flattened; the gather of the source rows, out-of-range indices giving a
   quiet NaN row), region 0 (the edge messages), a stretch (the scatter-add of the messages onto the nodes, the two
   weight matrices transposed, the two biases as rows), region 1 (the two-layer network on the node rows, with the
   column sums of its output and of its square), a stretch (each column sum divided by the number of rows, and the
   mean of squares less the squared mean), and region 2 (the normalization of the rows).
   This module names the contents of every unscoped buffer of a core at each of the eight boundaries as a fold from the
   launch memory (`W0` … `W7`: a stretch takes them to `StableHlo.after` of its operations; a region puts its windows'
   arrays at what its write-backs leave, `Dat.arrAt … N`, and keeps every other buffer), proves that each of @main's
   nine arguments is read back through the fold to its launch contents (`W7_main_argK`: no stretch writes an argument,
   and the two regions that have an argument among their windows only read it), states each stretch and each region as
   a segment over the thread state "every unscoped buffer at the boundary's contents, the generator register at some
   state, nothing owed" (`hseg`, `reg0`, `reg1`, `reg2`, `segs`), and proves
   * `run_all`: from any memory with zero counters every weakly fair execution of @main terminates, nothing faulting,
     and every final memory holds every unscoped buffer of every core at `W7`;
   * `frame`: hence the nine argument arrays end as launched;
   * `run_value`: the same run read at the result buffer `main_v22` (at `W7`) and the nine arguments;
   * `W7_out`: the result buffer `main_v22` is at region 2's folded write-backs of its output window.
   Everything is generic in the float instance. -/
import proofs.«428931_j67113158967915_3_alg».proof.Proof.KernelIdeal.R0
import proofs.«428931_j67113158967915_3_alg».proof.Proof.KernelIdeal.R1
import proofs.«428931_j67113158967915_3_alg».proof.Proof.KernelIdeal.R2
import proofs.«428931_j67113158967915_3_alg».proof.Proof.Gen.KernelIdeal.Regions
import Idealize.ShloMosaic.Lib.Pipeline.RegionsLoop
import Idealize.ShloMosaic.Lib.Pipeline.FrameSuffix

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch. -/
abbrev W0 : Dev nD → Valuation τ sig (Elt F) := fun c b => (s₀ m ρ).mem ((c : Dev nD), b)
/-- After `hostOps0`: the two rows of the edge list, flattened. -/
abbrev W1 : Dev nD → Valuation τ sig (Elt F) := fun c => StableHlo.after hostOps0 (W0 m ρ c)
/-- After `hostOps0_1`, the gather of the source rows (region 0's entry). -/
abbrev W2 : Dev nD → Valuation τ sig (Elt F) := fun c => StableHlo.after hostOps0_1 (W1 m ρ c)
/-- The same read at the TensorCore's references (what region 0's proof data take). -/
abbrev V2 : (c : Dev nD) → (b : Ref sig .tc) → Buf (Elt F) ((c : Thread nD τ).loc b) := fun c b => W2 m ρ c b

/-- At region 0's exit: its windows' arrays at what the pipeline leaves (the inputs as entered, each output's write-backs
    folded: `Dat.arrAt … N`), every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`). -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After `hostOps1`, the scatter-add onto the nodes and the operands of the network laid out (region 1's entry). -/
abbrev W4 : Dev nD → Valuation τ sig (Elt F) := fun c => StableHlo.after hostOps1 (W3 m ρ c)
/-- The same read at the TensorCore's references (what region 1's proof data take). -/
abbrev V4 : (c : Dev nD) → (b : Ref sig .tc) → Buf (Elt F) ((c : Thread nD τ).loc b) := fun c b => W4 m ρ c b

/-- At region 1's exit: its windows' arrays at what the pipeline leaves (the inputs as entered, each output's write-backs
    folded: `Dat.arrAt … N`), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`). -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`, the columns' means and variances (region 2's entry). -/
abbrev W6 : Dev nD → Valuation τ sig (Elt F) := fun c => StableHlo.after hostOps2 (W5 m ρ c)
/-- The same read at the TensorCore's references (what region 2's proof data take). -/
abbrev V6 : (c : Dev nD) → (b : Ref sig .tc) → Buf (Elt F) ((c : Thread nD τ).loc b) := fun c b => W6 m ρ c b

/-- At region 2's exit: its windows' arrays at what the pipeline leaves (the inputs as entered, each output's write-backs
    folded: `Dat.arrAt … N`), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`). -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- The result buffer at the end: region 2's output window's array, at the fold of its write-backs. -/
theorem W7_out (c : Dev nD) : W7 m ρ c (Proc.devRef .tc main_v22) = (dat2 (V6 m ρ) c).arrAt 5 cfg2.N :=
  W7_arr m ρ c 5

/-! ## The arguments end as launched: the fold at an argument's buffer walks back to the launch memory -/

/-- `main_arg0` ends as launched: no stretch writes it and no region's output window is on it (the gather and region 1's input window 0 read it). -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (by decide)
    _ = W4 m ρ c (Proc.devRef .tc main_arg0) := (W5_arr m ρ c 0).trans (((dat1 (V4 m ρ) c).arrAt_in 0 rfl _).trans (A_eq1 (V4 m ρ) c 0))
    _ = W3 m ρ c (Proc.devRef .tc main_arg0) := StableHlo.after_of_writes_sub hostOps1 _ hostOps1_writes (by decide)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- `main_arg1` ends as launched: no stretch writes it and no region's output window is on it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (by decide)
    _ = W4 m ρ c (Proc.devRef .tc main_arg1) := W5_of_ne m ρ c main_arg1 (by decide)
    _ = W3 m ρ c (Proc.devRef .tc main_arg1) := StableHlo.after_of_writes_sub hostOps1 _ hostOps1_writes (by decide)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- `main_arg2` ends as launched: no stretch writes it and no region's output window is on it (region 0 reads it through its input window 1). -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (by decide)
    _ = W4 m ρ c (Proc.devRef .tc main_arg2) := W5_of_ne m ρ c main_arg2 (by decide)
    _ = W3 m ρ c (Proc.devRef .tc main_arg2) := StableHlo.after_of_writes_sub hostOps1 _ hostOps1_writes (by decide)
    _ = W2 m ρ c (Proc.devRef .tc main_arg2) := (W3_arr m ρ c 1).trans (((dat0 (V2 m ρ) c).arrAt_in 1 rfl _).trans (A_eq0 (V2 m ρ) c 1))
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- `main_arg3` ends as launched: no stretch writes it and no region's output window is on it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (by decide)
    _ = W4 m ρ c (Proc.devRef .tc main_arg3) := W5_of_ne m ρ c main_arg3 (by decide)
    _ = W3 m ρ c (Proc.devRef .tc main_arg3) := StableHlo.after_of_writes_sub hostOps1 _ hostOps1_writes (by decide)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
/-- `main_arg4` ends as launched: no stretch writes it and no region's output window is on it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (by decide)
    _ = W4 m ρ c (Proc.devRef .tc main_arg4) := W5_of_ne m ρ c main_arg4 (by decide)
    _ = W3 m ρ c (Proc.devRef .tc main_arg4) := StableHlo.after_of_writes_sub hostOps1 _ hostOps1_writes (by decide)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
/-- `main_arg5` ends as launched: no stretch writes it and no region's output window is on it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (by decide)
    _ = W4 m ρ c (Proc.devRef .tc main_arg5) := W5_of_ne m ρ c main_arg5 (by decide)
    _ = W3 m ρ c (Proc.devRef .tc main_arg5) := StableHlo.after_of_writes_sub hostOps1 _ hostOps1_writes (by decide)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
/-- `main_arg6` ends as launched: no stretch writes it and no region's output window is on it. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_writes_sub hostOps2 _ hostOps2_writes (by decide)
    _ = W4 m ρ c (Proc.devRef .tc main_arg6) := W5_of_ne m ρ c main_arg6 (by decide)
    _ = W3 m ρ c (Proc.devRef .tc main_arg6) := StableHlo.after_of_writes_sub hostOps1 _ hostOps1_writes (by decide)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
/-- `main_arg7` ends as launched: no stretch writes it and no region's output window is on it. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_writes_sub hostOps2 _ hostOps2_writes (by decide)
    _ = W4 m ρ c (Proc.devRef .tc main_arg7) := W5_of_ne m ρ c main_arg7 (by decide)
    _ = W3 m ρ c (Proc.devRef .tc main_arg7) := StableHlo.after_of_writes_sub hostOps1 _ hostOps1_writes (by decide)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
/-- `main_arg8` ends as launched: no stretch writes it and no region's output window is on it. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_writes_sub hostOps2 _ hostOps2_writes (by decide)
    _ = W4 m ρ c (Proc.devRef .tc main_arg8) := W5_of_ne m ρ c main_arg8 (by decide)
    _ = W3 m ρ c (Proc.devRef .tc main_arg8) := StableHlo.after_of_writes_sub hostOps1 _ hostOps1_writes (by decide)
    _ = W2 m ρ c (Proc.devRef .tc main_arg8) := W3_of_ne m ρ c main_arg8 (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! # The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along
    (it is left at those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! # The regions as segments -/

-- a library lemma stated over `pin pcs a p` meets the pinned configuration only when unification may unfold plain
-- definitions in a metavariable's type
set_option backward.isDefEq.respectTransparency.types false in
/-- REGION 0 (custom_call 0) over the thread state: entered from every unscoped buffer at `W2`, left at `W3`.
    Its arrays are split out of the unscoped buffers and put back at the exit contents; the generator register into the invariant (the scoped rest and the register, untouched) and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun w => A_eq0 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 (custom_call 1) over the thread state: entered from every unscoped buffer at `W4`, left at `W5`.
    Its arrays are split out of the unscoped buffers and put back at the exit contents; the generator register and the scoped rest into the pipeline's invariant at the first point and out of it at the last;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun w => A_eq1 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V4 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 (custom_call 2) over the thread state: entered from every unscoped buffer at `W6`, left at `W7`.
    Its arrays are split out of the unscoped buffers and put back at the exit contents; the generator register into the invariant (the scoped rest and the register, untouched) and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun w => A_eq2 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ) ]
/-- @main IS the run of the segments: it is the chain of its seven items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds every unscoped buffer of every core at the
    last boundary's contents `W7`: the launch over the seven segments, the last thread state read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: from any memory with zero counters every weakly fair execution of @main
    terminates, nothing faulting, and every final memory has the nine argument arrays as launched — each argument's
    buffer is unscoped, so `run_all` reads it at `W7`, which walks back to the launch memory (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

/-- THE RUN, read at the result buffer and the arguments: every final memory holds `main_v22` at the last boundary's
    contents and the nine argument arrays as launched. -/
theorem run_value : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v22 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

/-- info: 'Cert.KernelIdeal.Hand.frame' depends on axioms: [propext, Classical.choice, Quot.sound] -/
#guard_msgs in #print axioms frame
/-- info: 'Cert.KernelIdeal.Hand.run_value' depends on axioms: [propext, Classical.choice, Quot.sound] -/
#guard_msgs in #print axioms run_value

end Cert.KernelIdeal.Hand

end
-- ==== Proof.TakeMask.lean ====
/-
  The masked row lookup is the plain row lookup when every position is in range.

  A table of 100000 rows is read at 1600000 signed 32-bit positions. A negative position is first wrapped
  by adding the number of rows; the row at the wrapped position is read; and a row is then replaced by a
  fill value wherever the wrapped position falls outside 0 … 99999. When every position p satisfies
  -100000 ≤ p < 100000 the wrapped position is always inside 0 … 99999, so nothing is replaced.
-/
import proofs.«428931_j67113158967915_3_alg».proof.KernelIdeal
import Idealize.ShloMosaic.Lib.StableHlo.Predicate
import Idealize.ShloMosaic.Lib.ValueIdx
import Idealize.ShloMosaic.PureOps.Reduce

noncomputable section

namespace Cert.KernelIdeal.TakeMask

open Cert.KernelIdeal Cert.KernelIdeal.Facts₀ Idealize.ShloMosaic Idealize.ShloMosaic.ValueIdx

/-! ## Words -/

theorem toInt_zero32 : (0#32 : BitVec 32).toInt = 0 := by decide
theorem toInt_rows : (100000#32 : BitVec 32).toInt = 100000 := by decide
theorem toInt_last : (99999#32 : BitVec 32).toInt = 99999 := by decide

/-- The wrap of one position: a word p with -100000 ≤ p < 100000, replaced by p + 100000 when p < 0,
    lies in 0 … 99999. The sum does not leave the signed 32-bit range, so it is the sum of the integers. -/
theorem wrap_in_range (s : BitVec 32) (h : (-100000 : ℤ) ≤ s.toInt ∧ s.toInt < 100000) :
    (0 : ℤ) ≤ (Scalar.select (IntOp.cmpi .slt s 0#32) (IntOp.addi s 100000#32) s).toInt
      ∧ (Scalar.select (IntOp.cmpi .slt s 0#32) (IntOp.addi s 100000#32) s).toInt ≤ 99999 := by
  obtain ⟨h1, h2⟩ := h
  unfold Scalar.select IntOp.cmpi IntOp.addi
  simp only [BitVec.slt, toInt_zero32]
  by_cases hneg : s.toInt < 0
  · rw [decide_eq_true hneg]
    simp only [BitVec.ofBool_true, if_true]
    rw [BitVec.toInt_add, toInt_rows, Int.bmod_def]
    omega
  · rw [decide_eq_false hneg]
    simp only [BitVec.ofBool_false]
    rw [if_neg (by decide)]
    omega

/-- A word in 0 … 99999 passes both range tests: (0 ≤ w) and (w ≤ 99999) is the bit 1. -/
theorem in_range_bit (w : BitVec 32) (h : (0 : ℤ) ≤ w.toInt ∧ w.toInt ≤ 99999) :
    IntOp.andi (IntOp.cmpi .sge w 0#32) (IntOp.cmpi .sle w 99999#32) = 1#1 := by
  obtain ⟨h1, h2⟩ := h
  unfold IntOp.andi IntOp.cmpi
  simp only [BitVec.sle, toInt_zero32, toInt_last]
  rw [decide_eq_true h1, decide_eq_true h2]
  decide

/-- A left fold by and over bits that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- The and-reduction of an all-ones mask from 1, over any axes, is all ones. -/
theorem reduce_andi_ones {s t u : Shape} {axes : List (Fin s.rank)} (h : s.ReducesTo axes t) (hu : 0 < u.numel) :
    Host.reduce IntOp.andi (fun _ : s.Idx => (1#1 : BitVec 1)) (constantI u 1 1#1) h hu = fun _ => 1#1 := by
  funext j
  rw [Host.reduce_eq_foldl]
  exact foldl_andi_ones _ (fun _ => rfl) _

/-! ## The wrapped positions -/

variable [Facts₀]

/-- The positions after the wrap, as a column: p + 100000 where p < 0, else p. -/
abbrev wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Each entry of the column is the wrap of one of the positions. -/
theorem wrapped_apply (src : IVec S1600000 32) (i : S1600000x1.Idx) :
    ∃ k : S1600000.Idx, wrapped src i
      = Scalar.select (IntOp.cmpi .slt (src k) 0#32) (IntOp.addi (src k) 100000#32) (src k) :=
  ⟨_, rfl⟩

/-- Every wrapped position is in 0 … 99999 when every position p has -100000 ≤ p < 100000. -/
theorem wrapped_in_range (src : IVec S1600000 32)
    (hr : ∀ e : Fin 1600000, (-100000 : ℤ) ≤ (src (ix1 e)).toInt ∧ (src (ix1 e)).toInt < 100000)
    (i : S1600000x1.Idx) : (0 : ℤ) ≤ (wrapped src i).toInt ∧ (wrapped src i).toInt ≤ 99999 := by
  obtain ⟨k, hk⟩ := wrapped_apply src i
  rw [hk]
  have e : src k = src (ix1 (k 0)) := congrArg src (eq_ix1 k)
  rw [e]
  exact wrap_in_range _ (hr (k 0))

/-! ## The mask is all ones, and the masked lookup is the lookup -/

variable {F : FTy → Type} [FloatOps F]

theorem masked_take_eq (x : (⟨S100000x128, .f32⟩ : BufTy).Contents (Elt F))
    (fill : (⟨S1600000x128, .f32⟩ : BufTy).Contents (Elt F)) (src : IVec S1600000 32)
    (hr : ∀ e : Fin 1600000, (-100000 : ℤ) ≤ (src (ix1 e)).toInt ∧ (src (ix1 e)).toInt < 100000) :
    select (broadcastInDim S1600000x128 ![0] bcast_S1600000_S1600000x128_0
        (Host.reduce IntOp.andi
          (andi (cmpi .sge (wrapped src) (broadcastInDim S1600000x1 ![] bcast_S_S1600000x1 (constantI S_ 32 0#32)))
            (cmpi .sle (wrapped src) (broadcastInDim S1600000x1 ![0, 1] bcast_S1x1_S1600000x1_0_1
              (broadcastInDim S1x1 ![1] bcast_S1_S1x1_1 (constantI S1 32 99999#32)))))
          (constantI S_ 1 1#1) reducesTo_S1600000x1_S1600000_d1 h_S_))
      (Host.gather gather_S100000x128_S1600000x1_S1600000x128_1_0_n_n_0_1_1128 x (wrapped src)) fill
    = Host.gather gather_S100000x128_S1600000x1_S1600000x128_1_0_n_n_0_1_1128 x (wrapped src) := by
  have hM : andi (cmpi .sge (wrapped src) (broadcastInDim S1600000x1 ![] bcast_S_S1600000x1 (constantI S_ 32 0#32)))
      (cmpi .sle (wrapped src) (broadcastInDim S1600000x1 ![0, 1] bcast_S1x1_S1600000x1_0_1
        (broadcastInDim S1x1 ![1] bcast_S1_S1x1_1 (constantI S1 32 99999#32))))
      = fun _ => (1#1 : BitVec 1) :=
    funext fun i => in_range_bit (wrapped src i) (wrapped_in_range src hr i)
  rw [hM, reduce_andi_ones]
  funext i
  exact select_one _ _

end Cert.KernelIdeal.TakeMask
-- ==== Proof.AggrDef.lean ====
/-
  The aggregated messages as one function of three argument arrays: the node features x (100000 × 128), the edge
  list e (2 × 1600000 signed 32-bit positions: row 0 the sources, row 1 the destinations) and the edge features a
  (1600000 × 128).

  Edge k carries the message max (x[src k] + a[k]) 0. The row of x is looked up with the wrap-and-mask convention: a
  negative position is wrapped once by adding the number of rows, and a position still outside 0 … 99999 gives a
  row of quiet NaNs. Node n then receives the sum of the messages of the edges whose destination is n, added onto
  zero.
-/
import proofs.«428931_j67113158967915_3_alg».proof.Proof.TakeMask

noncomputable section

namespace Cert.KernelIdeal.Aggr

open Cert.KernelIdeal Cert.KernelIdeal.Facts₀ Idealize.ShloMosaic

variable [Facts₀]

/-- The source positions: row 0 of the edge list, as a vector. -/
abbrev srcOf (e : IVec S2x1600000 32) : IVec S1600000 32 :=
  shapeCast S1600000 (extractStridedSlice S1x1600000 ![0, 0] e slices_S2x1600000_S1x1600000_0_0) shapeCasts_S1x1600000_S1600000

/-- The destination positions: row 1 of the edge list, as a vector. -/
abbrev dstOf (e : IVec S2x1600000 32) : IVec S1600000 32 :=
  shapeCast S1600000 (extractStridedSlice S1x1600000 ![1, 0] e slices_S2x1600000_S1x1600000_1_0) shapeCasts_S1x1600000_S1600000

variable {F : FTy → Type} [FloatOps F]

/-- The masked row lookup: the rows of x at the wrapped positions, a row of quiet NaNs where the wrapped position
    is out of range. -/
def maskedTake (x : FVec F S100000x128 .f32) (src : IVec S1600000 32) : FVec F S1600000x128 .f32 :=
  select (broadcastInDim S1600000x128 ![0] bcast_S1600000_S1600000x128_0
      (Host.reduce IntOp.andi
        (andi (cmpi .sge (TakeMask.wrapped src) (broadcastInDim S1600000x1 ![] bcast_S_S1600000x1 (constantI S_ 32 0#32)))
          (cmpi .sle (TakeMask.wrapped src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x (TakeMask.wrapped src))
    (broadcastInDim S1600000x128 ![] bcast_S_S1600000x128 (constant S_ .f32 0x7FC00000#32))

/-- The masked lookup is the plain lookup at the wrapped positions when every position p has -100000 ≤ p < 100000. -/
theorem maskedTake_eq_gather (x : FVec F S100000x128 .f32) (src : IVec S1600000 32)
    (hr : ∀ e : Fin 1600000, (-100000 : ℤ) ≤ (src (ValueIdx.ix1 e)).toInt ∧ (src (ValueIdx.ix1 e)).toInt < 100000) :
    maskedTake x src = Host.gather gather_S100000x128_S1600000x1_S1600000x128_1_0_n_n_0_1_1128 x (TakeMask.wrapped src) :=
  TakeMask.masked_take_eq x _ src hr

/-- The message of every edge: the looked-up source row plus the edge's features, clamped at zero from below. -/
abbrev msgs (x : FVec Ideal S100000x128 .f32) (e : IVec S2x1600000 32) (a : FVec Ideal S1600000x128 .f32) :
    FVec Ideal S1600000x128 .f32 :=
  fun i => max (maskedTake x (srcOf e) i + a i) 0

/-- The aggregated messages: each node's sum, onto zero, of the messages of the edges that end at it. -/
def aggr (x : FVec Ideal S100000x128 .f32) (e : IVec S2x1600000 32) (a : FVec Ideal S1600000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstOf e))
    (msgs x e a)

end Cert.KernelIdeal.Aggr

end
-- ==== Proof.KernelIdeal.HostStages.lean ====
/-
  What the first two host stretches of the program leave in the arrays the later stages read, from any incoming
  contents W.

  The first stretch cuts the 2 × 1600000 edge list into its two rows: the source positions and the destination
  positions, each as a vector of 1600000 words. The second stretch is the masked row lookup: from the node
  features and the source positions it leaves the array of looked-up rows (a row of quiet NaNs where a wrapped
  position is out of range).

  The second stretch is read in two parts that meet at two intermediate arrays (the reduced mask and the
  looked-up rows): the first nineteen operations compute them, the last four combine them.
-/
import proofs.«428931_j67113158967915_3_alg».proof.Proof.Gen.KernelIdeal.Launch
import proofs.«428931_j67113158967915_3_alg».proof.Proof.Gen.KernelIdeal.Regions
import proofs.«428931_j67113158967915_3_alg».proof.Proof.AggrDef
import Idealize.ShloMosaic.Lib.StableHlo.Run

noncomputable section

namespace Cert.KernelIdeal.Hand

open Cert.KernelIdeal Cert.KernelIdeal.Gen Idealize.ShloMosaic Idealize.ShloMosaic.StableHlo Idealize.SL.Sem

variable {F : FTy → Type} [FloatOps F]

/-- The contents after two lists of operations run one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-! ## The first stretch: the two rows of the edge list -/

/-- The source positions: row 0 of the edge list. -/
theorem hostOps0_v1 (W : Valuation τ sig (Elt F)) :
    StableHlo.after hostOps0 W (Proc.devRef .tc main_v1) = Aggr.srcOf (W (Proc.devRef .tc main_arg1)) := by
  dsimp only [hostOps0]
  after_results_simp
  rfl

/-- The destination positions: row 1 of the edge list. -/
theorem hostOps0_v3 (W : Valuation τ sig (Elt F)) :
    StableHlo.after hostOps0 W (Proc.devRef .tc main_v3) = Aggr.dstOf (W (Proc.devRef .tc main_arg1)) := by
  dsimp only [hostOps0]
  after_results_simp
  rfl

/-! ## The second stretch: the masked row lookup -/

/-- The first nineteen operations of the lookup: the wrap of the positions, the range mask and its reduction, the
    rows looked up at the wrapped positions. -/
abbrev takeOpsA : List (HloOp τ sig (Elt F)) := [
  StableHlo.TRef.nullary (.of main_call0_c : StableHlo.TRef sig ⟨S_, .i32⟩) (constantI S_ 32 0#32),
  StableHlo.TRef.unary (.of main_call0_c : StableHlo.TRef sig ⟨S_, .i32⟩) (.of main_call0_v0 : StableHlo.TRef sig ⟨S1600000, .i32⟩) (broadcastInDim S1600000 ![] bcast_S_S1600000),
  StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
  StableHlo.TRef.nullary (.of main_call0_c_0 : StableHlo.TRef sig ⟨S_, .i32⟩) (constantI S_ 32 100000#32),
  StableHlo.TRef.unary (.of main_call0_c_0 : StableHlo.TRef sig ⟨S_, .i32⟩) (.of main_call0_v2 : StableHlo.TRef sig ⟨S1600000, .i32⟩) (broadcastInDim S1600000 ![] bcast_S_S1600000),
  StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
  StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
  StableHlo.TRef.unary main_call0_call0.v0 (.of main_call0_v5 : StableHlo.TRef sig ⟨S1600000x1, .i32⟩) (broadcastInDim S1600000x1 ![0] bcast_S1600000_S1600000x1_0),
  StableHlo.TRef.nullary (.of main_call0_c_1 : StableHlo.TRef sig ⟨S1, .i32⟩) (constantI S1 32 99999#32),
  StableHlo.TRef.nullary (.of main_call0_c_2 : StableHlo.TRef sig ⟨S_, .i32⟩) (constantI S_ 32 0#32),
  StableHlo.TRef.unary (.of main_call0_c_2 : StableHlo.TRef sig ⟨S_, .i32⟩) (.of main_call0_v6 : StableHlo.TRef sig ⟨S1600000x1, .i32⟩) (broadcastInDim S1600000x1 ![] bcast_S_S1600000x1),
  StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
  StableHlo.TRef.unary (.of main_call0_c_1 : StableHlo.TRef sig ⟨S1, .i32⟩) (.of main_call0_v8 : StableHlo.TRef sig ⟨S1x1, .i32⟩) (broadcastInDim S1x1 ![1] bcast_S1_S1x1_1),
  StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
  StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
  StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
  StableHlo.TRef.nullary (.of main_call0_c_3 : StableHlo.TRef sig ⟨S_, .i1⟩) (constantI S_ 1 1#1),
  StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_),
  StableHlo.TRef.binary (.of main_arg0 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i) ]
/-- The last four: the mask laid along the 128 columns, the fill value, the choice between row and fill. -/
abbrev takeOpsB : List (HloOp τ sig (Elt F)) := [
  StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
  StableHlo.TRef.nullary (.of main_call0_cst : StableHlo.TRef sig ⟨S_, .f32⟩) (constant S_ .f32 0x7FC00000#32),
  StableHlo.TRef.unary (.of main_call0_cst : StableHlo.TRef sig ⟨S_, .f32⟩) (.of main_call0_v15 : StableHlo.TRef sig ⟨S1600000x128, .f32⟩) (broadcastInDim S1600000x128 ![] bcast_S_S1600000x128),
  StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v4 : StableHlo.TRef sig ⟨S1600000x128, .f32⟩) select ]

theorem hostOps0_1_split : (hostOps0_1 : List (HloOp τ sig (Elt F))) = takeOpsA ++ takeOpsB := rfl

/-- The reduced mask after the first part. -/
theorem takeA_v12 (W : Valuation τ sig (Elt F)) :
    StableHlo.after takeOpsA W (Proc.devRef .tc main_call0_v12)
      = Host.reduce IntOp.andi
          (andi (cmpi .sge (broadcastInDim S1600000x1 ![0] bcast_S1600000_S1600000x1_0
        (select (cmpi .slt (W (Proc.devRef .tc main_v1)) (broadcastInDim S1600000 ![] bcast_S_S1600000 (constantI S_ 32 0#32)))
          (addi (W (Proc.devRef .tc main_v1)) (broadcastInDim S1600000 ![] bcast_S_S1600000 (constantI S_ 32 100000#32)))
          (W (Proc.devRef .tc main_v1)))) (broadcastInDim S1600000x1 ![] bcast_S_S1600000x1 (constantI S_ 32 0#32)))
            (cmpi .sle (broadcastInDim S1600000x1 ![0] bcast_S1600000_S1600000x1_0
        (select (cmpi .slt (W (Proc.devRef .tc main_v1)) (broadcastInDim S1600000 ![] bcast_S_S1600000 (constantI S_ 32 0#32)))
          (addi (W (Proc.devRef .tc main_v1)) (broadcastInDim S1600000 ![] bcast_S_S1600000 (constantI S_ 32 100000#32)))
          (W (Proc.devRef .tc main_v1)))) (broadcastInDim S1600000x1 ![0, 1] bcast_S1x1_S1600000x1_0_1
              (broadcastInDim S1x1 ![1] bcast_S1_S1x1_1 (constantI S1 32 99999#32)))))
          (constantI S_ 1 1#1) reducesTo_S1600000x1_S1600000_d1 h_S_ := by
  dsimp only [takeOpsA]
  after_results_simp
  simp only [TRef.toBuf, TRef.ofBuf, cast_eq]

/-- The looked-up rows after the first part. -/
theorem takeA_v13 (W : Valuation τ sig (Elt F)) :
    StableHlo.after takeOpsA W (Proc.devRef .tc main_call0_v13)
      = Host.gather gather_S100000x128_S1600000x1_S1600000x128_1_0_n_n_0_1_1128 (W (Proc.devRef .tc main_arg0)) (broadcastInDim S1600000x1 ![0] bcast_S1600000_S1600000x1_0
        (select (cmpi .slt (W (Proc.devRef .tc main_v1)) (broadcastInDim S1600000 ![] bcast_S_S1600000 (constantI S_ 32 0#32)))
          (addi (W (Proc.devRef .tc main_v1)) (broadcastInDim S1600000 ![] bcast_S_S1600000 (constantI S_ 32 100000#32)))
          (W (Proc.devRef .tc main_v1)))) := by
  dsimp only [takeOpsA]
  after_results_simp
  simp only [TRef.toBuf, TRef.ofBuf, cast_eq]

/-- The second part, from any contents: the choice between the looked-up rows and the fill, by the mask. -/
theorem takeB_v4 (V : Valuation τ sig (Elt F)) :
    StableHlo.after takeOpsB V (Proc.devRef .tc main_v4)
      = select (broadcastInDim S1600000x128 ![0] bcast_S1600000_S1600000x128_0 (V (Proc.devRef .tc main_call0_v12)))
          (V (Proc.devRef .tc main_call0_v13))
          (broadcastInDim S1600000x128 ![] bcast_S_S1600000x128 (constant S_ .f32 0x7FC00000#32)) := by
  dsimp only [takeOpsB]
  after_results_simp
  simp only [TRef.toBuf, TRef.ofBuf, cast_eq]

/-- The masked row lookup of the node features at the source positions. -/
theorem hostOps0_1_v4 (W : Valuation τ sig (Elt F)) :
    StableHlo.after hostOps0_1 W (Proc.devRef .tc main_v4)
      = Aggr.maskedTake (W (Proc.devRef .tc main_arg0)) (W (Proc.devRef .tc main_v1)) := by
  rw [hostOps0_1_split, after_append, takeB_v4, takeA_v12, takeA_v13]
  rfl

end Cert.KernelIdeal.Hand
-- ==== Proof.KernelIdeal.HostStagesB.lean ====
/-
  What the two later stretches of host operations leave in the buffers the regions read, as functions of the
  stretch's incoming contents W.

  The stretch before the network region: the aggregated messages are the scatter-add, onto an array of zeros, of the
  edge messages at the destination positions laid out as a column; the two weight matrices are transposed; the two
  biases are laid out as rows. The stretch before the normalising region: the column sums are divided by the number of
  rows (the mean), the column sums of squares likewise, less the squared mean (the variance); the scale and the shift
  are laid out as rows. Each reading follows the operations of the stretch in order: an operation's result is its
  function of its operands' contents, and a buffer an operation does not write keeps its contents.
-/
import proofs.«428931_j67113158967915_3_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.StableHlo Idealize.SL.Sem

variable {F : FTy → Type} [FloatOps F]

/-! ## The stretch before the network region -/

/-- The aggregated messages: the edge messages summed, onto zero, at their destination positions. -/
theorem hostOps1_v8 (W : Valuation τ sig (Elt F)) :
    StableHlo.after hostOps1 W (Proc.devRef .tc main_v8)
      = Host.scatterAdd (F := F) scatter_S100000x128_S1600000x1_S1600000x128_1_0_0_1
          (broadcastInDim S100000x128 ![] bcast_S_S100000x128 (constant (F := F) S_ .f32 0x00000000#32))
          (broadcastInDim S1600000x1 ![0] bcast_S1600000_S1600000x1_0 (W (Proc.devRef .tc main_v3)))
          (W (Proc.devRef .tc main_v5)) := by
  dsimp only [hostOps1]
  after_results_simp

/-- The first weight matrix, transposed. -/
theorem hostOps1_v9 (W : Valuation τ sig (Elt F)) :
    StableHlo.after hostOps1 W (Proc.devRef .tc main_v9)
      = transpose S128x128 [1, 0] (W (Proc.devRef .tc main_arg3)) transposes_S128x128_S128x128_1_0 := by
  dsimp only [hostOps1]
  after_results_simp

/-- The second weight matrix, transposed. -/
theorem hostOps1_v10 (W : Valuation τ sig (Elt F)) :
    StableHlo.after hostOps1 W (Proc.devRef .tc main_v10)
      = transpose S128x128 [1, 0] (W (Proc.devRef .tc main_arg5)) transposes_S128x128_S128x128_1_0 := by
  dsimp only [hostOps1]
  after_results_simp

/-- The first bias, as a row. -/
theorem hostOps1_v11 (W : Valuation τ sig (Elt F)) :
    StableHlo.after hostOps1 W (Proc.devRef .tc main_v11) = shapeCast S1x128 (W (Proc.devRef .tc main_arg4)) shapeCasts_S128_S1x128 := by
  dsimp only [hostOps1]
  after_results_simp
  rfl

/-- The second bias, as a row. -/
theorem hostOps1_v12 (W : Valuation τ sig (Elt F)) :
    StableHlo.after hostOps1 W (Proc.devRef .tc main_v12) = shapeCast S1x128 (W (Proc.devRef .tc main_arg6)) shapeCasts_S128_S1x128 := by
  dsimp only [hostOps1]
  after_results_simp
  rfl

/-! ## The stretch before the normalising region -/

/-- The column means: the column sums divided by the number of rows. -/
theorem hostOps2_v15 (W : Valuation τ sig (Elt F)) :
    StableHlo.after hostOps2 W (Proc.devRef .tc main_v15) = Host.divf (W (Proc.devRef .tc main_v13_1)) (broadcastInDim S1x128 ![] bcast_S_S1x128 (constant (F := F) S_ .f32 0x47C35000#32)) := by
  dsimp only [hostOps2]
  after_results_simp

/-- The column variances: the mean of squares less the squared mean. -/
theorem hostOps2_v19 (W : Valuation τ sig (Elt F)) :
    StableHlo.after hostOps2 W (Proc.devRef .tc main_v19)
      = subf (Host.divf (W (Proc.devRef .tc main_v13_2)) (broadcastInDim S1x128 ![] bcast_S_S1x128 (constant (F := F) S_ .f32 0x47C35000#32)))
          (mulf (Host.divf (W (Proc.devRef .tc main_v13_1)) (broadcastInDim S1x128 ![] bcast_S_S1x128 (constant (F := F) S_ .f32 0x47C35000#32)))
            (Host.divf (W (Proc.devRef .tc main_v13_1)) (broadcastInDim S1x128 ![] bcast_S_S1x128 (constant (F := F) S_ .f32 0x47C35000#32)))) := by
  dsimp only [hostOps2]
  after_results_simp

/-- The scale, as a row. -/
theorem hostOps2_v20 (W : Valuation τ sig (Elt F)) :
    StableHlo.after hostOps2 W (Proc.devRef .tc main_v20) = shapeCast S1x128 (W (Proc.devRef .tc main_arg7)) shapeCasts_S128_S1x128 := by
  dsimp only [hostOps2]
  after_results_simp
  rfl

/-- The shift, as a row. -/
theorem hostOps2_v21 (W : Valuation τ sig (Elt F)) :
    StableHlo.after hostOps2 W (Proc.devRef .tc main_v21) = shapeCast S1x128 (W (Proc.devRef .tc main_arg8)) shapeCasts_S128_S1x128 := by
  dsimp only [hostOps2]
  after_results_simp
  rfl

end Cert.KernelIdeal.Hand

end
-- ==== Proof.Spec.lean ====
/-
  The network as one function of its argument arrays, at the exact instance (floats read as extended reals).

  Nodes n < 100000 carry 128 features. Given the node features x and the aggregated messages a (both 100000 × 128),
  the update is  h = relu((1·x + a) · W1ᵀ + b1) · W2ᵀ + b2,  then each column j of h is normalised by the column's mean
  and variance over all nodes, scaled by γ, shifted by β, and clamped at zero from below.

  The variance of a column is written in two ways: as the mean of squares minus the square of the mean, and as the
  mean of squared deviations. Over the reals they are equal.
-/
import Idealize.ShloMosaic.PureOps.Ideal.Laws
import Idealize.ShloMosaic.Lib.ValueIdx

noncomputable section

open scoped BigOperators

namespace GineSpec

open Idealize.ShloMosaic Idealize.ShloMosaic.ValueIdx

/-- 100000 × 128: one row of 128 features per node. -/
abbrev SN : Shape := ⟨2, ![100000, 128]⟩
/-- 128 × 128: a weight matrix. -/
abbrev SW : Shape := ⟨2, ![128, 128]⟩
/-- 128: a bias or scale vector. -/
abbrev SD : Shape := ⟨1, ![128]⟩

/-- An array of rows from a function of (row, column). -/
def ofRows (f : Fin 100000 → Fin 128 → EReal) : SN.Idx → EReal :=
  fun i => f ⟨(i 0).val, idx2_lt0 i⟩ ⟨(i 1).val, idx2_lt1 i⟩

theorem ofRows_ix2 (f : Fin 100000 → Fin 128 → EReal) (n : Fin 100000) (j : Fin 128) : ofRows f (ix2 n j) = f n j := rfl

/-- The hidden layer's input at (n, d): the node's own feature, times one, plus the aggregated message. -/
def pre0 (x a : SN.Idx → EReal) (n : Fin 100000) (d : Fin 128) : EReal := 1 * x (ix2 n d) + a (ix2 n d)

/-- The first affine layer followed by the clamp at zero, at (n, k). -/
def lay1 (x a : SN.Idx → EReal) (W1 : SW.Idx → EReal) (b1 : SD.Idx → EReal) (n : Fin 100000) (k : Fin 128) : EReal :=
  max ((∑ d : Fin 128, pre0 x a n d * W1 (ix2 k d)) + b1 (ix1 k)) 0

/-- The update h at (n, j). -/
def hid (x a : SN.Idx → EReal) (W1 : SW.Idx → EReal) (b1 : SD.Idx → EReal) (W2 : SW.Idx → EReal) (b2 : SD.Idx → EReal)
    (n : Fin 100000) (j : Fin 128) : EReal :=
  (∑ k : Fin 128, lay1 x a W1 b1 n k * W2 (ix2 j k)) + b2 (ix1 j)

/-- The number of nodes, as the float the programs divide by. -/
def cN : EReal := Ideal.ofBits .f32 0x47C35000#32
/-- The floor added to the variance. -/
def eps : EReal := Ideal.ofBits .f32 0x3727C5AC#32

/-- Column sums of h and of its squares. -/
def colSum (h : Fin 100000 → Fin 128 → EReal) (j : Fin 128) : EReal := ∑ n : Fin 100000, h n j
def colSumSq (h : Fin 100000 → Fin 128 → EReal) (j : Fin 128) : EReal := ∑ n : Fin 100000, h n j * h n j

/-- The column mean. -/
def mean (h : Fin 100000 → Fin 128 → EReal) (j : Fin 128) : EReal := Ideal.div (colSum h j) cN

/-- The variance as mean of squares minus square of mean. -/
def varSq (h : Fin 100000 → Fin 128 → EReal) (j : Fin 128) : EReal := Ideal.div (colSumSq h j) cN - mean h j * mean h j

/-- The variance as mean of squared deviations. -/
def varDev (h : Fin 100000 → Fin 128 → EReal) (j : Fin 128) : EReal :=
  Ideal.div (∑ n : Fin 100000, (h n j - mean h j) * (h n j - mean h j)) cN

/-- The normalised, scaled, shifted and clamped output at (n, j), for a given variance v. -/
def bn (h : Fin 100000 → Fin 128 → EReal) (v : Fin 128 → EReal) (g b : SD.Idx → EReal) (n : Fin 100000) (j : Fin 128) : EReal :=
  max ((h n j - mean h j) * Ideal.rsqrt (v j + eps) * g (ix1 j) + b (ix1 j)) 0

end GineSpec

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Payloads.lean ====
/-
  The four kernel bodies' stored values read at an index, at the exact instance (floats read as extended reals).

  Each body computes its stored block from the blocks it loads by a short chain of entrywise operations, two products
  with a 128 × 128 matrix, and sums down the rows of the block. Read at row p and column j of the block:
  the message kernel stores max (x + e) 0; the update kernel stores the two-layer update of 1·x + a, and adds to a
  running row the column sums of that update and of its squares; the normalising kernel stores the update minus the
  mean row, times the reciprocal square root of the variance row plus a floor, times the scale row, plus the shift row,
  clamped at zero from below.
-/
import proofs.«428931_j67113158967915_3_alg».proof.Proof.Gen.KernelIdeal.Skeleton
import proofs.«428931_j67113158967915_3_alg».proof.Proof.Spec
import proofs.«428931_j67113158967915_3_alg».proof.Proof.LibRowLayers
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KernelIdeal.Pay

open Cert.KernelIdeal Cert.KernelIdeal.Gen Idealize.ShloMosaic Idealize.ShloMosaic.ValueIdx

/-! ## The message kernel: the sum of the two loaded blocks, clamped at zero -/

/-- At (p, j) the stored block is the larger of x + e and zero. -/
theorem k0_pay1_apply (v0 v2 : FVec Ideal S3200x128 .f32) (p : Fin 3200) (j : Fin 128) :
    k0_pay1 (F := Ideal) v0 v2 (ix2 p j) = max (v0 (ix2 p j) + v2 (ix2 p j)) 0 := by
  unfold k0_pay1
  show max (shapeCast S3200x128 v0 shapeCasts_S3200x128_S3200x128 (ix2 p j) + v2 (ix2 p j))
      (Ideal.ofBits .f32 0x00000000#32) = _
  rw [shapeCast_self, Ideal.ofBits_zero_f32]

/-! ## The normalising kernel -/

/-- At (p, j) the stored block is (h − mean) · rsqrt (variance + floor) · scale + shift, clamped at zero; the mean,
    variance, scale and shift are one row each, read at column j. -/
theorem k2_pay1_apply (v0 : FVec Ideal S1x128 .f32) (v5 : FVec Ideal S10000x128 .f32)
    (v7 v13 v17 : FVec Ideal S1x128 .f32) (p : Fin 10000) (j : Fin 128) :
    k2_pay1 (F := Ideal) v0 v5 v7 v13 v17 (ix2 p j)
      = max ((v5 (ix2 p j) - v7 (ix2 (0 : Fin 1) j))
              * Ideal.rsqrt (v0 (ix2 (0 : Fin 1) j) + Ideal.ofBits .f32 0x3727C5AC#32)
              * v13 (ix2 (0 : Fin 1) j) + v17 (ix2 (0 : Fin 1) j)) 0 := by
  unfold k2_pay1
  show max
      ((shapeCast S10000x128 v5 shapeCasts_S10000x128_S10000x128 (ix2 p j)
            - broadcastTo S10000x128 (shapeCast S1x128 v7 shapeCasts_S1x128_S1x128) broadcasts_S1x128_S10000x128 (ix2 p j))
          * broadcastTo S10000x128
              (rsqrt (addf (shapeCast S1x128 v0 shapeCasts_S1x128_S1x128)
                (broadcast S1x128 (Scalar.ofBits (F := Ideal) .f32 0x3727C5AC#32))))
              broadcasts_S1x128_S10000x128 (ix2 p j)
          * broadcastTo S10000x128 (shapeCast S1x128 v13 shapeCasts_S1x128_S1x128) broadcasts_S1x128_S10000x128 (ix2 p j)
        + broadcastTo S10000x128 (shapeCast S1x128 v17 shapeCasts_S1x128_S1x128) broadcasts_S1x128_S10000x128 (ix2 p j))
      (Ideal.ofBits .f32 0x00000000#32) = _
  rw [broadcastTo_1b_ab_apply, broadcastTo_1b_ab_apply, broadcastTo_1b_ab_apply, broadcastTo_1b_ab_apply,
    shapeCast_self, shapeCast_self, shapeCast_self, shapeCast_self, shapeCast_self, Ideal.ofBits_zero_f32]
  rfl

/-! ## The update kernel: two affine layers with a clamp between them

The matrix unit multiplies a 10000 × 128 block by a 128 × 128 matrix, contracting the block's columns with the matrix's
rows, into a zero accumulator: entry (p, j) of the product is the sum over k of block (p, k) times matrix (k, j). -/

/-- The left operand's row coordinate is the result's row … -/
theorem dotLhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … its column coordinate the contracted one … -/
theorem dotLhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- … the right operand's row coordinate the contracted one … -/
theorem dotRhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and its column coordinate the result's column. -/
theorem dotRhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into the zero accumulator at (p, j): the sum over k of A (p, k) · B (k, j). -/
theorem product_apply {φ₁ φ₂ : FTy} (A : FVec Ideal S10000x128 φ₁) (B : FVec Ideal S128x128 φ₂) (p : Fin 10000) (j : Fin 128) :
    matmul dot_S10000x128_S128x128_S10000x128_1_0_0_1_n_n none A B (constant S10000x128 .f32 0x00000000#32) (ix2 p j)
      = ∑ k : Fin 128, A (ix2 p k) * B (ix2 k j) := by
  refine (Ideal.matmul_constant_zero_apply dot_S10000x128_S128x128_S10000x128_1_0_0_1_n_n none A B (ix2 p j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k :=
    funext fun a => Fin.ext (by
      match a with
      | ⟨0, _⟩ => exact dotLhs_0 _ _
      | ⟨1, _⟩ => exact (dotLhs_1 _ _).trans hk)
  have er : dot_S10000x128_S128x128_S10000x128_1_0_0_1_n_n.rhsIdx (ix2 p j) ((contrEquiv1 dot_S10000x128_S128x128_S10000x128_1_0_0_1_n_n 128 rfl rfl).symm k) = ix2 k j :=
    funext fun a => Fin.ext (by
      match a with
      | ⟨0, _⟩ => exact (dotRhs_0 _ _).trans hk
      | ⟨1, _⟩ => exact dotRhs_1 _ _)
  rw [el, er]

/-- One affine layer as the kernel spells it — the weight matrix narrowed (the identity on extended reals), the
    product into the zero accumulator, plus the bias row broadcast down the rows — at (p, j). -/
theorem layer_apply {φ₁ : FTy} (x : FVec Ideal S10000x128 φ₁) (w : FVec Ideal S128x128 .f32) (b : FVec Ideal S1x128 .f32)
    (p : Fin 10000) (j : Fin 128) :
    addf (matmul dot_S10000x128_S128x128_S10000x128_1_0_0_1_n_n none x
          (truncf .bf16 (shapeCast S128x128 w shapeCasts_S128x128_S128x128) bitsLt_bf16_f32)
          (constant S10000x128 .f32 0x00000000#32))
        (broadcastTo S10000x128 (shapeCast S1x128 b shapeCasts_S1x128_S1x128) broadcasts_S1x128_S10000x128) (ix2 p j)
      = (∑ k : Fin 128, x (ix2 p k) * w (ix2 k j)) + b (ix2 (0 : Fin 1) j) := by
  rw [addf_apply, product_apply, broadcastTo_1b_ab_apply, shapeCast_self, shapeCast_self]
  rfl

/-- At (p, j) the stored block is the two-layer update of 1·x + a: the first layer's sums plus its bias row, clamped
    at zero, through the second layer. The weight matrices arrive already transposed, so both products are plain. -/
theorem k1_pay5_apply (v3 v6 : FVec Ideal S10000x128 .f32) (v10 : FVec Ideal S128x128 .f32) (v14 : FVec Ideal S1x128 .f32)
    (v21 : FVec Ideal S128x128 .f32) (v25 : FVec Ideal S1x128 .f32) (p : Fin 10000) (j : Fin 128) :
    k1_pay5 (F := Ideal) v3 v6 v10 v14 v21 v25 (ix2 p j)
      = (∑ k : Fin 128,
            max ((∑ d : Fin 128, (1 * v3 (ix2 p d) + v6 (ix2 p d)) * v10 (ix2 d k)) + v14 (ix2 (0 : Fin 1) k)) 0
              * v21 (ix2 k j))
          + v25 (ix2 (0 : Fin 1) j) := by
  unfold k1_pay5
  refine (layer_apply _ v21 v25 p j).trans ?_
  refine congrArg (· + v25 (ix2 (0 : Fin 1) j)) (Finset.sum_congr rfl fun k _ => ?_)
  refine congrArg (· * v21 (ix2 k j)) ?_
  rw [truncf_apply, maximumf_apply, layer_apply, broadcast_apply]
  refine congrArg₂ max (congrArg (· + v14 (ix2 (0 : Fin 1) k)) (Finset.sum_congr rfl fun d _ => ?_)) Ideal.ofBits_zero_f32
  refine congrArg (· * v10 (ix2 d k)) ?_
  rw [truncf_apply, addf_apply, mulf_apply, broadcast_apply, shapeCast_self]
  show Ideal.ofBits .f32 0x3F800000#32 * v3 (ix2 p d) + v6 (ix2 p d) = _
  rw [Ideal.ofBits_one_f32]

/-! ## The update kernel's running rows: sums down the rows of the block -/

/-- Putting row r back into the reduced index j of a reduction down the rows gives (r, j). -/
theorem lift_rows (j : Fin 128) (r : Fin (S10000x128.size 0)) :
    reduces_S10000x128_S128.lift (ix1 j) r = ix2 (⟨r.val, r.isLt⟩ : Fin 10000) j := by
  funext a; apply Fin.ext
  fin_cases a <;> rfl

/-- The sum down the rows of a block, made one row: at (u, j) the sum over the rows p of the block at (p, j). -/
theorem colSums_apply (hfmt : FKind.Formats FTy.f32)
    (hacc : (0x00000000#32 : BitVec FTy.f32.bits) = FKind.add.neutral .f32 hfmt)
    (x : FVec Ideal S10000x128 .f32) (u : Fin 1) (j : Fin 128) :
    shapeCast S1x128 (multiReduction .add [0] S128 x 0x00000000#32 reduces_S10000x128_S128 hfmt hacc)
        shapeCasts_S128_S1x128 (ix2 u j)
      = ∑ p : Fin 10000, x (ix2 p j) := by
  rw [shapeCast_a_1a_apply, Ideal.multiReduction_add_single]
  refine Finset.sum_congr rfl fun r _ => ?_
  rw [lift_rows]; rfl

/-- The running row of column sums after this block: what it held plus, in column j, the sum over the block's rows of
    the update at (p, j). -/
theorem k1_pay6_apply (v3 v6 : FVec Ideal S10000x128 .f32) (v10 : FVec Ideal S128x128 .f32) (v14 : FVec Ideal S1x128 .f32)
    (v21 : FVec Ideal S128x128 .f32) (v25 v30 : FVec Ideal S1x128 .f32) (j : Fin 128) :
    k1_pay6 (F := Ideal) v3 v6 v10 v14 v21 v25 v30 (ix2 (0 : Fin 1) j)
      = v30 (ix2 (0 : Fin 1) j) + ∑ p : Fin 10000, k1_pay5 (F := Ideal) v3 v6 v10 v14 v21 v25 (ix2 p j) := by
  unfold k1_pay6
  exact congrArg (v30 (ix2 (0 : Fin 1) j) + ·)
    (colSums_apply _ _ (k1_pay5 (F := Ideal) v3 v6 v10 v14 v21 v25) (0 : Fin 1) j)

/-- The running row of column sums of squares after this block: what it held plus, in column j, the sum over the
    block's rows of the square of the stored update at (p, j). -/
theorem k1_pay2_apply (v28 : FVec Ideal S10000x128 .f32) (v37 : FVec Ideal S1x128 .f32) (j : Fin 128) :
    k1_pay2 (F := Ideal) v28 v37 (ix2 (0 : Fin 1) j)
      = v37 (ix2 (0 : Fin 1) j) + ∑ p : Fin 10000, v28 (ix2 p j) * v28 (ix2 p j) := by
  unfold k1_pay2
  refine (congrFun (shapeCast_self _ shapeCasts_S1x128_S1x128) (ix2 (0 : Fin 1) j)).trans ?_
  exact congrArg (v37 (ix2 (0 : Fin 1) j) + ·) (colSums_apply _ _ (mulf v28 v28) (0 : Fin 1) j)

/-- The row of column sums is stored as it is. -/
theorem k1_pay1_apply {F : FTy → Type} [FloatOps F] (v33 : FVec F S1x128 .f32) : k1_pay1 (F := F) v33 = v33 := by
  unfold k1_pay1
  exact shapeCast_self _ _

/-- At the first block the running row of column sums is reset to zero … -/
theorem k1_pay3_apply (i : S1x128.Idx) : k1_pay3 (F := Ideal) i = 0 := by
  unfold k1_pay3
  refine (congrFun (shapeCast_self _ shapeCasts_S1x128_S1x128) i).trans ?_
  exact Ideal.ofBits_zero_f32

/-- … and so is the running row of column sums of squares. -/
theorem k1_pay4_apply (i : S1x128.Idx) : k1_pay4 (F := Ideal) i = 0 := by
  unfold k1_pay4
  refine (congrFun (shapeCast_self _ shapeCasts_S1x128_S1x128) i).trans ?_
  exact Ideal.ofBits_zero_f32

end Cert.KernelIdeal.Pay

end
-- ==== Proof.KValueA.lean ====
/-
  What the edge-message region and the normalising region leave in their output arrays, at the exact instance (floats
  read as extended reals), as one function of the arrays the region finds.

  The edge-message region runs over 500 points; point t reads rows 3200·t … 3200·t + 3199 of two 1600000 × 128 arrays
  and writes the same rows of the output, so row r is written by point r / 3200 and the output ends holding, entry by
  entry, the larger of the sum of the two inputs and zero. The normalising region runs over 10 points; point t reads
  rows 10000·t … 10000·t + 9999 of a 100000 × 128 array and four rows of 128 entries, the same at every point, and
  writes the same rows of the output: row n is written by point n / 10000.
-/
import proofs.«428931_j67113158967915_3_alg».proof.Proof.KernelIdeal.R0
import proofs.«428931_j67113158967915_3_alg».proof.Proof.KernelIdeal.R2
import proofs.«428931_j67113158967915_3_alg».proof.Proof.Payloads
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Arrays
-- the buffer contents when a region is entered
variable (V : (c : Dev nD) → (b : Ref sig .tc) → Buf (Elt Ideal) ((c : Thread nD τ).loc b))

/-- The zero offsets of a whole-block rectangle. -/
theorem zeroOff : (![0, 0] : Fin 2 → Nat) = fun _ => 0 := funext fun a => by fin_cases a <;> rfl

/-! ## The edge-message region -/

/-- The output array of the edge-message region from its two input arrays, entry by entry. -/
abbrev edgeMsg (a0 a1 : S1600000x128.Idx → EReal) : S1600000x128.Idx → EReal := fun i => max (a0 i + a1 i) 0

/-- The two inputs read at one index, summed and clamped, is `edgeMsg` there. -/
theorem edgeMsg_of_eq (a0 a1 : S1600000x128.Idx → EReal) {i0 i1 i : S1600000x128.Idx} (h0 : i0 = i) (h1 : i1 = i) :
    max (a0 i0 + a1 i1) 0 = edgeMsg a0 a1 i := by
  subst h0; subst h1; rfl

/-- The stored block at any index of the block: the larger of x + e and zero. -/
theorem block0_apply (x0 x1 : FVec Ideal S3200x128 .f32) (y : S3200x128.Idx) :
    k0_pay1 (F := Ideal) x0 x1 y = max (x0 y + x1 y) 0 := by
  obtain ⟨p, q, rfl⟩ : ∃ (p : Fin 3200) (q : Fin 128), y = ix2 p q := ⟨y 0, y 1, eq_ix2 y⟩
  exact Pay.k0_pay1_apply x0 x1 p q

/-- At point t every window is on block (t, 0). -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of `edgeMsg` of the two input arrays. -/
theorem flushed0_eq (c : Dev nD) (t : Fin cfg0.N) :
    (dat0 (F := Ideal) V c).flushed 2 t
      = ((cfg0.win 2).blk t).view.read (Elt Ideal) (edgeMsg (V c main_v4) (V c main_arg2)) := by
  show (cfg0.win 2).cut (grid0.coords t) ((dat0 V c).after 2 t) = _
  rw [after0_2]
  unfold out0_2
  rw [View.canon_unit_zero zeroOff]
  simp only [View.ld_unit_zero (S := S3200x128) zeroOff]
  obtain ⟨e0, e1, e2, e3, e4, e5⟩ := blockIdx0 t
  funext y
  show k0_pay1 (F := Ideal) (iblk0 V c 0 t) (iblk0 V c 1 t) y
    = edgeMsg (V c main_v4) (V c main_arg2) (((cfg0.win 2).blk t).view.emb y)
  refine (block0_apply (iblk0 V c 0 t) (iblk0 V c 1 t) y).trans ?_
  have h0 : ((cfg0.win 0).blk t).view.emb y = ((cfg0.win 2).blk t).view.emb y := by
    funext a; apply Fin.ext
    match a with
    | ⟨0, _⟩ => show win0_0.index t (0 : Fin 2) * 3200 + 1 * (y 0).val = win0_2.index t (0 : Fin 2) * 3200 + 1 * (y 0).val; omega
    | ⟨1, _⟩ => show win0_0.index t (1 : Fin 2) * 128 + 1 * (y 1).val = win0_2.index t (1 : Fin 2) * 128 + 1 * (y 1).val; omega
  have h1 : ((cfg0.win 1).blk t).view.emb y = ((cfg0.win 2).blk t).view.emb y := by
    funext a; apply Fin.ext
    match a with
    | ⟨0, _⟩ => show win0_1.index t (0 : Fin 2) * 3200 + 1 * (y 0).val = win0_2.index t (0 : Fin 2) * 3200 + 1 * (y 0).val; omega
    | ⟨1, _⟩ => show win0_1.index t (1 : Fin 2) * 128 + 1 * (y 1).val = win0_2.index t (1 : Fin 2) * 128 + 1 * (y 1).val; omega
  exact edgeMsg_of_eq (V c main_v4) (V c main_arg2) h0 h1

/-- An index of the output array is in point t's block iff each coordinate is in the block's range on its axis. -/
theorem mem_blk0 (t : Fin cfg0.N) (i : S1600000x128.Idx) :
    i ∈ ((cfg0.win 2).blk t).view.set
      ↔ ∀ a : Fin 2, win0_2.index t a * S3200x128.size a ≤ (i a).val
          ∧ (i a).val < win0_2.index t a * S3200x128.size a + S3200x128.size a := by
  show i ∈ ((View.whole main_v5).slice (win0_2.rect t)).set ↔ _
  rw [View.set_slice_whole, Rect.mem_set_unit]
  exact Iff.rfl

/-- Row r of the output array is in the block of point r / 3200, which writes back. -/
theorem cover0 (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : grid0.N = 500 := N_0
  have ht : (i 0).val / 3200 < cfg0.N := by show (i 0).val / 3200 < grid0.N; omega
  obtain ⟨e0, e1, e2, e3, e4, e5⟩ := blockIdx0 ⟨(i 0).val / 3200, ht⟩
  refine ⟨⟨(i 0).val / 3200, ht⟩, flush0_2 _, ?_⟩
  rw [mem_blk0]
  intro a
  match a with
  | ⟨0, _⟩ =>
    show win0_2.index ⟨(i 0).val / 3200, ht⟩ (0 : Fin 2) * 3200 ≤ (i 0).val
      ∧ (i 0).val < win0_2.index ⟨(i 0).val / 3200, ht⟩ (0 : Fin 2) * 3200 + 3200
    rw [e4]
    show (i 0).val / 3200 * 3200 ≤ (i 0).val ∧ (i 0).val < (i 0).val / 3200 * 3200 + 3200
    omega
  | ⟨1, _⟩ =>
    show win0_2.index ⟨(i 0).val / 3200, ht⟩ (1 : Fin 2) * 128 ≤ (i 1).val
      ∧ (i 1).val < win0_2.index ⟨(i 0).val / 3200, ht⟩ (1 : Fin 2) * 128 + 128
    rw [e5]
    omega

/-- The output array after the edge-message region: entry by entry the larger of the sum of the two inputs and zero. -/
theorem final0 (c : Dev nD) :
    (dat0 (F := Ideal) V c).arrAt 2 cfg0.N
      = edgeMsg (V c main_v4) (V c main_arg2) :=
  (dat0 (F := Ideal) V c).arrAt_eq_of_cover 2 (edgeMsg (V c main_v4) (V c main_arg2))
    (fun t _ => flushed0_eq V c t) cover0

/-! ## The normalising region -/

/-- The normalised, scaled, shifted and clamped entry at row n and column j: from the update array H and the rows
    M (mean), Vr (variance), S (scale), B (shift), each row read at column j. -/
abbrev normedAt (H : S100000x128.Idx → EReal) (M Vr S B : S1x128.Idx → EReal) (n : Fin 100000) (j : Fin 128) : EReal :=
  max ((H (ix2 n j) - M (ix2 (0 : Fin 1) j)) * Ideal.rsqrt (Vr (ix2 (0 : Fin 1) j) + Ideal.ofBits .f32 0x3727C5AC#32)
      * S (ix2 (0 : Fin 1) j) + B (ix2 (0 : Fin 1) j)) 0

/-- The output array of the normalising region, entry by entry. -/
abbrev normed (H : S100000x128.Idx → EReal) (M Vr S B : S1x128.Idx → EReal) : S100000x128.Idx → EReal := fun i =>
  max ((H i - M (ix2 (0 : Fin 1) (⟨(i 1).val, idx2_lt1 i⟩ : Fin 128)))
      * Ideal.rsqrt (Vr (ix2 (0 : Fin 1) (⟨(i 1).val, idx2_lt1 i⟩ : Fin 128)) + Ideal.ofBits .f32 0x3727C5AC#32)
      * S (ix2 (0 : Fin 1) (⟨(i 1).val, idx2_lt1 i⟩ : Fin 128)) + B (ix2 (0 : Fin 1) (⟨(i 1).val, idx2_lt1 i⟩ : Fin 128))) 0

/-- The update read at one index and the four rows read at that index's column is `normed` there. -/
theorem normed_of_eq (H : S100000x128.Idx → EReal) (M Vr S B : S1x128.Idx → EReal) {i0 i : S100000x128.Idx}
    {r1 r2 r3 r4 : S1x128.Idx} (h0 : i0 = i)
    (h1 : r1 = ix2 (0 : Fin 1) (⟨(i 1).val, idx2_lt1 i⟩ : Fin 128))
    (h2 : r2 = ix2 (0 : Fin 1) (⟨(i 1).val, idx2_lt1 i⟩ : Fin 128))
    (h3 : r3 = ix2 (0 : Fin 1) (⟨(i 1).val, idx2_lt1 i⟩ : Fin 128))
    (h4 : r4 = ix2 (0 : Fin 1) (⟨(i 1).val, idx2_lt1 i⟩ : Fin 128)) :
    max ((H i0 - M r1) * Ideal.rsqrt (Vr r2 + Ideal.ofBits .f32 0x3727C5AC#32) * S r3 + B r4) 0 = normed H M Vr S B i := by
  subst h0; subst h1; subst h2; subst h3; subst h4; rfl

/-- The stored block at any index y of the block: the rows are read at y's column. -/
theorem block2_apply (v0 : FVec Ideal S1x128 .f32) (v5 : FVec Ideal S10000x128 .f32) (v7 v13 v17 : FVec Ideal S1x128 .f32)
    (y : S10000x128.Idx) :
    k2_pay1 (F := Ideal) v0 v5 v7 v13 v17 y
      = max ((v5 y - v7 (ix2 (0 : Fin 1) (⟨(y 1).val, idx2_lt1 y⟩ : Fin 128)))
          * Ideal.rsqrt (v0 (ix2 (0 : Fin 1) (⟨(y 1).val, idx2_lt1 y⟩ : Fin 128)) + Ideal.ofBits .f32 0x3727C5AC#32)
          * v13 (ix2 (0 : Fin 1) (⟨(y 1).val, idx2_lt1 y⟩ : Fin 128))
          + v17 (ix2 (0 : Fin 1) (⟨(y 1).val, idx2_lt1 y⟩ : Fin 128))) 0 := by
  obtain ⟨p, q, rfl⟩ : ∃ (p : Fin 10000) (q : Fin 128), y = ix2 p q := ⟨y 0, y 1, eq_ix2 y⟩
  exact Pay.k2_pay1_apply v0 v5 v7 v13 v17 p q

/-- At point t the long windows are on block (t, 0) and the four row windows on block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of `normed` of the five input arrays. -/
theorem flushed2_eq (c : Dev nD) (t : Fin cfg2.N) :
    (dat2 (F := Ideal) V c).flushed 5 t
      = ((cfg2.win 5).blk t).view.read (Elt Ideal)
          (normed (V c main_v13_0) (V c main_v15) (V c main_v19) (V c main_v20) (V c main_v21)) := by
  show (cfg2.win 5).cut (grid2.coords t) ((dat2 V c).after 5 t) = _
  rw [after2_5]
  unfold out2_5
  rw [View.canon_unit_zero zeroOff]
  simp only [View.ld_unit_zero (S := S10000x128) zeroOff, View.ld_unit_zero (S := S1x128) zeroOff]
  obtain ⟨a0, a1, b0, b1, c0, c1, d0, d1, f0, f1, g0, g1⟩ := blockIdx2 t
  funext y
  show k2_pay1 (F := Ideal) (iblk2 V c 2 t) (iblk2 V c 0 t) (iblk2 V c 1 t) (iblk2 V c 3 t) (iblk2 V c 4 t) y
    = normed (V c main_v13_0) (V c main_v15) (V c main_v19) (V c main_v20) (V c main_v21) (((cfg2.win 5).blk t).view.emb y)
  refine (block2_apply (iblk2 V c 2 t) (iblk2 V c 0 t) (iblk2 V c 1 t) (iblk2 V c 3 t) (iblk2 V c 4 t) y).trans ?_
  have h0 : ((cfg2.win 0).blk t).view.emb y = ((cfg2.win 5).blk t).view.emb y := by
    funext a; apply Fin.ext
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 128 + 1 * (y 1).val = win2_5.index t (1 : Fin 2) * 128 + 1 * (y 1).val; omega
  have h1 : ((cfg2.win 1).blk t).view.emb (ix2 (0 : Fin 1) (⟨(y 1).val, idx2_lt1 y⟩ : Fin 128))
      = ix2 (0 : Fin 1) (⟨((((cfg2.win 5).blk t).view.emb y) 1).val, idx2_lt1 (((cfg2.win 5).blk t).view.emb y)⟩ : Fin 128) := by
    funext a; apply Fin.ext
    match a with
    | ⟨0, _⟩ => show win2_1.index t (0 : Fin 2) * 1 + 1 * 0 = 0; omega
    | ⟨1, _⟩ => show win2_1.index t (1 : Fin 2) * 128 + 1 * (y 1).val = win2_5.index t (1 : Fin 2) * 128 + 1 * (y 1).val; omega
  have h2 : ((cfg2.win 2).blk t).view.emb (ix2 (0 : Fin 1) (⟨(y 1).val, idx2_lt1 y⟩ : Fin 128))
      = ix2 (0 : Fin 1) (⟨((((cfg2.win 5).blk t).view.emb y) 1).val, idx2_lt1 (((cfg2.win 5).blk t).view.emb y)⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * (y 1).val = win2_5.index t (1 : Fin 2) * 128 + 1 * (y 1).val; omega
  have h3 : ((cfg2.win 3).blk t).view.emb (ix2 (0 : Fin 1) (⟨(y 1).val, idx2_lt1 y⟩ : Fin 128))
      = ix2 (0 : Fin 1) (⟨((((cfg2.win 5).blk t).view.emb y) 1).val, idx2_lt1 (((cfg2.win 5).blk t).view.emb y)⟩ : Fin 128) := by
    funext a; apply Fin.ext
    match a with
    | ⟨0, _⟩ => show win2_3.index t (0 : Fin 2) * 1 + 1 * 0 = 0; omega
    | ⟨1, _⟩ => show win2_3.index t (1 : Fin 2) * 128 + 1 * (y 1).val = win2_5.index t (1 : Fin 2) * 128 + 1 * (y 1).val; omega
  have h4 : ((cfg2.win 4).blk t).view.emb (ix2 (0 : Fin 1) (⟨(y 1).val, idx2_lt1 y⟩ : Fin 128))
      = ix2 (0 : Fin 1) (⟨((((cfg2.win 5).blk t).view.emb y) 1).val, idx2_lt1 (((cfg2.win 5).blk t).view.emb y)⟩ : Fin 128) := by
    funext a; apply Fin.ext
    match a with
    | ⟨0, _⟩ => show win2_4.index t (0 : Fin 2) * 1 + 1 * 0 = 0; omega
    | ⟨1, _⟩ => show win2_4.index t (1 : Fin 2) * 128 + 1 * (y 1).val = win2_5.index t (1 : Fin 2) * 128 + 1 * (y 1).val; omega
  exact normed_of_eq (V c main_v13_0) (V c main_v15) (V c main_v19) (V c main_v20) (V c main_v21) h0 h1 h2 h3 h4

/-- An index of the output array is in point t's block iff each coordinate is in the block's range on its axis. -/
theorem mem_blk2 (t : Fin cfg2.N) (i : S100000x128.Idx) :
    i ∈ ((cfg2.win 5).blk t).view.set
      ↔ ∀ a : Fin 2, win2_5.index t a * S10000x128.size a ≤ (i a).val
          ∧ (i a).val < win2_5.index t a * S10000x128.size a + S10000x128.size a := by
  show i ∈ ((View.whole main_v22).slice (win2_5.rect t)).set ↔ _
  rw [View.set_slice_whole, Rect.mem_set_unit]
  exact Iff.rfl

/-- Row n of the output array is in the block of point n / 10000, which writes back. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 10 := N_2
  have ht : (i 0).val / 10000 < cfg2.N := by show (i 0).val / 10000 < grid2.N; omega
  obtain ⟨a0, a1, b0, b1, c0, c1, d0, d1, f0, f1, g0, g1⟩ := blockIdx2 ⟨(i 0).val / 10000, ht⟩
  refine ⟨⟨(i 0).val / 10000, ht⟩, flush2_5 _, ?_⟩
  rw [mem_blk2]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [g0]
    show (i 0).val / 10000 * 10000 ≤ (i 0).val ∧ (i 0).val < (i 0).val / 10000 * 10000 + 10000
    omega
  | ⟨1, _⟩ =>
    show win2_5.index ⟨(i 0).val / 10000, ht⟩ (1 : Fin 2) * 128 ≤ (i 1).val
      ∧ (i 1).val < win2_5.index ⟨(i 0).val / 10000, ht⟩ (1 : Fin 2) * 128 + 128
    rw [g1]
    omega

/-- The output array after the normalising region, entry by entry. -/
theorem final2_array (c : Dev nD) :
    (dat2 (F := Ideal) V c).arrAt 5 cfg2.N
      = normed (V c main_v13_0) (V c main_v15) (V c main_v19) (V c main_v20) (V c main_v21) :=
  (dat2 (F := Ideal) V c).arrAt_eq_of_cover 5
    (normed (V c main_v13_0) (V c main_v15) (V c main_v19) (V c main_v20) (V c main_v21))
    (fun t _ => flushed2_eq V c t) cover2

/-- The output array after the normalising region at row n and column j. -/
theorem final2 (c : Dev nD) (n : Fin 100000) (j : Fin 128) :
    (dat2 (F := Ideal) V c).arrAt 5 cfg2.N (ix2 n j)
      = normedAt (V c main_v13_0) (V c main_v15) (V c main_v19) (V c main_v20) (V c main_v21) n j :=
  congrFun (final2_array V c) (ix2 n j)

end Arrays

end Cert.KernelIdeal.Hand

end
-- ==== Proof.Algebra.lean ====
/-
  Arithmetic of extended reals that are real numbers.

  An extended real is called real when it is the coercion of a real number. Sums, products, differences, finite
  sums and the maximum with zero of real values are real. On real entries the two ways of writing the variance of
  a column agree: the mean of the squares minus the square of the mean is the mean of the squared deviations.
-/
import Idealize.ShloMosaic.PureOps.Ideal.Laws
import Idealize.ShloMosaic.Lib.ValueIdx
import Mathlib.Data.EReal.Basic
import Mathlib.Data.EReal.Operations
import Mathlib.Algebra.BigOperators.Ring.Finset
import Mathlib.Tactic.FieldSimp
import Mathlib.Tactic.Ring
import Mathlib.Tactic.NormNum
import proofs.«428931_j67113158967915_3_alg».proof.Proof.Spec

noncomputable section

open scoped BigOperators

namespace GineSpec

open Idealize.ShloMosaic Idealize.ShloMosaic.ValueIdx

/-- An extended real is real when it is the coercion of a real number. -/
def real (x : EReal) : Prop := ∃ r : ℝ, x = (r : EReal)

theorem real_coe (r : ℝ) : real (r : EReal) := ⟨r, rfl⟩

theorem real_zero : real 0 := ⟨0, rfl⟩

theorem real_one : real 1 := ⟨1, rfl⟩

theorem real_add {x y : EReal} (hx : real x) (hy : real y) : real (x + y) := by
  obtain ⟨a, rfl⟩ := hx; obtain ⟨b, rfl⟩ := hy
  exact ⟨a + b, (EReal.coe_add a b).symm⟩

theorem real_mul {x y : EReal} (hx : real x) (hy : real y) : real (x * y) := by
  obtain ⟨a, rfl⟩ := hx; obtain ⟨b, rfl⟩ := hy
  exact ⟨a * b, (EReal.coe_mul a b).symm⟩

theorem real_sub {x y : EReal} (hx : real x) (hy : real y) : real (x - y) := by
  obtain ⟨a, rfl⟩ := hx; obtain ⟨b, rfl⟩ := hy
  exact ⟨a - b, (EReal.coe_sub a b).symm⟩

/-- The coercion commutes with the maximum, being monotone. -/
theorem coe_max (a b : ℝ) : ((max a b : ℝ) : EReal) = max (a : EReal) (b : EReal) :=
  EReal.coe_strictMono.monotone.map_max

theorem real_max {x y : EReal} (hx : real x) (hy : real y) : real (max x y) := by
  obtain ⟨a, rfl⟩ := hx; obtain ⟨b, rfl⟩ := hy
  exact ⟨max a b, (coe_max a b).symm⟩

theorem real_max_zero {x : EReal} (hx : real x) : real (max x 0) := real_max hx real_zero

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sum {ι : Type*} (s : Finset ι) (f : ι → EReal) (h : ∀ i ∈ s, real (f i)) :
    real (∑ i ∈ s, f i) := by
  classical
  induction s using Finset.induction_on with
  | empty => simpa using real_zero
  | insert a s ha ih =>
    rw [Finset.sum_insert ha]
    exact real_add (h a (Finset.mem_insert_self a s)) (ih fun i hi => h i (Finset.mem_insert_of_mem hi))

/-- The divisor's pattern denotes the real 100000. -/
theorem cN_eq : cN = ((100000 : ℝ) : EReal) := by
  simp [cN, Ideal.ofBits, Ideal.ieee, -EReal.coe_mul]; norm_num

/-- Division of a real value by the number of nodes is real. -/
theorem real_div_cN {x : EReal} (hx : real x) : real (Ideal.div x cN) := by
  rw [cN_eq, Ideal.div_coe (by norm_num : (100000 : ℝ) ≠ 0)]
  exact real_mul hx (real_coe _)

/-- Over the reals, the mean of squared deviations from the mean is the mean of squares minus the squared mean. -/
theorem real_variance (r : Fin 100000 → ℝ) :
    (∑ n, r n * r n) * (1 / 100000) - (∑ n, r n) * (1 / 100000) * ((∑ n, r n) * (1 / 100000))
      = (∑ n, (r n - (∑ n, r n) * (1 / 100000)) * (r n - (∑ n, r n) * (1 / 100000))) * (1 / 100000) := by
  generalize hS : (∑ n, r n) = S
  generalize hμ : S * (1 / 100000) = μ
  have hexp : ∀ n, (r n - μ) * (r n - μ) = r n * r n - 2 * μ * r n + μ * μ := fun n => by ring
  have hsum : (∑ n, (r n - μ) * (r n - μ)) = (∑ n, r n * r n) - 2 * μ * S + 100000 * (μ * μ) := by
    simp only [hexp, Finset.sum_add_distrib, Finset.sum_sub_distrib, ← Finset.mul_sum, hS, Finset.sum_const,
      Finset.card_univ, Fintype.card_fin, nsmul_eq_mul]
    push_cast
    ring
  rw [hsum, ← hμ]
  ring

/-- On real entries the two expressions of a column's variance are equal. -/
theorem varSq_eq_varDev (h : Fin 100000 → Fin 128 → EReal) (hfin : ∀ n j, ∃ r : ℝ, h n j = (r : EReal))
    (j : Fin 128) : varSq h j = varDev h j := by
  choose r hr using hfin
  have hN : (100000 : ℝ) ≠ 0 := by norm_num
  have hmean : mean h j = (((∑ n, r n j) * (1 / 100000) : ℝ) : EReal) := by
    unfold mean colSum
    rw [cN_eq, Ideal.div_coe hN, EReal.coe_mul, coe_sum]
    simp only [hr]
  have hsq : Ideal.div (colSumSq h j) cN = (((∑ n, r n j * r n j) * (1 / 100000) : ℝ) : EReal) := by
    unfold colSumSq
    rw [cN_eq, Ideal.div_coe hN, EReal.coe_mul, coe_sum]
    simp only [hr, EReal.coe_mul]
  unfold varSq varDev
  rw [hsq, hmean, cN_eq, Ideal.div_coe hN]
  have hdev : (∑ n : Fin 100000, (h n j - (((∑ n, r n j) * (1 / 100000) : ℝ) : EReal))
        * (h n j - (((∑ n, r n j) * (1 / 100000) : ℝ) : EReal)))
      = (((∑ n, (r n j - (∑ n, r n j) * (1 / 100000)) * (r n j - (∑ n, r n j) * (1 / 100000)) : ℝ)) : EReal) := by
    rw [coe_sum]
    refine Finset.sum_congr rfl fun n _ => ?_
    rw [hr n j, ← EReal.coe_sub, ← EReal.coe_mul]
  rw [hdev, ← EReal.coe_mul, ← EReal.coe_sub, ← EReal.coe_mul]
  exact congrArg _ (real_variance fun n => r n j)

/-- With real arguments every entry of the update is real. -/
theorem hid_real (x a : SN.Idx → EReal) (W1 : SW.Idx → EReal) (b1 : SD.Idx → EReal) (W2 : SW.Idx → EReal)
    (b2 : SD.Idx → EReal) (hx : ∀ i, real (x i)) (ha : ∀ i, real (a i)) (hW1 : ∀ i, real (W1 i))
    (hb1 : ∀ i, real (b1 i)) (hW2 : ∀ i, real (W2 i)) (hb2 : ∀ i, real (b2 i)) (n : Fin 100000) (j : Fin 128) :
    real (hid x a W1 b1 W2 b2 n j) := by
  have hpre : ∀ d, real (pre0 x a n d) := fun d => real_add (real_mul real_one (hx _)) (ha _)
  have hlay : ∀ k, real (lay1 x a W1 b1 n k) := fun k =>
    real_max_zero (real_add (real_sum _ _ fun d _ => real_mul (hpre d) (hW1 _)) (hb1 _))
  exact real_add (real_sum _ _ fun k _ => real_mul (hlay k) (hW2 _)) (hb2 _)

/-- A scatter that adds real updates into a real operand is real at every index. -/
theorem hostScatterAdd_real {s si su : Shape} (d : ScatterDims s si su) {w : Nat} (x : s.Idx → EReal)
    (idx : IVec si w) (upd : su.Idx → EReal) (hx : ∀ i, real (x i)) (hu : ∀ j, real (upd j)) :
    ∀ i, real (Ideal.hostScatterAdd d x idx upd i) := fun i =>
  real_add (hx i) (real_sum _ _ fun j _ => hu j)

/-- The sum of two real arrays clamped at zero from below is real at every index. -/
theorem reluAdd_real {ι : Type*} (u v : ι → EReal) (hu : ∀ i, real (u i)) (hv : ∀ i, real (v i)) :
    ∀ i, real (max (u i + v i) 0) := fun i => real_max_zero (real_add (hu i) (hv i))

end GineSpec

end
-- ==== Proof.AccumSpec.lean ====
/-
  The column sums of the update, accumulated block by block.

  The 100000 rows are visited in 10 blocks of 10000 consecutive rows. A running total starts at zero and, at each
  block, gains the sum over that block's rows. After the last block the total is the sum over all rows: the rows
  of the blocks, taken together, are all the rows, each once.
-/
import Idealize.ShloMosaic.PureOps.Ideal.Laws
import Idealize.ShloMosaic.Lib.ValueIdx
import Mathlib.Data.EReal.Basic
import Mathlib.Data.EReal.Operations
import Mathlib.Data.Fintype.BigOperators
import Mathlib.Algebra.BigOperators.Fin
import Mathlib.Algebra.BigOperators.Group.Finset.Basic
import proofs.«428931_j67113158967915_3_alg».proof.Proof.Spec
import proofs.«428931_j67113158967915_3_alg».proof.Proof.Algebra

noncomputable section

open scoped BigOperators

namespace GineSpec

/-- Row p of block t. -/
def rowOf (t : Fin 10) (p : Fin 10000) : Fin 100000 := ⟨10000 * t.val + p.val, by omega⟩

theorem rowOf_val (t : Fin 10) (p : Fin 10000) : (rowOf t p).val = 10000 * t.val + p.val := rfl

/-- Every row is row p of block t for exactly one (t, p): the quotient and remainder of the row by 10000. -/
def blockEquiv : Fin 10 × Fin 10000 ≃ Fin 100000 where
  toFun x := rowOf x.1 x.2
  invFun n := (⟨n.val / 10000, by omega⟩, ⟨n.val % 10000, by omega⟩)
  left_inv x := by
    obtain ⟨t, p⟩ := x
    refine Prod.ext (Fin.ext ?_) (Fin.ext ?_)
    · show (10000 * t.val + p.val) / 10000 = t.val
      omega
    · show (10000 * t.val + p.val) % 10000 = p.val
      omega
  right_inv n := by
    refine Fin.ext ?_
    show 10000 * (n.val / 10000) + n.val % 10000 = n.val
    omega

/-- A sum over all rows is the sum over the blocks of the sums over each block's rows. -/
theorem sum_blocks (f : Fin 100000 → EReal) :
    ∑ n : Fin 100000, f n = ∑ t : Fin 10, ∑ p : Fin 10000, f (rowOf t p) := by
  rw [← Equiv.sum_comp blockEquiv f, Fintype.sum_prod_type]
  rfl

/-- The running total of g after step n, started from zero. -/
def acc (g : ℕ → EReal) : ℕ → EReal
  | 0 => 0 + g 0
  | n + 1 => acc g n + g (n + 1)

theorem acc_zero (g : ℕ → EReal) : acc g 0 = 0 + g 0 := rfl

theorem acc_succ (g : ℕ → EReal) (n : ℕ) : acc g (n + 1) = acc g n + g (n + 1) := rfl

/-- The running total after step n is the sum of the first n + 1 terms. -/
theorem acc_eq (g : ℕ → EReal) (n : ℕ) : acc g n = ∑ s ∈ Finset.range (n + 1), g s := by
  induction n with
  | zero => rw [acc_zero, zero_add, Finset.sum_range_one]
  | succ n ih => rw [acc_succ, ih, Finset.sum_range_succ g (n + 1)]

/-- The term block s contributes to the running total of f: the sum of f over the block's rows. -/
def blockTerm (f : Fin 100000 → EReal) (s : ℕ) : EReal :=
  if h : s < 10 then ∑ p : Fin 10000, f (rowOf ⟨s, h⟩ p) else 0

theorem blockTerm_fin (f : Fin 100000 → EReal) (t : Fin 10) : blockTerm f t.val = ∑ p : Fin 10000, f (rowOf t p) :=
  dif_pos t.isLt

/-- After the tenth block the running total is the sum over all rows. -/
theorem acc_last (f : Fin 100000 → EReal) :
    acc (fun s => if h : s < 10 then ∑ p : Fin 10000, f (rowOf ⟨s, h⟩ p) else 0) 9 = ∑ n : Fin 100000, f n := by
  rw [acc_eq, sum_blocks]
  show ∑ s ∈ Finset.range 10, blockTerm f s = _
  rw [← Fin.sum_univ_eq_sum_range (blockTerm f) 10]
  exact Finset.sum_congr rfl fun t _ => blockTerm_fin f t

/-- The column sum of h as the running total over the ten blocks. -/
theorem colSum_acc (h : Fin 100000 → Fin 128 → EReal) (j : Fin 128) :
    colSum h j = acc (fun s => if hs : s < 10 then ∑ p : Fin 10000, h (rowOf ⟨s, hs⟩ p) j else 0) 9 :=
  (acc_last fun n => h n j).symm

/-- The column sum of the squares of h as the running total over the ten blocks. -/
theorem colSumSq_acc (h : Fin 100000 → Fin 128 → EReal) (j : Fin 128) :
    colSumSq h j
      = acc (fun s => if hs : s < 10 then ∑ p : Fin 10000, h (rowOf ⟨s, hs⟩ p) j * h (rowOf ⟨s, hs⟩ p) j else 0) 9 :=
  (acc_last fun n => h n j * h n j).symm

end GineSpec

end
-- ==== Proof.KernelIdeal.KValueR.lean ====
/-
  What the update region leaves in its three output arrays, at the exact instance (floats read as extended reals), as
  functions of the six arrays the region finds.

  The region runs over 10 points; point t reads rows 10000·t … 10000·t + 9999 of the node features and of the aggregated
  messages (two 100000 × 128 arrays) and, the same at every point, two 128 × 128 weight matrices and two bias rows. It
  writes the same rows of the row output with the update h of those nodes: row n is written by point n / 10000, so the
  row output ends holding h of every node. Two rows of 128 running totals are set to zero at the first point and gain,
  at every point, the column sums of the point's rows of h and of their squares; the last point copies them to the two
  one-row outputs, which therefore end holding, column by column, the sum of h and the sum of the squares of h over
  all 100000 nodes: the rows of the ten blocks, taken together, are all the rows, each once.
-/
import proofs.«428931_j67113158967915_3_alg».proof.Proof.KernelIdeal.R1
import proofs.«428931_j67113158967915_3_alg».proof.Proof.Payloads
import proofs.«428931_j67113158967915_3_alg».proof.Proof.AccumSpec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole-block rectangle. -/
theorem zeroOff1 : (![0, 0] : Fin 2 → Nat) = fun _ => 0 := funext fun a => by fin_cases a <;> rfl

/-! ## What each case leaves, as the stored values of the body over the blocks it loads -/

/-- Case A leaves the update of the point's blocks in the row output's buffer. -/
theorem out1_A_6_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) :
    out1_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = k1_pay5 x0 x1 x2 x3 x4 x5 := by
  unfold out1_A_6
  rw [View.read_writes_eq_canon _ _ _ (cover1_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case A leaves in the first accumulator zero plus the column sums of the update. -/
theorem sout1_A_0_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) :
    sout1_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = k1_pay1 (k1_pay6 x0 x1 x2 x3 x4 x5 (k1_pay3 (F := Ideal))) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case A leaves in the second accumulator zero plus the column sums of the squares of the update. -/
theorem sout1_A_1_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) :
    sout1_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = k1_pay2 (k1_pay5 x0 x1 x2 x3 x4 x5) (k1_pay4 (F := Ideal)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case B leaves the update of the point's blocks in the row output's buffer. -/
theorem out1_B_6_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    out1_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay5 x0 x1 x2 x3 x4 x5 := by
  unfold out1_B_6
  rw [View.read_writes_eq_canon _ _ _ (cover1_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case B leaves in the first accumulator what it held plus the column sums of the update. -/
theorem sout1_B_0_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    sout1_B_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay6 x0 x1 x2 x3 x4 x5 xs0) := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case B leaves in the second accumulator what it held plus the column sums of the squares of the update. -/
theorem sout1_B_1_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    sout1_B_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 x0 x1 x2 x3 x4 x5) xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case C leaves the update of the point's blocks in the row output's buffer. -/
theorem out1_C_6_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    out1_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay5 x0 x1 x2 x3 x4 x5 := by
  unfold out1_C_6
  rw [View.read_writes_eq_canon _ _ _ (cover1_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case C leaves in the first accumulator what it held plus the column sums of the update. -/
theorem sout1_C_0_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    sout1_C_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay6 x0 x1 x2 x3 x4 x5 xs0) := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case C leaves in the second accumulator what it held plus the column sums of the squares of the update. -/
theorem sout1_C_1_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    sout1_C_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 x0 x1 x2 x3 x4 x5) xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case C copies the first accumulator, as it has just left it, to the column-sum output. -/
theorem out1_C_7_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    out1_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay6 x0 x1 x2 x3 x4 x5 xs0) := by
  unfold out1_C_7
  rw [View.read_writes_eq_canon _ _ _ (cover1_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-- Case C copies the second accumulator, as it has just left it, to the sum-of-squares output. -/
theorem out1_C_8_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec Ideal S10000x128 .f32) (x1 : Vec Ideal S10000x128 .f32) (x2 : Vec Ideal S128x128 .f32) (x3 : Vec Ideal S1x128 .f32) (x4 : Vec Ideal S128x128 .f32) (x5 : Vec Ideal S1x128 .f32) (xs0 : Vec Ideal S1x128 .f32) (xs1 : Vec Ideal S1x128 .f32) :
    out1_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 x0 x1 x2 x3 x4 x5) xs1 := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  rw [View.canon_cons_unit_zero zeroOff1]
  simp only [View.readAt_eq_ld, harg1.read_unread, harg2.read_unread, harg3.read_unread, harg4.read_unread, harg5.read_unread, harg6.read_unread, harg10.read_unread, harg11.read_unread, View.ld_unit_zero (S := S10000x128) zeroOff1, View.ld_unit_zero (S := S128x128) zeroOff1, View.ld_unit_zero (S := S1x128) zeroOff1, View.readCov_unit_zero (S := S1x128) _ zeroOff1]

/-! ## The update as one function of the six arrays the region reads -/

/-- The update at node n and column j from the node features X, the aggregated messages A, the two weight matrices as the
    region finds them (already transposed) and the two bias rows: the first affine layer of 1·X + A, clamped at zero, through
    the second affine layer. -/
abbrev hidOf (X A : S100000x128.Idx → EReal) (W1T W2T : S128x128.Idx → EReal) (B1 B2 : S1x128.Idx → EReal)
    (n : Fin 100000) (j : Fin 128) : EReal :=
  (∑ k : Fin 128, max ((∑ d : Fin 128, (1 * X (ix2 n d) + A (ix2 n d)) * W1T (ix2 d k)) + B1 (ix2 (0 : Fin 1) k)) 0 * W2T (ix2 k j))
    + B2 (ix2 (0 : Fin 1) j)

/-- A long array read at (n, d). -/
abbrev rdN (X : S100000x128.Idx → EReal) (n : Fin 100000) (d : Fin 128) : EReal := X (ix2 n d)
/-- A weight matrix read at (d, k). -/
abbrev rdW (X : S128x128.Idx → EReal) (d k : Fin 128) : EReal := X (ix2 d k)
/-- A bias row read at column k. -/
abbrev rdB (X : S1x128.Idx → EReal) (k : Fin 128) : EReal := X (ix2 (0 : Fin 1) k)

/-- A grid point of the region as one of the ten blocks of rows. -/
abbrev pt1 (t : Fin cfg1.N) : Fin 10 := ⟨t.val, lt_of_lt_of_eq t.isLt N_1⟩

/-- At point t the three long windows are on block (t, 0) and the six small ones on block (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

section Arrays
-- the buffer contents when the region is entered
variable (V : (c : Dev nD) → (b : Ref sig .tc) → Buf (Elt Ideal) ((c : Thread nD τ).loc b))

/-! ## The input blocks as rows of the arrays -/

/-- Row p of point t's block of the node features is row 10000·t + p of the array. -/
theorem iblk1_0_apply (c : Dev nD) (t : Fin cfg1.N) (p : Fin 10000) (d : Fin 128) :
    iblk1 V c 0 t (ix2 p d) = rdN (V c main_arg0) (GineSpec.rowOf (pt1 t) p) d := by
  obtain ⟨a0, a1, -⟩ := blockIdx1 t
  unfold iblk1
  rw [View.read_apply]
  show V c main_arg0 _ = V c main_arg0 _
  congr 1
  funext a
  apply Fin.ext
  match a with
  | ⟨0, _⟩ => show win1_0.index t (0 : Fin 2) * 10000 + 1 * p.val = 10000 * t.val + p.val; omega
  | ⟨1, _⟩ => show win1_0.index t (1 : Fin 2) * 128 + 1 * d.val = d.val; omega

/-- Row p of point t's block of the aggregated messages is row 10000·t + p of the array. -/
theorem iblk1_1_apply (c : Dev nD) (t : Fin cfg1.N) (p : Fin 10000) (d : Fin 128) :
    iblk1 V c 1 t (ix2 p d) = rdN (V c main_v8) (GineSpec.rowOf (pt1 t) p) d := by
  obtain ⟨-, -, a0, a1, -⟩ := blockIdx1 t
  unfold iblk1
  rw [View.read_apply]
  show V c main_v8 _ = V c main_v8 _
  congr 1
  funext a
  apply Fin.ext
  match a with
  | ⟨0, _⟩ => show win1_1.index t (0 : Fin 2) * 10000 + 1 * p.val = 10000 * t.val + p.val; omega
  | ⟨1, _⟩ => show win1_1.index t (1 : Fin 2) * 128 + 1 * d.val = d.val; omega

/-- Window 2's block is the whole small array at every point. -/
theorem iblk1_2_apply (c : Dev nD) (t : Fin cfg1.N) (d k : Fin 128) :
    iblk1 V c 2 t (ix2 d k) = rdW (V c main_v9) d k := by
  obtain ⟨-, -, -, -, a0, a1, -⟩ := blockIdx1 t
  unfold iblk1
  rw [View.read_apply]
  show V c main_v9 _ = V c main_v9 _
  congr 1
  funext a
  apply Fin.ext
  match a with
  | ⟨0, _⟩ => show win1_2.index t (0 : Fin 2) * 128 + 1 * d.val = d.val; omega
  | ⟨1, _⟩ => show win1_2.index t (1 : Fin 2) * 128 + 1 * k.val = k.val; omega

/-- Window 4's block is the whole small array at every point. -/
theorem iblk1_4_apply (c : Dev nD) (t : Fin cfg1.N) (d k : Fin 128) :
    iblk1 V c 4 t (ix2 d k) = rdW (V c main_v10) d k := by
  obtain ⟨-, -, -, -, -, -, -, -, a0, a1, -⟩ := blockIdx1 t
  unfold iblk1
  rw [View.read_apply]
  show V c main_v10 _ = V c main_v10 _
  congr 1
  funext a
  apply Fin.ext
  match a with
  | ⟨0, _⟩ => show win1_4.index t (0 : Fin 2) * 128 + 1 * d.val = d.val; omega
  | ⟨1, _⟩ => show win1_4.index t (1 : Fin 2) * 128 + 1 * k.val = k.val; omega

/-- Window 3's block is the whole small array at every point. -/
theorem iblk1_3_apply (c : Dev nD) (t : Fin cfg1.N) (k : Fin 128) :
    iblk1 V c 3 t (ix2 (0 : Fin 1) k) = rdB (V c main_v11) k := by
  obtain ⟨-, -, -, -, -, -, a0, a1, -⟩ := blockIdx1 t
  unfold iblk1
  rw [View.read_apply]
  show V c main_v11 _ = V c main_v11 _
  congr 1
  funext a
  apply Fin.ext
  match a with
  | ⟨0, _⟩ => show win1_3.index t (0 : Fin 2) * 1 + 1 * 0 = 0; omega
  | ⟨1, _⟩ => show win1_3.index t (1 : Fin 2) * 128 + 1 * k.val = k.val; omega

/-- Window 5's block is the whole small array at every point. -/
theorem iblk1_5_apply (c : Dev nD) (t : Fin cfg1.N) (k : Fin 128) :
    iblk1 V c 5 t (ix2 (0 : Fin 1) k) = rdB (V c main_v12) k := by
  obtain ⟨-, -, -, -, -, -, -, -, -, -, a0, a1, -⟩ := blockIdx1 t
  unfold iblk1
  rw [View.read_apply]
  show V c main_v12 _ = V c main_v12 _
  congr 1
  funext a
  apply Fin.ext
  match a with
  | ⟨0, _⟩ => show win1_5.index t (0 : Fin 2) * 1 + 1 * 0 = 0; omega
  | ⟨1, _⟩ => show win1_5.index t (1 : Fin 2) * 128 + 1 * k.val = k.val; omega

/-- The stored update at row p and column j of point t's block is the update of node 10000·t + p at column j. -/
theorem upd1_apply (c : Dev nD) (t : Fin cfg1.N) (p : Fin 10000) (j : Fin 128) :
    k1_pay5 (F := Ideal) (iblk1 V c 0 t) (iblk1 V c 1 t) (iblk1 V c 2 t) (iblk1 V c 3 t) (iblk1 V c 4 t) (iblk1 V c 5 t) (ix2 p j)
      = (hidOf (V c main_arg0) (V c main_v8) (V c main_v9) (V c main_v10) (V c main_v11) (V c main_v12)) (GineSpec.rowOf (pt1 t) p) j := by
  rw [Pay.k1_pay5_apply]
  simp only [iblk1_0_apply, iblk1_1_apply, iblk1_2_apply, iblk1_3_apply, iblk1_4_apply, iblk1_5_apply]

/-! ## The row output -/

/-- After every point the row output's buffer holds the update of the point's blocks. -/
theorem outs1_6_eq (c : Dev nD) (t : Fin cfg1.N) :
    (outsAt1 (F := Ideal) V c t.val t.isLt).1 = k1_pay5 (F := Ideal) (iblk1 V c 0 t) (iblk1 V c 1 t) (iblk1 V c 2 t) (iblk1 V c 3 t) (iblk1 V c 4 t) (iblk1 V c 5 t) := by
  have hN : t.val < 10 := lt_of_lt_of_eq t.isLt N_1
  by_cases h0 : t.val % 10 = 0
  · have h1 : ¬t.val % 10 = 9 := by omega
    rw [outsAt1_A V c t h0 h1]
    unfold outs1_A
    dsimp only
    rw [out1_A_6_eq]
  · by_cases h1 : t.val % 10 = 9
    · rw [outsAt1_C V c t h0 h1]
      unfold outs1_C
      dsimp only
      rw [out1_C_6_eq]
    · rw [outsAt1_B V c t h0 h1]
      unfold outs1_B
      dsimp only
      rw [out1_B_6_eq]

/-- What point t writes back to the row output's array is block t of the update of every node. -/
theorem flushed1_6_eq (c : Dev nD) (t : Fin cfg1.N) :
    (dat1 (F := Ideal) V c).flushed 6 t
      = ((cfg1.win 6).blk t).view.read (Elt Ideal) (GineSpec.ofRows (hidOf (V c main_arg0) (V c main_v8) (V c main_v9) (V c main_v10) (V c main_v11) (V c main_v12))) := by
  show (cfg1.win 6).cut (grid1.coords t) ((dat1 V c).after 6 t) = _
  rw [after1_6, outs1_6_eq]
  obtain ⟨-, -, -, -, -, -, -, -, -, -, -, -, g0, g1, -⟩ := blockIdx1 t
  funext y
  obtain ⟨p, q, rfl⟩ : ∃ (p : Fin 10000) (q : Fin 128), y = ix2 p q := ⟨y 0, y 1, eq_ix2 y⟩
  show k1_pay5 (F := Ideal) (iblk1 V c 0 t) (iblk1 V c 1 t) (iblk1 V c 2 t) (iblk1 V c 3 t) (iblk1 V c 4 t) (iblk1 V c 5 t) (ix2 p q)
    = GineSpec.ofRows (hidOf (V c main_arg0) (V c main_v8) (V c main_v9) (V c main_v10) (V c main_v11) (V c main_v12)) (((cfg1.win 6).blk t).view.emb (ix2 p q))
  rw [upd1_apply]
  have he : ((cfg1.win 6).blk t).view.emb (ix2 p q) = ix2 (GineSpec.rowOf (pt1 t) p) q := by
    funext a; apply Fin.ext
    match a with
    | ⟨0, _⟩ => show win1_6.index t (0 : Fin 2) * 10000 + 1 * p.val = 10000 * t.val + p.val; omega
    | ⟨1, _⟩ => show win1_6.index t (1 : Fin 2) * 128 + 1 * q.val = q.val; omega
  rw [he]
  rfl

/-- An index of the row output's array is in point t's block iff each coordinate is in the block's range on its axis. -/
theorem mem_blk1_6 (t : Fin cfg1.N) (i : S100000x128.Idx) :
    i ∈ ((cfg1.win 6).blk t).view.set
      ↔ ∀ a : Fin 2, win1_6.index t a * S10000x128.size a ≤ (i a).val
          ∧ (i a).val < win1_6.index t a * S10000x128.size a + S10000x128.size a := by
  show i ∈ ((View.whole main_v13_0).slice (win1_6.rect t)).set ↔ _
  rw [View.set_slice_whole, Rect.mem_set_unit]
  exact Iff.rfl

/-- Row n of the row output's array is in the block of point n / 10000, which writes back. -/
theorem acover1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 10 := N_1
  have ht : (i 0).val / 10000 < cfg1.N := by show (i 0).val / 10000 < grid1.N; omega
  obtain ⟨-, -, -, -, -, -, -, -, -, -, -, -, g0, g1, -⟩ := blockIdx1 ⟨(i 0).val / 10000, ht⟩
  refine ⟨⟨(i 0).val / 10000, ht⟩, flush1_6 _, ?_⟩
  rw [mem_blk1_6]
  intro a
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    rw [g0]
    show (i 0).val / 10000 * 10000 ≤ (i 0).val ∧ (i 0).val < (i 0).val / 10000 * 10000 + 10000
    omega
  | ⟨1, _⟩ =>
    show win1_6.index ⟨(i 0).val / 10000, ht⟩ (1 : Fin 2) * 128 ≤ (i 1).val
      ∧ (i 1).val < win1_6.index ⟨(i 0).val / 10000, ht⟩ (1 : Fin 2) * 128 + 128
    rw [g1]
    omega

/-- The row output's array after the region: the update of every node. -/
theorem finalR6_array (c : Dev nD) :
    (dat1 (F := Ideal) V c).arrAt 6 cfg1.N = GineSpec.ofRows (hidOf (V c main_arg0) (V c main_v8) (V c main_v9) (V c main_v10) (V c main_v11) (V c main_v12)) :=
  (dat1 (F := Ideal) V c).arrAt_eq_of_cover 6 (GineSpec.ofRows (hidOf (V c main_arg0) (V c main_v8) (V c main_v9) (V c main_v10) (V c main_v11) (V c main_v12)))
    (fun t _ => flushed1_6_eq V c t) acover1_6

/-- The row output's array after the region at node n and column j. -/
theorem finalR6 (c : Dev nD) (n : Fin 100000) (j : Fin 128) :
    (dat1 (F := Ideal) V c).arrAt 6 cfg1.N (ix2 n j) = (hidOf (V c main_arg0) (V c main_v8) (V c main_v9) (V c main_v10) (V c main_v11) (V c main_v12)) n j :=
  congrFun (finalR6_array V c) (ix2 n j)

/-! ## The two accumulators, point by point -/

/-- What block s adds to the running column sum at column j: the sum of the update over the block's rows. -/
abbrev term1_0 (c : Dev nD) (j : Fin 128) (s : ℕ) : EReal :=
  if hs : s < 10 then ∑ p : Fin 10000, (hidOf (V c main_arg0) (V c main_v8) (V c main_v9) (V c main_v10) (V c main_v11) (V c main_v12)) (GineSpec.rowOf ⟨s, hs⟩ p) j else 0
/-- What block s adds to the running column sum of squares at column j. -/
abbrev term1_1 (c : Dev nD) (j : Fin 128) (s : ℕ) : EReal :=
  if hs : s < 10 then ∑ p : Fin 10000, (hidOf (V c main_arg0) (V c main_v8) (V c main_v9) (V c main_v10) (V c main_v11) (V c main_v12)) (GineSpec.rowOf ⟨s, hs⟩ p) j * (hidOf (V c main_arg0) (V c main_v8) (V c main_v9) (V c main_v10) (V c main_v11) (V c main_v12)) (GineSpec.rowOf ⟨s, hs⟩ p) j else 0

/-- At the first point the first accumulator is zero plus the block's column sums. -/
theorem sc1_0_first (c : Dev nD) (t : Fin cfg1.N) (h0 : t.val % 10 = 0) (j : Fin 128) :
    (outsAt1 (F := Ideal) V c t.val t.isLt).2.2.2.1 (ix2 (0 : Fin 1) j)
      = 0 + ∑ p : Fin 10000, (hidOf (V c main_arg0) (V c main_v8) (V c main_v9) (V c main_v10) (V c main_v11) (V c main_v12)) (GineSpec.rowOf (pt1 t) p) j := by
  have hN : t.val < 10 := lt_of_lt_of_eq t.isLt N_1
  have h1 : ¬t.val % 10 = 9 := by omega
  rw [outsAt1_A V c t h0 h1]
  unfold outs1_A
  dsimp only
  rw [sout1_A_0_eq, Pay.k1_pay1_apply, Pay.k1_pay6_apply, Pay.k1_pay3_apply]
  simp only [upd1_apply]

/-- At a later point the first accumulator is what the point before left plus the block's column sums. -/
theorem sc1_0_next (c : Dev nD) (t : Fin cfg1.N) (h0 : ¬t.val % 10 = 0) (j : Fin 128) :
    (outsAt1 (F := Ideal) V c t.val t.isLt).2.2.2.1 (ix2 (0 : Fin 1) j)
      = (outsAt1 (F := Ideal) V c (t.val - 1) (Nat.lt_of_le_of_lt (Nat.sub_le _ _) t.isLt)).2.2.2.1 (ix2 (0 : Fin 1) j)
        + ∑ p : Fin 10000, (hidOf (V c main_arg0) (V c main_v8) (V c main_v9) (V c main_v10) (V c main_v11) (V c main_v12)) (GineSpec.rowOf (pt1 t) p) j := by
  by_cases h1 : t.val % 10 = 9
  · rw [outsAt1_C V c t h0 h1]
    unfold outs1_C
    dsimp only
    rw [sout1_C_0_eq, Pay.k1_pay1_apply, Pay.k1_pay6_apply]
    simp only [upd1_apply]
  · rw [outsAt1_B V c t h0 h1]
    unfold outs1_B
    dsimp only
    rw [sout1_B_0_eq, Pay.k1_pay1_apply, Pay.k1_pay6_apply]
    simp only [upd1_apply]

/-- At the first point the second accumulator is zero plus the block's column sums of squares. -/
theorem sc1_1_first (c : Dev nD) (t : Fin cfg1.N) (h0 : t.val % 10 = 0) (j : Fin 128) :
    (outsAt1 (F := Ideal) V c t.val t.isLt).2.2.2.2 (ix2 (0 : Fin 1) j)
      = 0 + ∑ p : Fin 10000, (hidOf (V c main_arg0) (V c main_v8) (V c main_v9) (V c main_v10) (V c main_v11) (V c main_v12)) (GineSpec.rowOf (pt1 t) p) j * (hidOf (V c main_arg0) (V c main_v8) (V c main_v9) (V c main_v10) (V c main_v11) (V c main_v12)) (GineSpec.rowOf (pt1 t) p) j := by
  have hN : t.val < 10 := lt_of_lt_of_eq t.isLt N_1
  have h1 : ¬t.val % 10 = 9 := by omega
  rw [outsAt1_A V c t h0 h1]
  unfold outs1_A
  dsimp only
  rw [sout1_A_1_eq, Pay.k1_pay2_apply, Pay.k1_pay4_apply]
  simp only [upd1_apply]

/-- At a later point the second accumulator is what the point before left plus the block's column sums of squares. -/
theorem sc1_1_next (c : Dev nD) (t : Fin cfg1.N) (h0 : ¬t.val % 10 = 0) (j : Fin 128) :
    (outsAt1 (F := Ideal) V c t.val t.isLt).2.2.2.2 (ix2 (0 : Fin 1) j)
      = (outsAt1 (F := Ideal) V c (t.val - 1) (Nat.lt_of_le_of_lt (Nat.sub_le _ _) t.isLt)).2.2.2.2 (ix2 (0 : Fin 1) j)
        + ∑ p : Fin 10000, (hidOf (V c main_arg0) (V c main_v8) (V c main_v9) (V c main_v10) (V c main_v11) (V c main_v12)) (GineSpec.rowOf (pt1 t) p) j * (hidOf (V c main_arg0) (V c main_v8) (V c main_v9) (V c main_v10) (V c main_v11) (V c main_v12)) (GineSpec.rowOf (pt1 t) p) j := by
  by_cases h1 : t.val % 10 = 9
  · rw [outsAt1_C V c t h0 h1]
    unfold outs1_C
    dsimp only
    rw [sout1_C_1_eq, Pay.k1_pay2_apply]
    simp only [upd1_apply]
  · rw [outsAt1_B V c t h0 h1]
    unfold outs1_B
    dsimp only
    rw [sout1_B_1_eq, Pay.k1_pay2_apply]
    simp only [upd1_apply]

/-- After point n the first accumulator holds, at column j, the running total of the blocks' terms up to n. -/
theorem acc1_0 (c : Dev nD) (j : Fin 128) :
    ∀ (n : ℕ) (hn : n < cfg1.N), (outsAt1 (F := Ideal) V c n hn).2.2.2.1 (ix2 (0 : Fin 1) j) = GineSpec.acc (term1_0 V c j) n := by
  intro n
  induction n with
  | zero =>
    intro hn
    rw [GineSpec.acc_zero]
    refine (sc1_0_first V c ⟨0, hn⟩ rfl j).trans ?_
    show 0 + _ = 0 + term1_0 V c j 0
    rw [show term1_0 V c j 0 = _ from dif_pos (by decide : (0 : ℕ) < 10)]
  | succ n ih =>
    intro hn
    have hN : n + 1 < 10 := lt_of_lt_of_eq hn N_1
    rw [GineSpec.acc_succ, ← ih (Nat.lt_of_succ_lt hn)]
    refine (sc1_0_next V c ⟨n + 1, hn⟩ (by show ¬(n + 1) % 10 = 0; omega) j).trans ?_
    show (outsAt1 (F := Ideal) V c n _).2.2.2.1 (ix2 (0 : Fin 1) j) + _ = _ + term1_0 V c j (n + 1)
    rw [show term1_0 V c j (n + 1) = _ from dif_pos hN]

/-- After point n the second accumulator holds, at column j, the running total of the blocks' terms up to n. -/
theorem acc1_1 (c : Dev nD) (j : Fin 128) :
    ∀ (n : ℕ) (hn : n < cfg1.N), (outsAt1 (F := Ideal) V c n hn).2.2.2.2 (ix2 (0 : Fin 1) j) = GineSpec.acc (term1_1 V c j) n := by
  intro n
  induction n with
  | zero =>
    intro hn
    rw [GineSpec.acc_zero]
    refine (sc1_1_first V c ⟨0, hn⟩ rfl j).trans ?_
    show 0 + _ = 0 + term1_1 V c j 0
    rw [show term1_1 V c j 0 = _ from dif_pos (by decide : (0 : ℕ) < 10)]
  | succ n ih =>
    intro hn
    have hN : n + 1 < 10 := lt_of_lt_of_eq hn N_1
    rw [GineSpec.acc_succ, ← ih (Nat.lt_of_succ_lt hn)]
    refine (sc1_1_next V c ⟨n + 1, hn⟩ (by show ¬(n + 1) % 10 = 0; omega) j).trans ?_
    show (outsAt1 (F := Ideal) V c n _).2.2.2.2 (ix2 (0 : Fin 1) j) + _ = _ + term1_1 V c j (n + 1)
    rw [show term1_1 V c j (n + 1) = _ from dif_pos hN]

/-! ## The column-sum output -/

/-- The column sums of the update, as one row. -/
abbrev colSumArr (c : Dev nD) : S1x128.Idx → EReal := fun i => ∑ n : Fin 100000, (hidOf (V c main_arg0) (V c main_v8) (V c main_v9) (V c main_v10) (V c main_v11) (V c main_v12)) n ⟨(i 1).val, idx2_lt1 i⟩

/-- At the last point the body copies the first accumulator, as it has just left it, to output 7. -/
theorem outs1_7_last (c : Dev nD) (t : Fin cfg1.N) (h0 : ¬t.val % 10 = 0) (h1 : t.val % 10 = 9) :
    (outsAt1 (F := Ideal) V c t.val t.isLt).2.1 = (outsAt1 (F := Ideal) V c t.val t.isLt).2.2.2.1 := by
  rw [outsAt1_C V c t h0 h1]
  unfold outs1_C
  dsimp only
  rw [out1_C_7_eq, sout1_C_0_eq]

/-- After the last point the first accumulator holds the column sums over all nodes. -/
theorem sc1_0_row (c : Dev nD) (t : Fin cfg1.N) (ht : t.val = 9) :
    (outsAt1 (F := Ideal) V c t.val t.isLt).2.2.2.1 = colSumArr V c := by
  funext i
  obtain ⟨u, q, rfl⟩ : ∃ (u : Fin 1) (q : Fin 128), i = ix2 u q := ⟨i 0, i 1, eq_ix2 i⟩
  obtain rfl : u = 0 := Subsingleton.elim _ _
  rw [acc1_0 V c q t.val t.isLt, ht]
  exact GineSpec.acc_last fun n => (hidOf (V c main_arg0) (V c main_v8) (V c main_v9) (V c main_v10) (V c main_v11) (V c main_v12)) n q

/-- The one write-back of output 7, at the last point, writes the column sums over all nodes: block (0, 0) of
    a one-row array read through zero offsets is the array. -/
theorem flushed1_7_eq (c : Dev nD) (t : Fin cfg1.N) (hf : (cfg1.win 7).flush t = true) :
    (dat1 (F := Ideal) V c).flushed 7 t = ((cfg1.win 7).blk t).view.read (Elt Ideal) (colSumArr V c) := by
  have hN : t.val < 10 := lt_of_lt_of_eq t.isLt N_1
  have h9 : t.val % 10 = 9 := (flush1_7 t).mp hf
  have h0 : ¬t.val % 10 = 0 := by omega
  have ht : t.val = 9 := by omega
  show (cfg1.win 7).cut (grid1.coords t) ((dat1 V c).after 7 t) = _
  rw [after1_7, outs1_7_last V c t h0 h9, sc1_0_row V c t ht]
  obtain rfl : t = t1_9 := Fin.ext ht
  have hz' : (fun a => win1_7.index t1_9 a * main_v13_1.ty.shape.size a) = fun _ => 0 := funext fun a => by fin_cases a <;> decide +kernel
  exact (Memref.read_access_unit_zero (Elt Ideal) main_v13_1 hz' (fun a => by rw [congrFun hz' a]; simp) (colSumArr V c)).symm

/-- An index of output 7's array is in point t's block iff each coordinate is in the block's range on its axis. -/
theorem mem_blk1_7 (t : Fin cfg1.N) (i : S1x128.Idx) :
    i ∈ ((cfg1.win 7).blk t).view.set
      ↔ ∀ a : Fin 2, win1_7.index t a * S1x128.size a ≤ (i a).val
          ∧ (i a).val < win1_7.index t a * S1x128.size a + S1x128.size a := by
  show i ∈ ((View.whole main_v13_1).slice (win1_7.rect t)).set ↔ _
  rw [View.set_slice_whole, Rect.mem_set_unit]
  exact Iff.rfl

/-- Every index of output 7's one-row array is in the block of the last point, which writes back. -/
theorem acover1_7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  have ht : 9 < cfg1.N := by show 9 < grid1.N; rw [N_1]; decide
  obtain ⟨-, -, -, -, -, -, -, -, -, -, -, -, -, -, g0, g1, -⟩ := blockIdx1 ⟨9, ht⟩
  refine ⟨⟨9, ht⟩, (flush1_7 _).mpr rfl, ?_⟩
  rw [mem_blk1_7]
  intro a
  match a with
  | ⟨0, _⟩ =>
    show win1_7.index ⟨9, ht⟩ (0 : Fin 2) * 1 ≤ (i 0).val ∧ (i 0).val < win1_7.index ⟨9, ht⟩ (0 : Fin 2) * 1 + 1
    rw [g0]
    omega
  | ⟨1, _⟩ =>
    show win1_7.index ⟨9, ht⟩ (1 : Fin 2) * 128 ≤ (i 1).val ∧ (i 1).val < win1_7.index ⟨9, ht⟩ (1 : Fin 2) * 128 + 128
    rw [g1]
    omega

/-- Output 7's array after the region: the column sums of the update over all nodes. -/
theorem finalR7_array (c : Dev nD) :
    (dat1 (F := Ideal) V c).arrAt 7 cfg1.N = colSumArr V c :=
  (dat1 (F := Ideal) V c).arrAt_eq_of_cover 7 (colSumArr V c) (flushed1_7_eq V c) acover1_7

/-- Output 7's array after the region at column j. -/
theorem finalR7 (c : Dev nD) (j : Fin 128) :
    (dat1 (F := Ideal) V c).arrAt 7 cfg1.N (ix2 (0 : Fin 1) j) = ∑ n : Fin 100000, (hidOf (V c main_arg0) (V c main_v8) (V c main_v9) (V c main_v10) (V c main_v11) (V c main_v12)) n j :=
  congrFun (finalR7_array V c) (ix2 (0 : Fin 1) j)

/-! ## The sum-of-squares output -/

/-- The column sums of the squares of the update, as one row. -/
abbrev colSumSqArr (c : Dev nD) : S1x128.Idx → EReal := fun i => ∑ n : Fin 100000, (hidOf (V c main_arg0) (V c main_v8) (V c main_v9) (V c main_v10) (V c main_v11) (V c main_v12)) n ⟨(i 1).val, idx2_lt1 i⟩ * (hidOf (V c main_arg0) (V c main_v8) (V c main_v9) (V c main_v10) (V c main_v11) (V c main_v12)) n ⟨(i 1).val, idx2_lt1 i⟩

/-- At the last point the body copies the second accumulator, as it has just left it, to output 8. -/
theorem outs1_8_last (c : Dev nD) (t : Fin cfg1.N) (h0 : ¬t.val % 10 = 0) (h1 : t.val % 10 = 9) :
    (outsAt1 (F := Ideal) V c t.val t.isLt).2.2.1 = (outsAt1 (F := Ideal) V c t.val t.isLt).2.2.2.2 := by
  rw [outsAt1_C V c t h0 h1]
  unfold outs1_C
  dsimp only
  rw [out1_C_8_eq, sout1_C_1_eq]

/-- After the last point the second accumulator holds the column sums of squares over all nodes. -/
theorem sc1_1_row (c : Dev nD) (t : Fin cfg1.N) (ht : t.val = 9) :
    (outsAt1 (F := Ideal) V c t.val t.isLt).2.2.2.2 = colSumSqArr V c := by
  funext i
  obtain ⟨u, q, rfl⟩ : ∃ (u : Fin 1) (q : Fin 128), i = ix2 u q := ⟨i 0, i 1, eq_ix2 i⟩
  obtain rfl : u = 0 := Subsingleton.elim _ _
  rw [acc1_1 V c q t.val t.isLt, ht]
  exact GineSpec.acc_last fun n => (hidOf (V c main_arg0) (V c main_v8) (V c main_v9) (V c main_v10) (V c main_v11) (V c main_v12)) n q * (hidOf (V c main_arg0) (V c main_v8) (V c main_v9) (V c main_v10) (V c main_v11) (V c main_v12)) n q

/-- The one write-back of output 8, at the last point, writes the column sums of squares over all nodes: block (0, 0) of
    a one-row array read through zero offsets is the array. -/
theorem flushed1_8_eq (c : Dev nD) (t : Fin cfg1.N) (hf : (cfg1.win 8).flush t = true) :
    (dat1 (F := Ideal) V c).flushed 8 t = ((cfg1.win 8).blk t).view.read (Elt Ideal) (colSumSqArr V c) := by
  have hN : t.val < 10 := lt_of_lt_of_eq t.isLt N_1
  have h9 : t.val % 10 = 9 := (flush1_8 t).mp hf
  have h0 : ¬t.val % 10 = 0 := by omega
  have ht : t.val = 9 := by omega
  show (cfg1.win 8).cut (grid1.coords t) ((dat1 V c).after 8 t) = _
  rw [after1_8, outs1_8_last V c t h0 h9, sc1_1_row V c t ht]
  obtain rfl : t = t1_9 := Fin.ext ht
  have hz' : (fun a => win1_8.index t1_9 a * main_v13_2.ty.shape.size a) = fun _ => 0 := funext fun a => by fin_cases a <;> decide +kernel
  exact (Memref.read_access_unit_zero (Elt Ideal) main_v13_2 hz' (fun a => by rw [congrFun hz' a]; simp) (colSumSqArr V c)).symm

/-- An index of output 8's array is in point t's block iff each coordinate is in the block's range on its axis. -/
theorem mem_blk1_8 (t : Fin cfg1.N) (i : S1x128.Idx) :
    i ∈ ((cfg1.win 8).blk t).view.set
      ↔ ∀ a : Fin 2, win1_8.index t a * S1x128.size a ≤ (i a).val
          ∧ (i a).val < win1_8.index t a * S1x128.size a + S1x128.size a := by
  show i ∈ ((View.whole main_v13_2).slice (win1_8.rect t)).set ↔ _
  rw [View.set_slice_whole, Rect.mem_set_unit]
  exact Iff.rfl

/-- Every index of output 8's one-row array is in the block of the last point, which writes back. -/
theorem acover1_8 (i : S1x128.Idx) :
    ∃ t : Fin cfg1.N, (cfg1.win 8).flush t = true ∧ i ∈ ((cfg1.win 8).blk t).view.set := by
  have hi0 : (i 0).val < 1 := (i 0).isLt
  have hi1 : (i 1).val < 128 := (i 1).isLt
  have ht : 9 < cfg1.N := by show 9 < grid1.N; rw [N_1]; decide
  obtain ⟨-, -, -, -, -, -, -, -, -, -, -, -, -, -, -, -, g0, g1⟩ := blockIdx1 ⟨9, ht⟩
  refine ⟨⟨9, ht⟩, (flush1_8 _).mpr rfl, ?_⟩
  rw [mem_blk1_8]
  intro a
  match a with
  | ⟨0, _⟩ =>
    show win1_8.index ⟨9, ht⟩ (0 : Fin 2) * 1 ≤ (i 0).val ∧ (i 0).val < win1_8.index ⟨9, ht⟩ (0 : Fin 2) * 1 + 1
    rw [g0]
    omega
  | ⟨1, _⟩ =>
    show win1_8.index ⟨9, ht⟩ (1 : Fin 2) * 128 ≤ (i 1).val ∧ (i 1).val < win1_8.index ⟨9, ht⟩ (1 : Fin 2) * 128 + 128
    rw [g1]
    omega

/-- Output 8's array after the region: the column sums of squares of the update over all nodes. -/
theorem finalR8_array (c : Dev nD) :
    (dat1 (F := Ideal) V c).arrAt 8 cfg1.N = colSumSqArr V c :=
  (dat1 (F := Ideal) V c).arrAt_eq_of_cover 8 (colSumSqArr V c) (flushed1_8_eq V c) acover1_8

/-- Output 8's array after the region at column j. -/
theorem finalR8 (c : Dev nD) (j : Fin 128) :
    (dat1 (F := Ideal) V c).arrAt 8 cfg1.N (ix2 (0 : Fin 1) j) = ∑ n : Fin 100000, (hidOf (V c main_arg0) (V c main_v8) (V c main_v9) (V c main_v10) (V c main_v11) (V c main_v12)) n j * (hidOf (V c main_arg0) (V c main_v8) (V c main_v9) (V c main_v10) (V c main_v11) (V c main_v12)) n j :=
  congrFun (finalR8_array V c) (ix2 (0 : Fin 1) j)

end Arrays

end Cert.KernelIdeal.Hand

end
-- ==== Proof.KernelIdeal.KFold.lean ====
/-
  The kernel's result buffer as the specification's function of the nine argument arrays, at the exact instance
  (floats read as extended reals), read off the fold of buffer contents through @main stage by stage.

  From the launch memory: the two rows of the edge list are sliced out (sources, destinations); the source rows of the
  node features x are looked up (wrap-and-mask); the edge-message region leaves max (row + edge features) 0 on every
  edge; the scatter-add sums the messages onto their destination nodes, onto zero (the aggregated messages a); the two
  weight matrices are transposed and the two biases laid out as rows; the network region leaves
  h = relu ((1·x + a) · W1ᵀ + b1) · W2ᵀ + b2 and, per column, the sum of h and the sum of h²; the next stretch divides
  both by the number of nodes and forms the mean of squares less the squared mean; the normalising region leaves
  max ((h - mean) · rsqrt (variance + floor) · γ + β) 0. Hence the result buffer is the specification's
  `ofRows (bn h (varSq h) γ β)` with h the specification's `hid` of x and a.

  What the stretches of host operations compute (`HostStageFacts`, proved: `hostStageFacts`) and what the network
  region leaves in its three output arrays (`Region1Facts`, proved: `region1Facts`) enter the fold as two records of
  equations; the module ends with `kernel_out` and `kernel_run`, which assume nothing.
-/
import proofs.«428931_j67113158967915_3_alg».proof.Proof.KernelIdeal.Run
import proofs.«428931_j67113158967915_3_alg».proof.Proof.AggrDef
import proofs.«428931_j67113158967915_3_alg».proof.Proof.KernelIdeal.HostStages
import proofs.«428931_j67113158967915_3_alg».proof.Proof.KernelIdeal.HostStagesB
import proofs.«428931_j67113158967915_3_alg».proof.Proof.KValueA
import proofs.«428931_j67113158967915_3_alg».proof.Proof.KernelIdeal.KValueR
import proofs.«428931_j67113158967915_3_alg».proof.Proof.Spec
import proofs.«428931_j67113158967915_3_alg».proof.Proof.LibRowLayers
import Idealize.ShloMosaic.Lib.ValueLayout

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # What a stretch keeps: a reference it does not write holds what it held -/

section Keep

variable {F : FTy → Type} [FloatOps F]
variable (m : (ℓ : Loc nD τ sig) → Buf (Elt F) ℓ) (ρ : Dev nD → PrngReg)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W4_keep (c : Dev nD) (r : Ref sig .tc) (h : r ∉ hostOps1_W) :
    W4 m ρ c (Proc.devRef .tc r) = W3 m ρ c (Proc.devRef .tc r) :=
  StableHlo.after_of_writes_sub hostOps1 _ hostOps1_writes h
theorem W6_keep (c : Dev nD) (r : Ref sig .tc) (h : r ∉ hostOps2_W) :
    W6 m ρ c (Proc.devRef .tc r) = W5 m ρ c (Proc.devRef .tc r) :=
  StableHlo.after_of_writes_sub hostOps2 _ hostOps2_writes h

end Keep

/-! # The network region's output arrays, from the arrays it finds -/

/-- The update at row n and column j from the arrays the network region finds: the node features X, the aggregated
    messages A, the transposed first weights W1t with the first bias as a row B1, the transposed second weights W2t with
    the second bias as a row B2. -/
abbrev hidAt (X A : S100000x128.Idx → EReal) (W1t : S128x128.Idx → EReal) (B1 : S1x128.Idx → EReal)
    (W2t : S128x128.Idx → EReal) (B2 : S1x128.Idx → EReal) (n : Fin 100000) (j : Fin 128) : EReal :=
  (∑ k : Fin 128, max ((∑ d : Fin 128, (1 * X (ix2 n d) + A (ix2 n d)) * W1t (ix2 d k)) + B1 (ix2 (0 : Fin 1) k)) 0
      * W2t (ix2 k j)) + B2 (ix2 (0 : Fin 1) j)

/-- The sum of column j of an array of 100000 rows, and of its squares. -/
abbrev colSumAt (H : S100000x128.Idx → EReal) (j : Fin 128) : EReal := ∑ n : Fin 100000, H (ix2 n j)
abbrev colSumSqAt (H : S100000x128.Idx → EReal) (j : Fin 128) : EReal := ∑ n : Fin 100000, H (ix2 n j) * H (ix2 n j)

/-- What the network region leaves in its three output arrays, at any contents `V` it is entered from: the update in
    window 6's, the column sums of the update in window 7's, the column sums of its squares in window 8's. -/
structure Region1Facts : Prop where
  out6 : ∀ (V : (c : Dev nD) → (b : Ref sig .tc) → Buf (Elt Ideal) ((c : Thread nD τ).loc b)) (c : Dev nD)
      (n : Fin 100000) (j : Fin 128),
    (dat1 (F := Ideal) V c).arrAt 6 cfg1.N (ix2 n j)
      = hidAt (V c main_arg0) (V c main_v8) (V c main_v9) (V c main_v11) (V c main_v10) (V c main_v12) n j
  out7 : ∀ (V : (c : Dev nD) → (b : Ref sig .tc) → Buf (Elt Ideal) ((c : Thread nD τ).loc b)) (c : Dev nD) (j : Fin 128),
    (dat1 (F := Ideal) V c).arrAt 7 cfg1.N (ix2 (0 : Fin 1) j) = colSumAt ((dat1 (F := Ideal) V c).arrAt 6 cfg1.N) j
  out8 : ∀ (V : (c : Dev nD) → (b : Ref sig .tc) → Buf (Elt Ideal) ((c : Thread nD τ).loc b)) (c : Dev nD) (j : Fin 128),
    (dat1 (F := Ideal) V c).arrAt 8 cfg1.N (ix2 (0 : Fin 1) j) = colSumSqAt ((dat1 (F := Ideal) V c).arrAt 6 cfg1.N) j

/-- Column sums of a function of (row, column) are those of an array that reads as the function. -/
theorem sum_eq_colSumAt {H : S100000x128.Idx → EReal} {h : Fin 100000 → Fin 128 → EReal}
    (e : ∀ n j, H (ix2 n j) = h n j) (j : Fin 128) : (∑ n : Fin 100000, h n j) = colSumAt H j :=
  Finset.sum_congr rfl fun n _ => (e n j).symm
theorem sum_eq_colSumSqAt {H : S100000x128.Idx → EReal} {h : Fin 100000 → Fin 128 → EReal}
    (e : ∀ n j, H (ix2 n j) = h n j) (j : Fin 128) : (∑ n : Fin 100000, h n j * h n j) = colSumSqAt H j :=
  Finset.sum_congr rfl fun n _ => by rw [e n j]

/-- The network region leaves exactly these: its row output is the update of the arrays it finds, and its two
    accumulated rows are the column sums of the update and of its squares. -/
theorem region1Facts : Region1Facts where
  out6 V c n j := finalR6 V c n j
  out7 V c j := (finalR7 V c j).trans (sum_eq_colSumAt (fun n j => finalR6 V c n j) j)
  out8 V c j := (finalR8 V c j).trans (sum_eq_colSumSqAt (fun n j => finalR6 V c n j) j)

/-! # What the stretches of host operations compute, from any incoming contents -/

/-- Each buffer a region reads that a stretch of host operations writes, as a function of the stretch's incoming
    contents `W`. -/
structure HostStageFacts : Prop where
  v1 : ∀ W : Valuation τ sig (Elt Ideal),
    StableHlo.after hostOps0 W (Proc.devRef .tc main_v1) = Aggr.srcOf (W (Proc.devRef .tc main_arg1))
  v3 : ∀ W : Valuation τ sig (Elt Ideal),
    StableHlo.after hostOps0 W (Proc.devRef .tc main_v3) = Aggr.dstOf (W (Proc.devRef .tc main_arg1))
  v4 : ∀ W : Valuation τ sig (Elt Ideal),
    StableHlo.after hostOps0_1 W (Proc.devRef .tc main_v4) = Aggr.maskedTake (F := Ideal) (W (Proc.devRef .tc main_arg0)) (W (Proc.devRef .tc main_v1))
  v8 : ∀ W : Valuation τ sig (Elt Ideal),
    StableHlo.after hostOps1 W (Proc.devRef .tc main_v8)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_v3)))
          (W (Proc.devRef .tc main_v5))
  v9 : ∀ W : Valuation τ sig (Elt Ideal),
    StableHlo.after hostOps1 W (Proc.devRef .tc main_v9) = transpose S128x128 [1, 0] (W (Proc.devRef .tc main_arg3)) transposes_S128x128_S128x128_1_0
  v10 : ∀ W : Valuation τ sig (Elt Ideal),
    StableHlo.after hostOps1 W (Proc.devRef .tc main_v10) = transpose S128x128 [1, 0] (W (Proc.devRef .tc main_arg5)) transposes_S128x128_S128x128_1_0
  v11 : ∀ W : Valuation τ sig (Elt Ideal),
    StableHlo.after hostOps1 W (Proc.devRef .tc main_v11) = shapeCast S1x128 (W (Proc.devRef .tc main_arg4)) shapeCasts_S128_S1x128
  v12 : ∀ W : Valuation τ sig (Elt Ideal),
    StableHlo.after hostOps1 W (Proc.devRef .tc main_v12) = shapeCast S1x128 (W (Proc.devRef .tc main_arg6)) shapeCasts_S128_S1x128
  v15 : ∀ W : Valuation τ sig (Elt Ideal),
    StableHlo.after hostOps2 W (Proc.devRef .tc main_v15) = Host.divf (W (Proc.devRef .tc main_v13_1)) (broadcastInDim S1x128 ![] bcast_S_S1x128 (constant (F := Ideal) S_ .f32 0x47C35000#32))
  v19 : ∀ W : Valuation τ sig (Elt Ideal),
    StableHlo.after hostOps2 W (Proc.devRef .tc main_v19)
      = subf (Host.divf (W (Proc.devRef .tc main_v13_2)) (broadcastInDim S1x128 ![] bcast_S_S1x128 (constant (F := Ideal) S_ .f32 0x47C35000#32)))
          (mulf (Host.divf (W (Proc.devRef .tc main_v13_1)) (broadcastInDim S1x128 ![] bcast_S_S1x128 (constant (F := Ideal) S_ .f32 0x47C35000#32)))
            (Host.divf (W (Proc.devRef .tc main_v13_1)) (broadcastInDim S1x128 ![] bcast_S_S1x128 (constant (F := Ideal) S_ .f32 0x47C35000#32))))
  v20 : ∀ W : Valuation τ sig (Elt Ideal),
    StableHlo.after hostOps2 W (Proc.devRef .tc main_v20) = shapeCast S1x128 (W (Proc.devRef .tc main_arg7)) shapeCasts_S128_S1x128
  v21 : ∀ W : Valuation τ sig (Elt Ideal),
    StableHlo.after hostOps2 W (Proc.devRef .tc main_v21) = shapeCast S1x128 (W (Proc.devRef .tc main_arg8)) shapeCasts_S128_S1x128

/-! # The specification's update from the arrays the network region finds -/

/-- With the weights transposed and the biases laid out as rows, the update the network region computes is the
    specification's: entry (d, k) of a transposed matrix is entry (k, d) of the matrix, and entry (0, k) of a bias row
    is entry k of the bias. -/
theorem hidAt_eq_hid (X A : S100000x128.Idx → EReal) (W1 : S128x128.Idx → EReal) (B1 : S128.Idx → EReal)
    (W2 : S128x128.Idx → EReal) (B2 : S128.Idx → EReal) (n : Fin 100000) (j : Fin 128) :
    hidAt X A (transpose S128x128 [1, 0] W1 transposes_S128x128_S128x128_1_0) (shapeCast S1x128 B1 shapeCasts_S128_S1x128)
        (transpose S128x128 [1, 0] W2 transposes_S128x128_S128x128_1_0) (shapeCast S1x128 B2 shapeCasts_S128_S1x128) n j
      = GineSpec.hid X A W1 B1 W2 B2 n j := by
  have hT1 : ∀ (d k : Fin 128), transpose S128x128 [1, 0] W1 transposes_S128x128_S128x128_1_0 (ix2 d k) = W1 (ix2 k d) :=
    fun d k => transpose_ix2_apply W1 transposes_S128x128_S128x128_1_0 d k
  have hT2 : ∀ (k j : Fin 128), transpose S128x128 [1, 0] W2 transposes_S128x128_S128x128_1_0 (ix2 k j) = W2 (ix2 j k) :=
    fun k j => transpose_ix2_apply W2 transposes_S128x128_S128x128_1_0 k j
  have hB1 : ∀ k : Fin 128, shapeCast S1x128 B1 shapeCasts_S128_S1x128 (ix2 (0 : Fin 1) k) = B1 (ix1 k) :=
    fun k => shapeCast_a_1a_apply B1 shapeCasts_S128_S1x128 0 k
  have hB2 : ∀ k : Fin 128, shapeCast S1x128 B2 shapeCasts_S128_S1x128 (ix2 (0 : Fin 1) k) = B2 (ix1 k) :=
    fun k => shapeCast_a_1a_apply B2 shapeCasts_S128_S1x128 0 k
  simp only [hidAt, GineSpec.hid, GineSpec.lay1, GineSpec.pre0, hT1, hT2, hB1, hB2]

/-- Column sums read entry by entry. -/
theorem colSumAt_congr {H : S100000x128.Idx → EReal} {h : Fin 100000 → Fin 128 → EReal}
    (e : ∀ n j, H (ix2 n j) = h n j) (j : Fin 128) : colSumAt H j = GineSpec.colSum h j :=
  Finset.sum_congr rfl fun n _ => e n j
theorem colSumSqAt_congr {H : S100000x128.Idx → EReal} {h : Fin 100000 → Fin 128 → EReal}
    (e : ∀ n j, H (ix2 n j) = h n j) (j : Fin 128) : colSumSqAt H j = GineSpec.colSumSq h j :=
  Finset.sum_congr rfl fun n _ => by rw [e n j]

/-- A column sum divided by the number of rows is the specification's mean. -/
theorem mean_of {s : EReal} {h : Fin 100000 → Fin 128 → EReal} {j : Fin 128} (es : s = GineSpec.colSum h j) :
    Ideal.div s ((broadcastInDim S1x128 ![] bcast_S_S1x128 (constant (F := Ideal) S_ .f32 0x47C35000#32)) (ix2 (0 : Fin 1) j)) = GineSpec.mean h j := by
  rw [RowLayers.scalarBroadcast_apply, es]; rfl
/-- The mean of squares less the squared mean is the specification's variance. -/
theorem varSq_of {s q : EReal} {h : Fin 100000 → Fin 128 → EReal} {j : Fin 128} (es : s = GineSpec.colSum h j)
    (eq : q = GineSpec.colSumSq h j) :
    Ideal.div q ((broadcastInDim S1x128 ![] bcast_S_S1x128 (constant (F := Ideal) S_ .f32 0x47C35000#32)) (ix2 (0 : Fin 1) j))
        - Ideal.div s ((broadcastInDim S1x128 ![] bcast_S_S1x128 (constant (F := Ideal) S_ .f32 0x47C35000#32)) (ix2 (0 : Fin 1) j)) * Ideal.div s ((broadcastInDim S1x128 ![] bcast_S_S1x128 (constant (F := Ideal) S_ .f32 0x47C35000#32)) (ix2 (0 : Fin 1) j))
      = GineSpec.varSq h j := by
  rw [RowLayers.scalarBroadcast_apply, es, eq]; rfl

/-- The normalising region's entry is the specification's, when the five arrays it reads are the update, its column
    means, its column variances, and the scale and the shift as rows. -/
theorem normedAt_eq_bn {H : S100000x128.Idx → EReal} {M Vr S B : S1x128.Idx → EReal} {h : Fin 100000 → Fin 128 → EReal}
    {g b : S128.Idx → EReal} (n : Fin 100000) (j : Fin 128) (eH : H (ix2 n j) = h n j)
    (eM : M (ix2 (0 : Fin 1) j) = GineSpec.mean h j) (eV : Vr (ix2 (0 : Fin 1) j) = GineSpec.varSq h j)
    (eS : S (ix2 (0 : Fin 1) j) = g (ix1 j)) (eB : B (ix2 (0 : Fin 1) j) = b (ix1 j)) :
    normedAt H M Vr S B n j = GineSpec.bn h (GineSpec.varSq h) g b n j := by
  show max ((H (ix2 n j) - M (ix2 (0 : Fin 1) j)) * Ideal.rsqrt (Vr (ix2 (0 : Fin 1) j) + Ideal.ofBits .f32 0x3727C5AC#32)
      * S (ix2 (0 : Fin 1) j) + B (ix2 (0 : Fin 1) j)) 0 = _
  rw [eH, eM, eV, eS, eB]
  rfl

/-! # The fold read stage by stage -/

section Fold

variable (m : (ℓ : Loc nD τ sig) → Buf (Elt Ideal) ℓ) (ρ : Dev nD → PrngReg)

/-- The nine argument arrays on core `c` at launch: the node features, the edge list, the edge features, the two
    weight matrices with their biases, the scale and the shift. -/
abbrev argX (c : Dev nD) : S100000x128.Idx → EReal := m ((c : Thread nD τ).loc main_arg0)
abbrev argE (c : Dev nD) : IVec S2x1600000 32 := m ((c : Thread nD τ).loc main_arg1)
abbrev argA (c : Dev nD) : S1600000x128.Idx → EReal := m ((c : Thread nD τ).loc main_arg2)
abbrev argW1 (c : Dev nD) : S128x128.Idx → EReal := m ((c : Thread nD τ).loc main_arg3)
abbrev argB1 (c : Dev nD) : S128.Idx → EReal := m ((c : Thread nD τ).loc main_arg4)
abbrev argW2 (c : Dev nD) : S128x128.Idx → EReal := m ((c : Thread nD τ).loc main_arg5)
abbrev argB2 (c : Dev nD) : S128.Idx → EReal := m ((c : Thread nD τ).loc main_arg6)
abbrev argG (c : Dev nD) : S128.Idx → EReal := m ((c : Thread nD τ).loc main_arg7)
abbrev argBt (c : Dev nD) : S128.Idx → EReal := m ((c : Thread nD τ).loc main_arg8)

/-- The aggregated messages of the launch arrays. -/
abbrev aggrK (c : Dev nD) : S100000x128.Idx → EReal := Aggr.aggr (argX m c) (argE m c) (argA m c)
/-- The specification's update of the launch arrays. -/
abbrev hK (c : Dev nD) : Fin 100000 → Fin 128 → EReal :=
  GineSpec.hid (argX m c) (aggrK m c) (argW1 m c) (argB1 m c) (argW2 m c) (argB2 m c)

/-! ## The arguments, where a stage reads them -/

theorem W1_arg0 (c : Dev nD) : W1 m ρ c (Proc.devRef .tc main_arg0) = argX m c := W1_keep m ρ c main_arg0 (by decide)
theorem W2_arg2 (c : Dev nD) : W2 m ρ c (Proc.devRef .tc main_arg2) = argA m c :=
  (W2_keep m ρ c main_arg2 (by decide)).trans (W1_keep m ρ c main_arg2 (by decide))
theorem W3_arg0 (c : Dev nD) : W3 m ρ c (Proc.devRef .tc main_arg0) = argX m c :=
  (W3_of_ne m ρ c main_arg0 (by decide)).trans <| (W2_keep m ρ c main_arg0 (by decide)).trans (W1_keep m ρ c main_arg0 (by decide))
theorem W3_arg3 (c : Dev nD) : W3 m ρ c (Proc.devRef .tc main_arg3) = argW1 m c :=
  (W3_of_ne m ρ c main_arg3 (by decide)).trans <| (W2_keep m ρ c main_arg3 (by decide)).trans (W1_keep m ρ c main_arg3 (by decide))
theorem W3_arg4 (c : Dev nD) : W3 m ρ c (Proc.devRef .tc main_arg4) = argB1 m c :=
  (W3_of_ne m ρ c main_arg4 (by decide)).trans <| (W2_keep m ρ c main_arg4 (by decide)).trans (W1_keep m ρ c main_arg4 (by decide))
theorem W3_arg5 (c : Dev nD) : W3 m ρ c (Proc.devRef .tc main_arg5) = argW2 m c :=
  (W3_of_ne m ρ c main_arg5 (by decide)).trans <| (W2_keep m ρ c main_arg5 (by decide)).trans (W1_keep m ρ c main_arg5 (by decide))
theorem W3_arg6 (c : Dev nD) : W3 m ρ c (Proc.devRef .tc main_arg6) = argB2 m c :=
  (W3_of_ne m ρ c main_arg6 (by decide)).trans <| (W2_keep m ρ c main_arg6 (by decide)).trans (W1_keep m ρ c main_arg6 (by decide))
theorem W5_arg7 (c : Dev nD) : W5 m ρ c (Proc.devRef .tc main_arg7) = argG m c :=
  (W5_of_ne m ρ c main_arg7 (by decide)).trans <| (W4_keep m ρ c main_arg7 (by decide)).trans <|
    (W3_of_ne m ρ c main_arg7 (by decide)).trans <| (W2_keep m ρ c main_arg7 (by decide)).trans (W1_keep m ρ c main_arg7 (by decide))
theorem W5_arg8 (c : Dev nD) : W5 m ρ c (Proc.devRef .tc main_arg8) = argBt m c :=
  (W5_of_ne m ρ c main_arg8 (by decide)).trans <| (W4_keep m ρ c main_arg8 (by decide)).trans <|
    (W3_of_ne m ρ c main_arg8 (by decide)).trans <| (W2_keep m ρ c main_arg8 (by decide)).trans (W1_keep m ρ c main_arg8 (by decide))

/-! ## The edge endpoints and the looked-up source rows -/

theorem W1_v1 (hs : HostStageFacts) (c : Dev nD) : W1 m ρ c (Proc.devRef .tc main_v1) = Aggr.srcOf (argE m c) := hs.v1 (W0 m ρ c)
theorem W1_v3 (hs : HostStageFacts) (c : Dev nD) : W1 m ρ c (Proc.devRef .tc main_v3) = Aggr.dstOf (argE m c) := hs.v3 (W0 m ρ c)
theorem W2_v4 (hs : HostStageFacts) (c : Dev nD) :
    W2 m ρ c (Proc.devRef .tc main_v4) = Aggr.maskedTake (F := Ideal) (argX m c) (Aggr.srcOf (argE m c)) :=
  (hs.v4 (W1 m ρ c)).trans (by rw [W1_arg0 m ρ c, W1_v1 m ρ hs c])

/-! ## The edge messages (region 0) and their sums onto the nodes -/

theorem W3_v5 (hs : HostStageFacts) (c : Dev nD) : W3 m ρ c (Proc.devRef .tc main_v5) = Aggr.msgs (argX m c) (argE m c) (argA m c) := by
  refine (W3_arr m ρ c 2).trans ((final0 (V2 m ρ) c).trans ?_)
  show edgeMsg (W2 m ρ c (Proc.devRef .tc main_v4)) (W2 m ρ c (Proc.devRef .tc main_arg2)) = _
  rw [W2_v4 m ρ hs c, W2_arg2 m ρ c]
theorem W3_v3 (hs : HostStageFacts) (c : Dev nD) : W3 m ρ c (Proc.devRef .tc main_v3) = Aggr.dstOf (argE m c) :=
  (W3_of_ne m ρ c main_v3 (by decide)).trans <| (W2_keep m ρ c main_v3 (by decide)).trans (W1_v3 m ρ hs c)
theorem W4_v8 (hs : HostStageFacts) (c : Dev nD) : W4 m ρ c (Proc.devRef .tc main_v8) = aggrK m c :=
  (hs.v8 (W3 m ρ c)).trans (by rw [W3_v3 m ρ hs c, W3_v5 m ρ hs c]; rfl)

/-! ## The network's operands laid out -/

theorem W4_arg0 (c : Dev nD) : W4 m ρ c (Proc.devRef .tc main_arg0) = argX m c :=
  (W4_keep m ρ c main_arg0 (by decide)).trans (W3_arg0 m ρ c)
theorem W4_v9 (hs : HostStageFacts) (c : Dev nD) :
    W4 m ρ c (Proc.devRef .tc main_v9) = transpose S128x128 [1, 0] (argW1 m c) transposes_S128x128_S128x128_1_0 :=
  (hs.v9 (W3 m ρ c)).trans (by rw [W3_arg3 m ρ c])
theorem W4_v10 (hs : HostStageFacts) (c : Dev nD) :
    W4 m ρ c (Proc.devRef .tc main_v10) = transpose S128x128 [1, 0] (argW2 m c) transposes_S128x128_S128x128_1_0 :=
  (hs.v10 (W3 m ρ c)).trans (by rw [W3_arg5 m ρ c])
theorem W4_v11 (hs : HostStageFacts) (c : Dev nD) :
    W4 m ρ c (Proc.devRef .tc main_v11) = shapeCast S1x128 (argB1 m c) shapeCasts_S128_S1x128 :=
  (hs.v11 (W3 m ρ c)).trans (by rw [W3_arg4 m ρ c])
theorem W4_v12 (hs : HostStageFacts) (c : Dev nD) :
    W4 m ρ c (Proc.devRef .tc main_v12) = shapeCast S1x128 (argB2 m c) shapeCasts_S128_S1x128 :=
  (hs.v12 (W3 m ρ c)).trans (by rw [W3_arg6 m ρ c])

/-! ## The update and its column sums (region 1) -/

/-- The network region's first output array is the specification's update. -/
theorem out6_eq (hs : HostStageFacts) (hr : Region1Facts) (c : Dev nD) (n : Fin 100000) (j : Fin 128) :
    (dat1 (F := Ideal) (V4 m ρ) c).arrAt 6 cfg1.N (ix2 n j) = hK m c n j := by
  refine (hr.out6 (V4 m ρ) c n j).trans ?_
  show hidAt (W4 m ρ c (Proc.devRef .tc main_arg0)) (W4 m ρ c (Proc.devRef .tc main_v8)) (W4 m ρ c (Proc.devRef .tc main_v9)) (W4 m ρ c (Proc.devRef .tc main_v11))
      (W4 m ρ c (Proc.devRef .tc main_v10)) (W4 m ρ c (Proc.devRef .tc main_v12)) n j = _
  rw [W4_arg0 m ρ c, W4_v8 m ρ hs c, W4_v9 m ρ hs c, W4_v11 m ρ hs c, W4_v10 m ρ hs c, W4_v12 m ρ hs c]
  exact hidAt_eq_hid _ _ _ _ _ _ n j
theorem W5_h (hs : HostStageFacts) (hr : Region1Facts) (c : Dev nD) (n : Fin 100000) (j : Fin 128) :
    W5 m ρ c (Proc.devRef .tc main_v13_0) (ix2 n j) = hK m c n j :=
  (congrFun (W5_arr m ρ c 6) (ix2 n j)).trans (out6_eq m ρ hs hr c n j)
theorem W5_sum (hs : HostStageFacts) (hr : Region1Facts) (c : Dev nD) (j : Fin 128) :
    W5 m ρ c (Proc.devRef .tc main_v13_1) (ix2 (0 : Fin 1) j) = GineSpec.colSum (hK m c) j :=
  (congrFun (W5_arr m ρ c 7) (ix2 (0 : Fin 1) j)).trans <| (hr.out7 (V4 m ρ) c j).trans <|
    colSumAt_congr (fun n j => out6_eq m ρ hs hr c n j) j
theorem W5_sumSq (hs : HostStageFacts) (hr : Region1Facts) (c : Dev nD) (j : Fin 128) :
    W5 m ρ c (Proc.devRef .tc main_v13_2) (ix2 (0 : Fin 1) j) = GineSpec.colSumSq (hK m c) j :=
  (congrFun (W5_arr m ρ c 8) (ix2 (0 : Fin 1) j)).trans <| (hr.out8 (V4 m ρ) c j).trans <|
    colSumSqAt_congr (fun n j => out6_eq m ρ hs hr c n j) j

/-! ## The columns' means and variances, the scale and the shift as rows -/

theorem W6_h (hs : HostStageFacts) (hr : Region1Facts) (c : Dev nD) (n : Fin 100000) (j : Fin 128) :
    W6 m ρ c (Proc.devRef .tc main_v13_0) (ix2 n j) = hK m c n j :=
  (congrFun (W6_keep m ρ c main_v13_0 (by decide)) (ix2 n j)).trans (W5_h m ρ hs hr c n j)
theorem W6_mean (hs : HostStageFacts) (hr : Region1Facts) (c : Dev nD) (j : Fin 128) :
    W6 m ρ c (Proc.devRef .tc main_v15) (ix2 (0 : Fin 1) j) = GineSpec.mean (hK m c) j := by
  refine (congrFun (hs.v15 (W5 m ρ c)) (ix2 (0 : Fin 1) j)).trans ?_
  exact mean_of (W5_sum m ρ hs hr c j)
theorem W6_var (hs : HostStageFacts) (hr : Region1Facts) (c : Dev nD) (j : Fin 128) :
    W6 m ρ c (Proc.devRef .tc main_v19) (ix2 (0 : Fin 1) j) = GineSpec.varSq (hK m c) j := by
  refine (congrFun (hs.v19 (W5 m ρ c)) (ix2 (0 : Fin 1) j)).trans ?_
  exact varSq_of (W5_sum m ρ hs hr c j) (W5_sumSq m ρ hs hr c j)
theorem W6_scale (hs : HostStageFacts) (c : Dev nD) (j : Fin 128) :
    W6 m ρ c (Proc.devRef .tc main_v20) (ix2 (0 : Fin 1) j) = argG m c (ix1 j) := by
  refine (congrFun (hs.v20 (W5 m ρ c)) (ix2 (0 : Fin 1) j)).trans ?_
  rw [W5_arg7 m ρ c]
  exact shapeCast_a_1a_apply (argG m c) shapeCasts_S128_S1x128 0 j
theorem W6_shift (hs : HostStageFacts) (c : Dev nD) (j : Fin 128) :
    W6 m ρ c (Proc.devRef .tc main_v21) (ix2 (0 : Fin 1) j) = argBt m c (ix1 j) := by
  refine (congrFun (hs.v21 (W5 m ρ c)) (ix2 (0 : Fin 1) j)).trans ?_
  rw [W5_arg8 m ρ c]
  exact shapeCast_a_1a_apply (argBt m c) shapeCasts_S128_S1x128 0 j

/-! ## The result (region 2) -/

/-- The result buffer at row n and column j. -/
theorem kernel_out_at (hs : HostStageFacts) (hr : Region1Facts) (c : Dev nD) (n : Fin 100000) (j : Fin 128) :
    W7 m ρ c (Proc.devRef .tc main_v22) (ix2 n j)
      = GineSpec.bn (hK m c) (GineSpec.varSq (hK m c)) (argG m c) (argBt m c) n j := by
  refine (congrFun (W7_out m ρ c) (ix2 n j)).trans ((final2 (V6 m ρ) c n j).trans ?_)
  exact normedAt_eq_bn n j (W6_h m ρ hs hr c n j) (W6_mean m ρ hs hr c j) (W6_var m ρ hs hr c j) (W6_scale m ρ hs c j)
    (W6_shift m ρ hs c j)

/-- THE RESULT BUFFER at the last boundary is the specification's function of the launch arrays: the normalised,
    scaled, shifted and clamped update, with the variance as mean of squares less squared mean. -/
theorem kernel_out_of (hs : HostStageFacts) (hr : Region1Facts) (c : Dev nD) :
    W7 m ρ c (Proc.devRef .tc main_v22)
      = GineSpec.ofRows (GineSpec.bn (hK m c) (GineSpec.varSq (hK m c)) (argG m c) (argBt m c)) :=
  funext fun (i : S100000x128.Idx) => by
    obtain ⟨n, j, rfl⟩ : ∃ (n : Fin 100000) (j : Fin 128), i = ix2 n j := ⟨i 0, i 1, eq_ix2 i⟩
    exact (kernel_out_at m ρ hs hr c n j).trans (GineSpec.ofRows_ix2 _ n j).symm

/-- THE KERNEL'S RUN at the exact instance: from any memory with zero counters every weakly fair execution of @main
    terminates, nothing faulting, with the result buffer at the specification's function of the launch arrays and the nine
    argument arrays as launched. -/
theorem kernel_run_of (hs : HostStageFacts) (hr : Region1Facts) :
    θ_run defs (onTc (τ := τ) (main (F := Ideal))) ⟨m, fun _ => 0, ρ⟩ (fun r => ∀ c : Dev nD,
      r.2.mem ((c.tc : Thread nD τ).loc main_v22)
        = GineSpec.ofRows (GineSpec.bn (hK m c) (GineSpec.varSq (hK m c)) (argG m c) (argBt m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_out_of m ρ hs hr c), (h c).2⟩) (run_value m ρ)

/-- The same with the network region's equations discharged: only the host stretches' equations are assumed. -/
theorem kernel_out_of_host (hs : HostStageFacts) (c : Dev nD) :
    W7 m ρ c (Proc.devRef .tc main_v22)
      = GineSpec.ofRows (GineSpec.bn (hK m c) (GineSpec.varSq (hK m c)) (argG m c) (argBt m c)) :=
  kernel_out_of m ρ hs region1Facts c

/-- THE KERNEL'S RUN with every array spelt at the launch memory, the network region's equations discharged. -/
theorem kernel_run_of_host (hs : HostStageFacts) :
    θ_run (defs (F := Ideal)) (onTc (τ := τ) (main (F := Ideal))) ⟨m, fun _ => 0, ρ⟩ (fun r => ∀ c : Dev nD,
      r.2.mem ((c.tc : Thread nD τ).loc main_v22)
        = GineSpec.ofRows (GineSpec.bn
            (GineSpec.hid (m ((c.tc : Thread nD τ).loc main_arg0)) (Aggr.aggr (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)) (m ((c.tc : Thread nD τ).loc main_arg6)))
            (GineSpec.varSq
            (GineSpec.hid (m ((c.tc : Thread nD τ).loc main_arg0)) (Aggr.aggr (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)) (m ((c.tc : Thread nD τ).loc main_arg6))))
            (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  kernel_run_of m ρ hs region1Facts

end Fold

/-! # The kernel's reading, with nothing assumed -/

/-- The host stretches' equations, each read off its stretch's operations. -/
theorem hostStageFacts : HostStageFacts where
  v1 W := hostOps0_v1 W
  v3 W := hostOps0_v3 W
  v4 W := hostOps0_1_v4 W
  v8 W := hostOps1_v8 W
  v9 W := hostOps1_v9 W
  v10 W := hostOps1_v10 W
  v11 W := hostOps1_v11 W
  v12 W := hostOps1_v12 W
  v15 W := hostOps2_v15 W
  v19 W := hostOps2_v19 W
  v20 W := hostOps2_v20 W
  v21 W := hostOps2_v21 W

/-- THE RESULT BUFFER at the last boundary is the specification's function of the launch arrays. -/
theorem kernel_out (m : (ℓ : Loc nD τ sig) → Buf (Elt Ideal) ℓ) (ρ : Dev nD → PrngReg) (c : Dev nD) :
    W7 m ρ c (Proc.devRef .tc main_v22)
      = GineSpec.ofRows (GineSpec.bn (hK m c) (GineSpec.varSq (hK m c)) (argG m c) (argBt m c)) :=
  kernel_out_of_host m ρ hostStageFacts c

/-- THE KERNEL'S RUN at the exact instance: from any memory with zero counters every weakly fair execution of @main
    terminates, nothing faulting; the result buffer then holds the specification's normalised update of the launch
    arrays — the update of the node features and the aggregated messages, normalised per column with the variance as mean
    of squares less squared mean, scaled, shifted and clamped — and the nine argument arrays are as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
        = GineSpec.ofRows (GineSpec.bn
            (GineSpec.hid (m ((c.tc : Thread nD τ).loc main_arg0)) (Aggr.aggr (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)) (m ((c.tc : Thread nD τ).loc main_arg6)))
            (GineSpec.varSq
            (GineSpec.hid (m ((c.tc : Thread nD τ).loc main_arg0)) (Aggr.aggr (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)) (m ((c.tc : Thread nD τ).loc main_arg6))))
            (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  kernel_run_of_host m ρ hostStageFacts

/-- info: 'Cert.KernelIdeal.Hand.kernel_run' depends on axioms: [propext, Classical.choice, Quot.sound] -/
#guard_msgs in #print axioms kernel_run

end Cert.KernelIdeal.Hand

end
-- ==== Proof.RefValue.lean ====
/-
  The reference program's result as one function of its argument arrays.

  At the exact instance the reference computes, at node n and feature j,
    max ((h n j - mean h j) * rsqrt (varDev h j + eps) * γ j + β j) 0,
  where h is the two-layer update of (1·x + a) and a, the aggregated messages, is the program's scatter-add stage, kept
  as a function of the first three arguments. Each stage of the program is read at an index built from its coordinates.
-/
import proofs.«428931_j67113158967915_3_alg».proof.Proof.Gen.ReferenceIdeal.Run
import proofs.«428931_j67113158967915_3_alg».proof.Proof.Gen.ReferenceIdeal.Read
import proofs.«428931_j67113158967915_3_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- A 100000 × 128 array of floats at the exact instance. -/
abbrev AN : Type := (⟨S100000x128, .f32⟩ : BufTy).Contents (Elt Ideal)
/-- The 2 × 1600000 array of edge endpoints. -/
abbrev AE : Type := (⟨S2x1600000, .i32⟩ : BufTy).Contents (Elt Ideal)
/-- The 1600000 × 128 array of edge features. -/
abbrev AM : Type := (⟨S1600000x128, .f32⟩ : BufTy).Contents (Elt Ideal)
/-- A 128 × 128 weight matrix. -/
abbrev AW : Type := (⟨S128x128, .f32⟩ : BufTy).Contents (Elt Ideal)
/-- A vector of 128 floats. -/
abbrev AD : Type := (⟨S128, .f32⟩ : BufTy).Contents (Elt Ideal)

/-- The aggregated messages: the scatter-add stage, as a function of the node features, the edge endpoints and the
    edge features. -/
def aggrR (x0 : AN) (x1 : AE) (x2 : AM) : AN := Read.val_main_v15 (F := Ideal) x0 x1 x2

/-- The update h of the reference, as rows. -/
abbrev hidR (x0 : AN) (x1 : AE) (x2 : AM) (x3 : AW) (x4 : AD) (x5 : AW) (x6 : AD) : Fin 100000 → Fin 128 → EReal :=
  GineSpec.hid x0 (aggrR x0 x1 x2) x3 x4 x5 x6

section Stages

variable (x0 : AN) (x1 : AE) (x2 : AM) (x3 : AW) (x4 : AD) (x5 : AW) (x6 x7 x8 : AD)

/-! ## The first layer -/

/-- The broadcast one. -/
theorem v16_at (i : S100000x128.Idx) : Read.val_main_v16 (F := Ideal) i = 1 := by
  rw [Read.val_main_v16_apply, Read.val_main_cst_1_apply, Ideal.ofBits_def, Ideal.ofBits_one_f32]

/-- The first layer's input at (n, d). -/
theorem v18_at (n : Fin 100000) (d : Fin 128) :
    Read.val_main_v18 (F := Ideal) x0 x1 x2 (ix2 n d) = GineSpec.pre0 x0 (aggrR x0 x1 x2) n d := by
  rw [Read.val_main_v18_apply, Read.val_main_v17_apply, v16_at]
  rfl

/-- The transposed first weight matrix at (d, k). -/
theorem v19_at (d k : Fin 128) : Read.val_main_v19 (F := Ideal) x3 (ix2 d k) = x3 (ix2 k d) := by
  rw [Read.val_main_v19_apply]
  refine congrArg x3 (funext fun c => ?_)
  match c with
  | ⟨0, _⟩ => rfl
  | ⟨1, _⟩ => rfl

/-- The first product at (n, k). -/
theorem v20_at (n : Fin 100000) (k : Fin 128) :
    Read.val_main_v20 (F := Ideal) x0 x1 x2 x3 (ix2 n k)
      = ∑ d : Fin 128, GineSpec.pre0 x0 (aggrR x0 x1 x2) n d * x3 (ix2 k d) := by
  rw [Read.val_main_v20_apply]
  refine Finset.sum_congr rfl fun d _ => ?_
  have hl : Read.lidx_main_v20 (ix2 n k) d = ix2 n d := funext fun c => by
    match c with
    | ⟨0, _⟩ => rfl
    | ⟨1, _⟩ => rfl
  have hr : Read.ridx_main_v20 (ix2 n k) d = ix2 d k := funext fun c => by
    match c with
    | ⟨0, _⟩ => rfl
    | ⟨1, _⟩ => rfl
  rw [hl, hr, v18_at, v19_at]

/-- The first bias at (n, k). -/
theorem v22_at (n : Fin 100000) (k : Fin 128) : Read.val_main_v22 (F := Ideal) x4 (ix2 n k) = x4 (ix1 k) := by
  rw [Read.val_main_v22_apply, Read.val_main_v21_apply]
  refine congrArg x4 (funext fun c => ?_)
  match c with
  | ⟨0, _⟩ => rfl

/-- The zero the first clamp compares with. -/
theorem call1_v0_at (i : S100000x128.Idx) : Read.val_main_call1_v0 (F := Ideal) i = 0 := by
  rw [Read.val_main_call1_v0_apply, Read.val_main_call1_cst_apply, Ideal.ofBits_def, Ideal.ofBits_zero_f32]

/-- The first layer, clamped, at (n, k). -/
theorem v24_at (n : Fin 100000) (k : Fin 128) :
    Read.val_main_v24 (F := Ideal) x0 x1 x2 x3 x4 (ix2 n k) = GineSpec.lay1 x0 (aggrR x0 x1 x2) x3 x4 n k := by
  rw [Read.val_main_v24_apply, Read.val_main_v23_apply, v20_at, v22_at, call1_v0_at]
  rfl

/-! ## The second layer -/

/-- The transposed second weight matrix at (k, j). -/
theorem v25_at (k j : Fin 128) : Read.val_main_v25 (F := Ideal) x5 (ix2 k j) = x5 (ix2 j k) := by
  rw [Read.val_main_v25_apply]
  refine congrArg x5 (funext fun c => ?_)
  match c with
  | ⟨0, _⟩ => rfl
  | ⟨1, _⟩ => rfl

/-- The second product at (n, j). -/
theorem v26_at (n : Fin 100000) (j : Fin 128) :
    Read.val_main_v26 (F := Ideal) x0 x1 x2 x3 x4 x5 (ix2 n j)
      = ∑ k : Fin 128, GineSpec.lay1 x0 (aggrR x0 x1 x2) x3 x4 n k * x5 (ix2 j k) := by
  rw [Read.val_main_v26_apply]
  refine Finset.sum_congr rfl fun k _ => ?_
  have hl : Read.lidx_main_v26 (ix2 n j) k = ix2 n k := funext fun c => by
    match c with
    | ⟨0, _⟩ => rfl
    | ⟨1, _⟩ => rfl
  have hr : Read.ridx_main_v26 (ix2 n j) k = ix2 k j := funext fun c => by
    match c with
    | ⟨0, _⟩ => rfl
    | ⟨1, _⟩ => rfl
  rw [hl, hr, v24_at, v25_at]

/-- The second bias at (n, j). -/
theorem v28_at (n : Fin 100000) (j : Fin 128) : Read.val_main_v28 (F := Ideal) x6 (ix2 n j) = x6 (ix1 j) := by
  rw [Read.val_main_v28_apply, Read.val_main_v27_apply]
  refine congrArg x6 (funext fun c => ?_)
  match c with
  | ⟨0, _⟩ => rfl

/-- The update h at (n, j). -/
theorem v29_at (n : Fin 100000) (j : Fin 128) :
    Read.val_main_v29 (F := Ideal) x0 x1 x2 x3 x4 x5 x6 (ix2 n j) = hidR x0 x1 x2 x3 x4 x5 x6 n j := by
  rw [Read.val_main_v29_apply, v26_at, v28_at]
  rfl

/-! ## The column statistics -/

/-- The node count broadcast over the columns. -/
theorem v31_at (i : S128.Idx) : Read.val_main_v31 (F := Ideal) i = GineSpec.cN := by
  rw [Read.val_main_v31_apply, Read.val_main_cst_3_apply]
  rfl

/-- The column mean at j. -/
theorem v32_at (j : Fin 128) :
    Read.val_main_v32 (F := Ideal) x0 x1 x2 x3 x4 x5 x6 (ix1 j) = GineSpec.mean (hidR x0 x1 x2 x3 x4 x5 x6) j := by
  rw [Read.val_main_v32_apply, Read.val_main_v30_apply, v31_at, Read.val_main_cst_2_apply, Ideal.ofBits_def,
    Ideal.ofBits_zero_f32, zero_add]
  show Ideal.div _ _ = Ideal.div _ _
  refine congrArg (Ideal.div · GineSpec.cN) (Finset.sum_congr rfl fun n _ => ?_)
  have hi : Read.idx_main_v30 (ix1 j) n = ix2 n j := funext fun c => by
    match c with
    | ⟨0, _⟩ => rfl
    | ⟨1, _⟩ => rfl
  rw [hi, v29_at]

/-- The column mean broadcast down the rows, first copy. -/
theorem v34_at (n : Fin 100000) (j : Fin 128) :
    Read.val_main_v34 (F := Ideal) x0 x1 x2 x3 x4 x5 x6 (ix2 n j) = GineSpec.mean (hidR x0 x1 x2 x3 x4 x5 x6) j := by
  rw [Read.val_main_v34_apply, Read.val_main_v33_apply, ← v32_at]
  refine congrArg (Read.val_main_v32 (F := Ideal) x0 x1 x2 x3 x4 x5 x6) (funext fun c => ?_)
  match c with
  | ⟨0, _⟩ => rfl

/-- The column mean broadcast down the rows, second copy. -/
theorem v41_at (n : Fin 100000) (j : Fin 128) :
    Read.val_main_v41 (F := Ideal) x0 x1 x2 x3 x4 x5 x6 (ix2 n j) = GineSpec.mean (hidR x0 x1 x2 x3 x4 x5 x6) j := by
  rw [Read.val_main_v41_apply, Read.val_main_v40_apply, ← v32_at]
  refine congrArg (Read.val_main_v32 (F := Ideal) x0 x1 x2 x3 x4 x5 x6) (funext fun c => ?_)
  match c with
  | ⟨0, _⟩ => rfl

/-- The squared deviation at (n, j). -/
theorem v36_at (n : Fin 100000) (j : Fin 128) :
    Read.val_main_v36 (F := Ideal) x0 x1 x2 x3 x4 x5 x6 (ix2 n j)
      = (hidR x0 x1 x2 x3 x4 x5 x6 n j - GineSpec.mean (hidR x0 x1 x2 x3 x4 x5 x6) j)
        * (hidR x0 x1 x2 x3 x4 x5 x6 n j - GineSpec.mean (hidR x0 x1 x2 x3 x4 x5 x6) j) := by
  rw [Read.val_main_v36_apply, Read.val_main_v35_apply, v29_at, v34_at]
  rfl

/-- The node count broadcast over the columns, second copy. -/
theorem v38_at (i : S128.Idx) : Read.val_main_v38 (F := Ideal) i = GineSpec.cN := by
  rw [Read.val_main_v38_apply, Read.val_main_cst_5_apply]
  rfl

/-- The column variance, as the mean of squared deviations, at j. -/
theorem v39_at (j : Fin 128) :
    Read.val_main_v39 (F := Ideal) x0 x1 x2 x3 x4 x5 x6 (ix1 j) = GineSpec.varDev (hidR x0 x1 x2 x3 x4 x5 x6) j := by
  rw [Read.val_main_v39_apply, Read.val_main_v37_apply, v38_at, Read.val_main_cst_4_apply, Ideal.ofBits_def,
    Ideal.ofBits_zero_f32, zero_add]
  show Ideal.div _ _ = Ideal.div _ _
  refine congrArg (Ideal.div · GineSpec.cN) (Finset.sum_congr rfl fun n _ => ?_)
  have hi : Read.idx_main_v37 (ix1 j) n = ix2 n j := funext fun c => by
    match c with
    | ⟨0, _⟩ => rfl
    | ⟨1, _⟩ => rfl
  rw [hi, v36_at]

/-- The variance floor broadcast over the columns. -/
theorem v43_at (i : S128.Idx) : Read.val_main_v43 (F := Ideal) i = GineSpec.eps := by
  rw [Read.val_main_v43_apply, Read.val_main_cst_6_apply]
  rfl

/-- The reciprocal square root of the floored variance at j. -/
theorem v45_at (j : Fin 128) :
    Read.val_main_v45 (F := Ideal) x0 x1 x2 x3 x4 x5 x6 (ix1 j)
      = Ideal.rsqrt (GineSpec.varDev (hidR x0 x1 x2 x3 x4 x5 x6) j + GineSpec.eps) := by
  rw [Read.val_main_v45_apply, Read.val_main_v44_apply, v39_at, v43_at]
  rfl

/-- The same broadcast down the rows. -/
theorem v47_at (n : Fin 100000) (j : Fin 128) :
    Read.val_main_v47 (F := Ideal) x0 x1 x2 x3 x4 x5 x6 (ix2 n j)
      = Ideal.rsqrt (GineSpec.varDev (hidR x0 x1 x2 x3 x4 x5 x6) j + GineSpec.eps) := by
  rw [Read.val_main_v47_apply, Read.val_main_v46_apply, ← v45_at]
  refine congrArg (Read.val_main_v45 (F := Ideal) x0 x1 x2 x3 x4 x5 x6) (funext fun c => ?_)
  match c with
  | ⟨0, _⟩ => rfl

/-! ## The normalised output -/

/-- The scale at (n, j). -/
theorem v50_at (n : Fin 100000) (j : Fin 128) : Read.val_main_v50 (F := Ideal) x7 (ix2 n j) = x7 (ix1 j) := by
  rw [Read.val_main_v50_apply, Read.val_main_v49_apply]
  refine congrArg x7 (funext fun c => ?_)
  match c with
  | ⟨0, _⟩ => rfl

/-- The shift at (n, j). -/
theorem v53_at (n : Fin 100000) (j : Fin 128) : Read.val_main_v53 (F := Ideal) x8 (ix2 n j) = x8 (ix1 j) := by
  rw [Read.val_main_v53_apply, Read.val_main_v52_apply]
  refine congrArg x8 (funext fun c => ?_)
  match c with
  | ⟨0, _⟩ => rfl

/-- The zero the last clamp compares with. -/
theorem call2_v0_at (i : S100000x128.Idx) : Read.val_main_call2_v0 (F := Ideal) i = 0 := by
  rw [Read.val_main_call2_v0_apply, Read.val_main_call2_cst_apply, Ideal.ofBits_def, Ideal.ofBits_zero_f32]

/-- The result at (n, j). -/
theorem v55_at (n : Fin 100000) (j : Fin 128) :
    Read.val_main_v55 (F := Ideal) x0 x1 x2 x3 x4 x5 x6 x7 x8 (ix2 n j)
      = GineSpec.bn (hidR x0 x1 x2 x3 x4 x5 x6) (GineSpec.varDev (hidR x0 x1 x2 x3 x4 x5 x6)) x7 x8 n j := by
  rw [Read.val_main_v55_apply, Read.val_main_v54_apply, Read.val_main_v51_apply, Read.val_main_v48_apply,
    Read.val_main_v42_apply, v29_at, v41_at, v47_at, v50_at, v53_at, call2_v0_at]
  rfl

end Stages

/-- The reference program's result is the network of the specification, with the program's own aggregation stage as the
    aggregated messages and the variance as the mean of squared deviations. -/
theorem ref_out (x0 : AN) (x1 : AE) (x2 : AM) (x3 : AW) (x4 : AD) (x5 : AW) (x6 x7 x8 : AD) :
    Read.val_main_v55 (F := Ideal) x0 x1 x2 x3 x4 x5 x6 x7 x8
      = GineSpec.ofRows (GineSpec.bn (GineSpec.hid x0 (aggrR x0 x1 x2) x3 x4 x5 x6)
          (GineSpec.varDev (GineSpec.hid x0 (aggrR x0 x1 x2) x3 x4 x5 x6)) x7 x8) := by
  funext i
  obtain ⟨n, j, rfl⟩ : ∃ (n : Fin 100000) (j : Fin 128), i = ix2 n j := ⟨i 0, i 1, eq_ix2 i⟩
  rw [v55_at, GineSpec.ofRows_ix2]

/-! ## The run -/

/-- The specification's network of the launch contents of the nine arguments on device c. -/
abbrev outOf (m : (ℓ : Loc nD τ sig) → Buf (Elt Ideal) ℓ) (c : Dev nD) : AN :=
  GineSpec.ofRows (GineSpec.bn
    (GineSpec.hid (m ((c.tc : Thread nD τ).loc main_arg0))
      (aggrR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))
      (m ((c.tc : Thread nD τ).loc main_arg5)) (m ((c.tc : Thread nD τ).loc main_arg6)))
    (GineSpec.varDev (GineSpec.hid (m ((c.tc : Thread nD τ).loc main_arg0))
      (aggrR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))
      (m ((c.tc : Thread nD τ).loc main_arg5)) (m ((c.tc : Thread nD τ).loc main_arg6))))
    (m ((c.tc : Thread nD τ).loc main_arg7)) (m ((c.tc : Thread nD τ).loc main_arg8)))

/-- On every device, from any memory with zero counters, every weakly fair execution of the reference terminates with
    the result buffer at the specification's network of the arguments' launch contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((Read.val_main_v55_eq (F := Ideal) m c).trans (ref_out _ _ _ _ _ _ _ _ _)), (h c).2⟩)
    (Cert.ReferenceIdeal.Value.run (F := Ideal) m ρ)

end Cert.ReferenceIdeal.RefValue

end
-- ==== Proof.RefAggr.lean ====
/-
  The reference's aggregated messages opened one level.

  The aggregation stage is a scatter that adds, into an array of zeros, the rows of the message array at the rows
  named by the edges' destination endpoints. The message at edge e and feature d is the larger of zero and the sum of
  the source node's feature (a gather at the edges' source endpoints, negative endpoints wrapped by the node count) and
  the edge's feature. With real node and edge features every aggregated entry is real; so is every entry of the update,
  and the two expressions of the column variance agree on it.
-/
import proofs.«428931_j67113158967915_3_alg».proof.Proof.RefValue
import proofs.«428931_j67113158967915_3_alg».proof.Proof.Algebra

noncomputable section

open scoped BigOperators

namespace Cert.ReferenceIdeal.RefAggr

open Cert.ReferenceIdeal Cert.ReferenceIdeal.Gen Cert.ReferenceIdeal.RefValue Idealize.ShloMosaic Idealize.ShloMosaic.TcCoe
  Idealize.SL.Sem Idealize.ShloMosaic.StableHlo Idealize.ShloMosaic.ValueIdx

/-- The edges' source endpoints as a vector: row 0 of the endpoint array. -/
abbrev srcRow (x1 : AE) : (⟨S1600000, .i32⟩ : BufTy).Contents (Elt Ideal) :=
  shapeCast S1600000 (extractStridedSlice S1x1600000 ![0, 0] x1 slices_S2x1600000_S1x1600000_0_0) shapeCasts_S1x1600000_S1600000

/-- The edges' destination endpoints as a vector: row 1 of the endpoint array. -/
abbrev dstRow (x1 : AE) : (⟨S1600000, .i32⟩ : BufTy).Contents (Elt Ideal) :=
  shapeCast S1600000 (extractStridedSlice S1x1600000 ![1, 0] x1 slices_S2x1600000_S1x1600000_1_0) shapeCasts_S1x1600000_S1600000

/-! ## The three operands of the scatter -/

/-- The array the scatter adds into is zero everywhere. -/
theorem v13_at (i : S100000x128.Idx) : Read.val_main_v13 (F := Ideal) i = 0 := by
  rw [Read.val_main_v13_apply, Read.val_main_cst_apply, Ideal.ofBits_def, Ideal.ofBits_zero_f32]

/-- The scatter's indices: the destination endpoints as a column. -/
theorem v14_eq (x1 : AE) :
    Read.val_main_v14 (F := Ideal) x1 = broadcastInDim S1600000x1 ![0] bcast_S1600000_S1600000x1_0 (dstRow x1) := rfl

/-- The gather's indices: the source endpoints, a negative one wrapped by the node count, as a column. -/
theorem v9_eq (x1 : AE) :
    Read.val_main_v9 (F := Ideal) x1
      = broadcastInDim S1600000x1 ![0] bcast_S1600000_S1600000x1_0
          (select (cmpi .slt (srcRow x1) (broadcastInDim S1600000 ![] bcast_S_S1600000 (constantI S_ 32 0#32)))
            (addi (srcRow x1) (broadcastInDim S1600000 ![] bcast_S_S1600000 (constantI S_ 32 100000#32)))
            (srcRow x1)) := rfl

/-- The message at an index: the gathered node feature plus the edge feature, clamped at zero from below. -/
theorem msgR_apply (x0 : AN) (x1 : AE) (x2 : AM) (i : S1600000x128.Idx) :
    Read.val_main_v12 (F := Ideal) x0 x1 x2 i
      = max (Host.gather gather_S100000x128_S1600000x1_S1600000x128_1_0_n_n_0_1_1128 x0 (Read.val_main_v9 (F := Ideal) x1) i
          + x2 i) 0 := by
  rw [Read.val_main_v12_apply, Read.val_main_v11_apply, Read.val_main_call0_v0_apply, Read.val_main_call0_cst_apply,
    Ideal.ofBits_def, Ideal.ofBits_zero_f32]
  rfl

/-- The aggregated messages are the scatter-add of the messages at the destination endpoints into zeros. -/
theorem aggrR_unfold (x0 : AN) (x1 : AE) (x2 : AM) :
    aggrR x0 x1 x2
      = Host.scatterAdd (F := Ideal) (φ := .f32) scatter_S100000x128_S1600000x1_S1600000x128_1_0_0_1 (Read.val_main_v13 (F := Ideal))
          (Read.val_main_v14 (F := Ideal) x1) (Read.val_main_v12 (F := Ideal) x0 x1 x2) := rfl

/-- At the exact instance that scatter is the array of zeros plus, at each index, the sum of the messages that land on
    it. -/
theorem aggrR_ideal (x0 : AN) (x1 : AE) (x2 : AM) :
    aggrR x0 x1 x2
      = Ideal.hostScatterAdd scatter_S100000x128_S1600000x1_S1600000x128_1_0_0_1 (Read.val_main_v13 (F := Ideal))
          (Read.val_main_v14 (F := Ideal) x1) (Read.val_main_v12 (F := Ideal) x0 x1 x2) := rfl

/-- The aggregated message at an index: the sum of the messages whose destination lands on it. -/
theorem aggrR_apply (x0 : AN) (x1 : AE) (x2 : AM) (i : S100000x128.Idx) :
    aggrR x0 x1 x2 i
      = ∑ e ∈ Finset.univ.filter (fun e => scatter_S100000x128_S1600000x1_S1600000x128_1_0_0_1.resultIdx? e
            (Read.val_main_v14 (F := Ideal) x1) = some i),
          Read.val_main_v12 (F := Ideal) x0 x1 x2 e := by
  rw [aggrR_ideal]
  unfold Ideal.hostScatterAdd
  rw [v13_at, zero_add]

/-! ## Real arguments give real values -/

/-- With real node and edge features every aggregated message is real. -/
theorem aggrR_real (x0 : AN) (x1 : AE) (x2 : AM) (h0 : ∀ i, GineSpec.real (x0 i)) (h2 : ∀ i, GineSpec.real (x2 i)) :
    ∀ i, GineSpec.real (aggrR x0 x1 x2 i) := by
  rw [aggrR_ideal]
  refine GineSpec.hostScatterAdd_real _ _ _ _ (fun i => ?_) (fun e => ?_)
  · rw [v13_at]; exact GineSpec.real_zero
  · rw [msgR_apply]
    exact GineSpec.reluAdd_real
      (Host.gather gather_S100000x128_S1600000x1_S1600000x128_1_0_n_n_0_1_1128 x0 (Read.val_main_v9 (F := Ideal) x1)) x2
      (fun e => h0 _) h2 e

/-- With real float arguments every entry of the update is real. -/
theorem hidR_real (x0 : AN) (x1 : AE) (x2 : AM) (x3 : AW) (x4 : AD) (x5 : AW) (x6 : AD)
    (h0 : ∀ i, GineSpec.real (x0 i)) (h2 : ∀ i, GineSpec.real (x2 i)) (h3 : ∀ i, GineSpec.real (x3 i))
    (h4 : ∀ i, GineSpec.real (x4 i)) (h5 : ∀ i, GineSpec.real (x5 i)) (h6 : ∀ i, GineSpec.real (x6 i))
    (n : Fin 100000) (j : Fin 128) : GineSpec.real (hidR x0 x1 x2 x3 x4 x5 x6 n j) :=
  GineSpec.hid_real x0 (aggrR x0 x1 x2) x3 x4 x5 x6 h0 (aggrR_real x0 x1 x2 h0 h2) h3 h4 h5 h6 n j

/-- On the update of real arguments the mean of squared deviations is the mean of squares minus the squared mean. -/
theorem ref_var (x0 : AN) (x1 : AE) (x2 : AM) (x3 : AW) (x4 : AD) (x5 : AW) (x6 : AD)
    (h0 : ∀ i, GineSpec.real (x0 i)) (h2 : ∀ i, GineSpec.real (x2 i)) (h3 : ∀ i, GineSpec.real (x3 i))
    (h4 : ∀ i, GineSpec.real (x4 i)) (h5 : ∀ i, GineSpec.real (x5 i)) (h6 : ∀ i, GineSpec.real (x6 i)) :
    GineSpec.varDev (hidR x0 x1 x2 x3 x4 x5 x6) = GineSpec.varSq (hidR x0 x1 x2 x3 x4 x5 x6) := by
  funext j
  exact (GineSpec.varSq_eq_varDev _ (fun n j => hidR_real x0 x1 x2 x3 x4 x5 x6 h0 h2 h3 h4 h5 h6 n j) j).symm

/-- So, on real arguments, the reference's result is the network with the variance written as the mean of squares minus
    the squared mean. -/
theorem ref_out_sq (x0 : AN) (x1 : AE) (x2 : AM) (x3 : AW) (x4 : AD) (x5 : AW) (x6 x7 x8 : AD)
    (h0 : ∀ i, GineSpec.real (x0 i)) (h2 : ∀ i, GineSpec.real (x2 i)) (h3 : ∀ i, GineSpec.real (x3 i))
    (h4 : ∀ i, GineSpec.real (x4 i)) (h5 : ∀ i, GineSpec.real (x5 i)) (h6 : ∀ i, GineSpec.real (x6 i)) :
    Read.val_main_v55 (F := Ideal) x0 x1 x2 x3 x4 x5 x6 x7 x8
      = GineSpec.ofRows (GineSpec.bn (hidR x0 x1 x2 x3 x4 x5 x6) (GineSpec.varSq (hidR x0 x1 x2 x3 x4 x5 x6)) x7 x8) := by
  rw [← ref_var x0 x1 x2 x3 x4 x5 x6 h0 h2 h3 h4 h5 h6]
  exact ref_out x0 x1 x2 x3 x4 x5 x6 x7 x8

end Cert.ReferenceIdeal.RefAggr

end
-- ==== Proof.PreFacts.lean ====
/-
  The finiteness precondition, decoded.

  The precondition is a conjunction of ten tests, each a test of every element of an array reduced by "and": for the
  eight float arrays the test is |x| < +∞, and for row 0 of the index array the two tests are -100000 ≤ w and w < 100000,
  read signed. When the conjunction is 1, every float entry is a real number and every index in row 0 lies in
  [-100000, 100000).
-/
import proofs.«428931_j67113158967915_3_alg».proof.Pre_finite_inputs
import Idealize.ShloMosaic.PureOps.Ideal
import Idealize.ShloMosaic.Lib.ReduceAll
import Idealize.ShloMosaic.Lib.ValueIdx
import Idealize.ShloMosaic.Lib.Pipeline.Value
import Idealize.ShloMosaic.Lib.StableHlo.Predicate

noncomputable section

namespace Cert.PreFacts

open Idealize.ShloMosaic Idealize.ShloMosaic.ValueIdx Cert.Pre_finite_inputs

variable [Facts]
open Facts

/-- The shape with no axes has one index. -/
instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern of +∞ denotes ⊤. -/
theorem ofBits_inf : Ideal.ofBits .f32 0x7F800000#32 = ⊤ := by simp [Ideal.ofBits, Ideal.ieee]

/-- The element test |x| < +∞ being 1 says x is a real number. -/
theorem real_of_test (x : EReal) (h : Ideal.cmp .olt (max x (-x)) (Ideal.ofBits .f32 0x7F800000#32) = 1#1) :
    ∃ r : ℝ, x = (r : EReal) := by
  rw [ofBits_inf] at h
  have h' : BitVec.ofBool (decide (max x (-x) < ⊤)) = 1#1 := h
  exact real_of_abs_lt_top x (of_decide_eq_true ((StableHlo.Predicate.ofBool_eq_one_iff _).1 h'))

/-- An array all of whose elements pass the test |x| < +∞ has only real entries. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = (r : EReal) :=
  real_of_test (a i) (Host.reduce_andi_all _ _ hr hu ix0 h i)

/-- Row 0 of the index array, cast to a vector, reads at e the array at (0, e). -/
theorem row0_apply (a1 : IVec S2x1600000 32) (e : Fin 1600000) :
    shapeCast S1600000 (extractStridedSlice S1x1600000 ![0, 0] a1 slices_S2x1600000_S1x1600000_0_0)
        shapeCasts_S1x1600000_S1600000 (ix1 e) = a1 (ix2 (0 : Fin 2) e) := by
  refine (shapeCast_apply _ shapeCasts_S1x1600000_S1600000 (ix1 e) (ix2 (0 : Fin 1) e) ?_).trans
    (extractStridedSlice_apply _ a1 slices_S2x1600000_S1x1600000_0_0 (ix2 (0 : Fin 1) e) (ix2 (0 : Fin 2) e) fun a => ?_)
  · rw [Shape.rowMajor_val_two, Shape.rowMajor_val_one]
    show 0 * 1600000 + e.val = e.val
    omega
  · match a with
    | ⟨0, _⟩ => show (0 : ℕ) = 0 + 0; rfl
    | ⟨1, _⟩ => show e.val = 0 + e.val; omega

/-- The word -100000 read signed. -/
theorem toInt_lo : (4294867296#32 : BitVec 32).toInt = -100000 := by decide

/-- The word 100000 read signed. -/
theorem toInt_hi : (100000#32 : BitVec 32).toInt = 100000 := by decide

/-- THE PRECONDITION DECODED: every entry of the eight float arrays is a real number, and every index in row 0 of
    the index array lies in [-100000, 100000), read signed. -/
theorem decode (a0 : FVec Ideal S100000x128 .f32) (a1 : IVec S2x1600000 32) (a2 : FVec Ideal S1600000x128 .f32)
    (a3 : FVec Ideal S128x128 .f32) (a4 : FVec Ideal S128 .f32) (a5 : FVec Ideal S128x128 .f32)
    (a6 a7 a8 : FVec Ideal S128 .f32)
    (h : fn (F := Ideal) a0 a1 a2 a3 a4 a5 a6 a7 a8 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal))
      ∧ ∀ e : Fin 1600000, (-100000 : ℤ) ≤ (a1 (ix2 (0 : Fin 2) e)).toInt ∧ (a1 (ix2 (0 : Fin 2) e)).toInt < 100000 := by
  have e := congrFun h ix0
  dsimp only [fn, fn_part1, fn_part2, andi] at e
  simp only [IntOp.andi_eq_one] at e
  obtain ⟨⟨⟨⟨⟨⟨⟨⟨⟨h0, h2⟩, h3⟩, h4⟩, h5⟩, h6⟩, h7⟩, h8⟩, hge⟩, hlt⟩ := e
  refine ⟨all_real a0 _ _ _ h0, all_real a2 _ _ _ h2, all_real a3 _ _ _ h3, all_real a4 _ _ _ h4,
    all_real a5 _ _ _ h5, all_real a6 _ _ _ h6, all_real a7 _ _ _ h7, all_real a8 _ _ _ h8, fun e => ⟨?_, ?_⟩⟩
  · have hc := Host.reduce_andi_all _ _ _ _ ix0 hge (ix1 e)
    have hc' : IntOp.cmpi .sge
        (shapeCast S1600000 (extractStridedSlice S1x1600000 ![0, 0] a1 slices_S2x1600000_S1x1600000_0_0)
          shapeCasts_S1x1600000_S1600000 (ix1 e)) (4294867296#32) = 1#1 := hc
    rw [row0_apply, IntOp.cmpi_sge, toInt_lo] at hc'
    exact hc'
  · have hc := Host.reduce_andi_all _ _ _ _ ix0 hlt (ix1 e)
    have hc' : IntOp.cmpi .slt
        (shapeCast S1600000 (extractStridedSlice S1x1600000 ![0, 0] a1 slices_S2x1600000_S1x1600000_0_0)
          shapeCasts_S1x1600000_S1600000 (ix1 e)) (100000#32) = 1#1 := hc
    rw [row0_apply, IntOp.cmpi_slt, toInt_hi] at hc'
    exact hc'

section Parts

variable (a0 : FVec Ideal S100000x128 .f32) (a1 : IVec S2x1600000 32) (a2 : FVec Ideal S1600000x128 .f32)
  (a3 : FVec Ideal S128x128 .f32) (a4 : FVec Ideal S128 .f32) (a5 : FVec Ideal S128x128 .f32)
  (a6 a7 a8 : FVec Ideal S128 .f32) (h : fn (F := Ideal) a0 a1 a2 a3 a4 a5 a6 a7 a8 = fun _ => 1#1)

include h

theorem real_a0 : ∀ i, ∃ r : ℝ, a0 i = (r : EReal) := (decode a0 a1 a2 a3 a4 a5 a6 a7 a8 h).1
theorem real_a2 : ∀ i, ∃ r : ℝ, a2 i = (r : EReal) := (decode a0 a1 a2 a3 a4 a5 a6 a7 a8 h).2.1
theorem real_a3 : ∀ i, ∃ r : ℝ, a3 i = (r : EReal) := (decode a0 a1 a2 a3 a4 a5 a6 a7 a8 h).2.2.1
theorem real_a4 : ∀ i, ∃ r : ℝ, a4 i = (r : EReal) := (decode a0 a1 a2 a3 a4 a5 a6 a7 a8 h).2.2.2.1
theorem real_a5 : ∀ i, ∃ r : ℝ, a5 i = (r : EReal) := (decode a0 a1 a2 a3 a4 a5 a6 a7 a8 h).2.2.2.2.1
theorem real_a6 : ∀ i, ∃ r : ℝ, a6 i = (r : EReal) := (decode a0 a1 a2 a3 a4 a5 a6 a7 a8 h).2.2.2.2.2.1
theorem real_a7 : ∀ i, ∃ r : ℝ, a7 i = (r : EReal) := (decode a0 a1 a2 a3 a4 a5 a6 a7 a8 h).2.2.2.2.2.2.1
theorem real_a8 : ∀ i, ∃ r : ℝ, a8 i = (r : EReal) := (decode a0 a1 a2 a3 a4 a5 a6 a7 a8 h).2.2.2.2.2.2.2.1
theorem idx_range : ∀ e : Fin 1600000,
    (-100000 : ℤ) ≤ (a1 (ix2 (0 : Fin 2) e)).toInt ∧ (a1 (ix2 (0 : Fin 2) e)).toInt < 100000 :=
  (decode a0 a1 a2 a3 a4 a5 a6 a7 a8 h).2.2.2.2.2.2.2.2

end Parts

end Cert.PreFacts

end
-- ==== Proof.Bridge.lean ====
/-
  The two programs' values joined under the precondition, at the exact instance (floats read as extended reals).

  Both programs aggregate, at every node, the messages of the edges that end there: the message of an edge is the
  larger of zero and the sum of its source node's feature row and its own feature row, and a negative source position is
  first wrapped by adding the number of nodes. The kernel program looks the source rows up through a mask that replaces
  a row by a fill value where the wrapped position falls outside the table; when every source position p satisfies
  -100000 ≤ p < 100000 nothing is replaced, and the two aggregations are one scatter-add of equal operands. The two
  programs also write the variance of a column differently: as the mean of squares minus the squared mean, and as the mean
  of squared deviations. On real entries the two agree, and with real arguments every entry of the update is real.
-/
import proofs.«428931_j67113158967915_3_alg».proof.Proof.Gen.KernelIdeal
import proofs.«428931_j67113158967915_3_alg».proof.Proof.Gen.Pre_finite_inputs
import proofs.«428931_j67113158967915_3_alg».proof.Proof.AggrDef
import proofs.«428931_j67113158967915_3_alg».proof.Proof.RefValue
import proofs.«428931_j67113158967915_3_alg».proof.Proof.RefAggr
import proofs.«428931_j67113158967915_3_alg».proof.Proof.PreFacts
import proofs.«428931_j67113158967915_3_alg».proof.Proof.Algebra
import proofs.«428931_j67113158967915_3_alg».proof.Proof.Spec

noncomputable section

open scoped BigOperators

namespace Cert.Bridge

open Cert.KernelIdeal Idealize.ShloMosaic Idealize.ShloMosaic.ValueIdx
open Cert.ReferenceIdeal.RefValue (aggrR)

/-! ## The two aggregations agree when every source position is in range -/

/-- Row 0 of the edge list, read as a vector, has every position in range when the array has. -/
theorem src_in_range (x1 : IVec S2x1600000 32)
    (hr : ∀ e : Fin 1600000, (-100000 : ℤ) ≤ (x1 (ix2 (0 : Fin 2) e)).toInt ∧ (x1 (ix2 (0 : Fin 2) e)).toInt < 100000)
    (e : Fin 1600000) : (-100000 : ℤ) ≤ (Aggr.srcOf x1 (ix1 e)).toInt ∧ (Aggr.srcOf x1 (ix1 e)).toInt < 100000 := by
  have he : Aggr.srcOf x1 (ix1 e) = x1 (ix2 (0 : Fin 2) e) := Cert.PreFacts.row0_apply x1 e
  rw [he]; exact hr e

/-- The messages the kernel program adds up are, with every source position in range, the reference's: the masked
    lookup is then the plain lookup at the wrapped positions, which is the reference's gather. -/
theorem msg_eq (x0 : FVec Ideal S100000x128 .f32) (x1 : IVec S2x1600000 32) (x2 : FVec Ideal S1600000x128 .f32)
    (hr : ∀ e : Fin 1600000, (-100000 : ℤ) ≤ (x1 (ix2 (0 : Fin 2) e)).toInt ∧ (x1 (ix2 (0 : Fin 2) e)).toInt < 100000) :
    Aggr.msgs x0 x1 x2 = Cert.ReferenceIdeal.Read.val_main_v12 (F := Ideal) x0 x1 x2 := by
  funext i
  show max (Aggr.maskedTake x0 (Aggr.srcOf x1) i + x2 i) 0 = _
  rw [Aggr.maskedTake_eq_gather x0 (Aggr.srcOf x1) (src_in_range x1 hr), Cert.ReferenceIdeal.RefAggr.msgR_apply]
  rfl

/-- The kernel program's aggregated messages are the reference's: one scatter-add of the same zeros, the same
    destination positions and the same messages. -/
theorem aggr_eq (x0 : FVec Ideal S100000x128 .f32) (x1 : IVec S2x1600000 32) (x2 : FVec Ideal S1600000x128 .f32)
    (hr : ∀ e : Fin 1600000, (-100000 : ℤ) ≤ (x1 (ix2 (0 : Fin 2) e)).toInt ∧ (x1 (ix2 (0 : Fin 2) e)).toInt < 100000) :
    Aggr.aggr x0 x1 x2 = aggrR x0 x1 x2 := by
  unfold Aggr.aggr
  rw [msg_eq x0 x1 x2 hr, Cert.ReferenceIdeal.RefAggr.aggrR_unfold]
  rfl

/-! ## The two networks agree under the precondition -/

/-- Under the precondition the network over the kernel program's aggregation, with the variance as the mean of squares
    minus the squared mean, is the network over the reference's aggregation, with the variance as the mean of squared
    deviations: the aggregations are equal, and the update of real arguments is real, where the two variances agree. -/
theorem out_eq (x0 : FVec Ideal S100000x128 .f32) (x1 : IVec S2x1600000 32) (x2 : FVec Ideal S1600000x128 .f32)
    (x3 : FVec Ideal S128x128 .f32) (x4 : FVec Ideal S128 .f32) (x5 : FVec Ideal S128x128 .f32)
    (x6 x7 x8 : FVec Ideal S128 .f32)
    (hpre : Cert.Pre_finite_inputs.fn (F := Ideal) x0 x1 x2 x3 x4 x5 x6 x7 x8 = fun _ => 1#1) :
    GineSpec.ofRows (GineSpec.bn (GineSpec.hid x0 (Aggr.aggr x0 x1 x2) x3 x4 x5 x6)
        (GineSpec.varSq (GineSpec.hid x0 (Aggr.aggr x0 x1 x2) x3 x4 x5 x6)) x7 x8)
      = GineSpec.ofRows (GineSpec.bn (GineSpec.hid x0 (aggrR x0 x1 x2) x3 x4 x5 x6)
        (GineSpec.varDev (GineSpec.hid x0 (aggrR x0 x1 x2) x3 x4 x5 x6)) x7 x8) := by
  rw [aggr_eq x0 x1 x2 (Cert.PreFacts.idx_range x0 x1 x2 x3 x4 x5 x6 x7 x8 hpre)]
  have hv : GineSpec.varDev (GineSpec.hid x0 (aggrR x0 x1 x2) x3 x4 x5 x6)
      = GineSpec.varSq (GineSpec.hid x0 (aggrR x0 x1 x2) x3 x4 x5 x6) :=
    Cert.ReferenceIdeal.RefAggr.ref_var x0 x1 x2 x3 x4 x5 x6
      (Cert.PreFacts.real_a0 x0 x1 x2 x3 x4 x5 x6 x7 x8 hpre) (Cert.PreFacts.real_a2 x0 x1 x2 x3 x4 x5 x6 x7 x8 hpre)
      (Cert.PreFacts.real_a3 x0 x1 x2 x3 x4 x5 x6 x7 x8 hpre) (Cert.PreFacts.real_a4 x0 x1 x2 x3 x4 x5 x6 x7 x8 hpre)
      (Cert.PreFacts.real_a5 x0 x1 x2 x3 x4 x5 x6 x7 x8 hpre) (Cert.PreFacts.real_a6 x0 x1 x2 x3 x4 x5 x6 x7 x8 hpre)
  rw [hv]

end Cert.Bridge

end
-- ==== Proof.lean ====
/-
  A graph-network layer: for every edge the source node's features are gathered and added to the edge's own features
  and clamped at zero; the messages are summed onto the destination nodes; each node's features plus its summed
  messages go through two affine layers (a clamp at zero between them); and every feature column of the result is
  normalised by its mean and variance over all nodes, scaled, shifted and clamped at zero.

  The kernel program does this in three tiled passes around host operations: the edge messages block by block; the
  two affine layers on blocks of 10000 nodes, with the column sums of the result and of its squares accumulated across
  the blocks; and the normalisation block by block, the variance taken as the mean of squares less the squared mean.
  The reference does it on whole arrays, the variance taken as the mean of squared deviations.

  Over the extended reals the two agree when every float input is finite and every source index lies in the range
  the reference itself can index (from -100000 up to 99999: below zero counting from the end): the gathered rows are
  then the same rows (the kernel's fill of out-of-range rows never applies), every entry of the update is a real
  number, and for real numbers the two spellings of the variance are one.

  Each program's frame is its run with the result forgotten.
-/
import proofs.«428931_j67113158967915_3_alg».proof.Defs
import proofs.«428931_j67113158967915_3_alg».proof.Proof.Gen.Kernel
import proofs.«428931_j67113158967915_3_alg».proof.Proof.Gen.KernelIdeal
import proofs.«428931_j67113158967915_3_alg».proof.Proof.Gen.ReferenceIdeal
import proofs.«428931_j67113158967915_3_alg».proof.Proof.Gen.Pre_finite_inputs
import proofs.«428931_j67113158967915_3_alg».proof.Proof.Kernel.Run
import proofs.«428931_j67113158967915_3_alg».proof.Proof.KernelIdeal.Run
import proofs.«428931_j67113158967915_3_alg».proof.Proof.KernelIdeal.KFold
import proofs.«428931_j67113158967915_3_alg».proof.Proof.RefValue
import proofs.«428931_j67113158967915_3_alg».proof.Proof.Bridge
import Idealize.ShloMosaic.Adequacy
import Idealize.ShloMosaic.Init

noncomputable section

namespace Cert.Proof

open Idealize.ShloMosaic Idealize.SL.Sem

/-- The word-level kernel program runs to the end and leaves its nine arguments as launched. -/
theorem frame_kernel : Cert.frame_Kernel := fun m ρ _ => Cert.Kernel.Hand.frame (F := Bits) m ρ

/-- So does the kernel program read over the extended reals. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- From memories agreeing on the arguments both programs end at the same result: the kernel's run ends at the
    network's function with the variance as mean of squares less squared mean, the reference's with the variance as mean
    of squared deviations, and under the precondition these are one function of the arguments. -/
theorem algebraic : Cert.algebraic_KernelIdeal_ReferenceIdeal := by
  intro m ρ m' ρ' hpre hagree
  refine ⟨fun c => Cert.ReferenceIdeal.RefValue.outOf m' c, ?_, Cert.ReferenceIdeal.RefValue.ref_run m' ρ'⟩
  refine (θ_run Cert.KernelIdeal.defs _ _).mono (fun _ h c => ⟨(h c).1.trans ?_, (h c).2⟩)
    (Cert.KernelIdeal.Hand.kernel_run m ρ)
  obtain ⟨e0, e1, e2, e3, e4, e5, e6, e7, e8⟩ := hagree c
  show _ = Cert.ReferenceIdeal.RefValue.outOf m' c
  unfold Cert.ReferenceIdeal.RefValue.outOf
  rw [e0, e1, e2, e3, e4, e5, e6, e7, e8]
  exact Cert.Bridge.out_eq _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
